-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_arg1)) (v1 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg1) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg1) = v0 c
          ∧ r.2.mem ((c.tc : Thread Cert.ReferenceIdeal.nD Cert.ReferenceIdeal.τ).loc Cert.ReferenceIdeal.main_v105) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1024x64 : Shape := ⟨2, ![1024, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S100000x64 .f32) (main_arg1 : FVec F S1024x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S100000x64 : Shape := ⟨2, ![100000, 64]⟩
abbrev S1024x64 : Shape := ⟨2, ![1024, 64]⟩
abbrev S_ : Shape := ⟨0, ![]⟩
abbrev S100000 : Shape := ⟨1, ![100000]⟩
abbrev S100000x1 : Shape := ⟨2, ![100000, 1]⟩
abbrev S64x1024 : Shape := ⟨2, ![64, 1024]⟩
abbrev S1024 : Shape := ⟨1, ![1024]⟩
abbrev S1024x1 : Shape := ⟨2, ![1024, 1]⟩
abbrev S1x1024 : Shape := ⟨2, ![1, 1024]⟩
abbrev S1x256 : Shape := ⟨2, ![1, 256]⟩
abbrev S2000x1 : Shape := ⟨2, ![2000, 1]⟩
abbrev S2000x64 : Shape := ⟨2, ![2000, 64]⟩
abbrev S1x128 : Shape := ⟨2, ![1, 128]⟩
abbrev S1x1 : Shape := ⟨2, ![1, 1]⟩
abbrev S2000x1024 : Shape := ⟨2, ![2000, 1024]⟩
abbrev S2000 : Shape := ⟨1, ![2000]⟩
abbrev S1 : Shape := ⟨1, ![1]⟩
abbrev S2x128 : Shape := ⟨2, ![2, 128]⟩
abbrev S2x1 : Shape := ⟨2, ![2, 1]⟩
abbrev S2 : Shape := ⟨1, ![2]⟩
abbrev S1024x1024 : Shape := ⟨2, ![1024, 1024]⟩

abbrev nBuf : Space → Nat
  | .hbm => 150
  | .vmem => 19
  | .smem => 0
  | _ => 0

abbrev hbmTy0_0 (i : Nat) : BufTy := match i % 128 with
  | 0 => ⟨S100000x64, .f32⟩
  | 1 => ⟨S1024x64, .f32⟩
  | 2 => ⟨S100000x64, .f32⟩
  | 3 => ⟨S_, .f32⟩
  | 4 => ⟨S100000, .f32⟩
  | 5 => ⟨S100000x1, .f32⟩
  | 6 => ⟨S1024x64, .bf16⟩
  | 7 => ⟨S64x1024, .bf16⟩
  | 8 => ⟨S1024x64, .f32⟩
  | 9 => ⟨S_, .f32⟩
  | 10 => ⟨S1024, .f32⟩
  | 11 => ⟨S1024x1, .f32⟩
  | 12 => ⟨S1x1024, .f32⟩
  | 13 => ⟨S1x256, .f32⟩
  | 14 => ⟨S2x128, .f32⟩
  | 15 => ⟨S2x1, .f32⟩
  | 16 => ⟨S2, .f32⟩
  | 17 => ⟨S_, .f32⟩
  | 18 => ⟨S_, .f32⟩
  | 19 => ⟨S_, .f32⟩
  | 20 => ⟨S_, .f32⟩
  | 21 => ⟨S1x1, .f32⟩
  | 22 => ⟨S1x256, .f32⟩
  | 23 => ⟨S2x128, .f32⟩
  | 24 => ⟨S2x1, .f32⟩
  | 25 => ⟨S2, .f32⟩
  | 26 => ⟨S_, .f32⟩
  | 27 => ⟨S_, .f32⟩
  | 28 => ⟨S_, .f32⟩
  | 29 => ⟨S_, .f32⟩
  | 30 => ⟨S1024x64, .f32⟩
  | 31 => ⟨S_, .f32⟩
  | 32 => ⟨S1024, .f32⟩
  | 33 => ⟨S1024x1, .f32⟩
  | 34 => ⟨S1024x64, .f32⟩
  | 35 => ⟨S_, .f32⟩
  | 36 => ⟨S1024, .f32⟩
  | 37 => ⟨S1x1024, .f32⟩
  | 38 => ⟨S1024x1024, .f32⟩
  | 39 => ⟨S1024x1024, .f32⟩
  | 40 => ⟨S1024x1024, .f32⟩
  | 41 => ⟨S64x1024, .f32⟩
  | 42 => ⟨S1024x1024, .f32⟩
  | 43 => ⟨S_, .f32⟩
  | 44 => ⟨S1024x1024, .f32⟩
  | 45 => ⟨S1024x1024, .f32⟩
  | 46 => ⟨S1024x1024, .f32⟩
  | 47 => ⟨S_, .f32⟩
  | 48 => ⟨S1024x1024, .f32⟩
  | 49 => ⟨S1024x1024, .f32⟩
  | 50 => ⟨S1024x1024, .i32⟩
  | 51 => ⟨S1024x1024, .i32⟩
  | 52 => ⟨S_, .i32⟩
  | 53 => ⟨S1024x1024, .i32⟩
  | 54 => ⟨S1024x1024, .i32⟩
  | 55 => ⟨S1024x1024, .i1⟩
  | 56 => ⟨S_, .f32⟩
  | 57 => ⟨S1024x1024, .f32⟩
  | 58 => ⟨S1024x1024, .f32⟩
  | 59 => ⟨S_, .f32⟩
  | 60 => ⟨S_, .f32⟩
  | 61 => ⟨S1024x1024, .f32⟩
  | 62 => ⟨S1024x1024, .f32⟩
  | 63 => ⟨S_, .f32⟩
  | 64 => ⟨S_, .f32⟩
  | 65 => ⟨S_, .f32⟩
  | 66 => ⟨S1024x1024, .f32⟩
  | 67 => ⟨S1024x1024, .f32⟩
  | 68 => ⟨S_, .f32⟩
  | 69 => ⟨S1024x1024, .f32⟩
  | 70 => ⟨S1024x1024, .f32⟩
  | 71 => ⟨S_, .f32⟩
  | 72 => ⟨S1024x1024, .f32⟩
  | 73 => ⟨S1024x1024, .f32⟩
  | 74 => ⟨S1024x1024, .f32⟩
  | 75 => ⟨S_, .f32⟩
  | 76 => ⟨S1024, .f32⟩
  | 77 => ⟨S1024x1, .f32⟩
  | 78 => ⟨S1024x1024, .f32⟩
  | 79 => ⟨S1024x1024, .f32⟩
  | 80 => ⟨S1024x1024, .f32⟩
  | 81 => ⟨S1024x1024, .f32⟩
  | 82 => ⟨S_, .f32⟩
  | 83 => ⟨S1024x1024, .f32⟩
  | 84 => ⟨S1024x1024, .f32⟩
  | 85 => ⟨S1024x64, .f32⟩
  | 86 => ⟨S_, .f32⟩
  | 87 => ⟨S1024, .f32⟩
  | 88 => ⟨S1024x1, .f32⟩
  | 89 => ⟨S1024x64, .f32⟩
  | 90 => ⟨S_, .f32⟩
  | 91 => ⟨S1024, .f32⟩
  | 92 => ⟨S1x1024, .f32⟩
  | 93 => ⟨S1024x1024, .f32⟩
  | 94 => ⟨S1024x1024, .f32⟩
  | 95 => ⟨S1024x1024, .f32⟩
  | 96 => ⟨S64x1024, .f32⟩
  | 97 => ⟨S1024x1024, .f32⟩
  | 98 => ⟨S_, .f32⟩
  | 99 => ⟨S1024x1024, .f32⟩
  | 100 => ⟨S1024x1024, .f32⟩
  | 101 => ⟨S1024x1024, .f32⟩
  | 102 => ⟨S_, .f32⟩
  | 103 => ⟨S1024x1024, .f32⟩
  | 104 => ⟨S1024x1024, .f32⟩
  | 105 => ⟨S1024x1024, .i32⟩
  | 106 => ⟨S_, .i32⟩
  | 107 => ⟨S1024x1024, .i32⟩
  | 108 => ⟨S1024x1024, .i32⟩
  | 109 => ⟨S1024x1024, .i32⟩
  | 110 => ⟨S1024x1024, .i1⟩
  | 111 => ⟨S_, .f32⟩
  | 112 => ⟨S1024x1024, .f32⟩
  | 113 => ⟨S1024x1024, .f32⟩
  | 114 => ⟨S1024x1024, .f32⟩
  | 115 => ⟨S_, .f32⟩
  | 116 => ⟨S_, .f32⟩
  | 117 => ⟨S_, .f32⟩
  | 118 => ⟨S1024, .f32⟩
  | 119 => ⟨S_, .f32⟩
  | 120 => ⟨S1024, .f32⟩
  | 121 => ⟨S1024, .i1⟩
  | 122 => ⟨S_, .f32⟩
  | 123 => ⟨S_, .f32⟩
  | 124 => ⟨S1024, .f32⟩
  | 125 => ⟨S1024, .f32⟩
  | 126 => ⟨S1024x1, .i1⟩
  | 127 => ⟨S1024x64, .f32⟩
  | _ => ⟨S100000x64, .f32⟩

abbrev hbmTy0_1 (i : Nat) : BufTy := match i % 128 with
  | 0 => ⟨S1024x1, .f32⟩
  | 1 => ⟨S1024x64, .f32⟩
  | 2 => ⟨S1024x64, .f32⟩
  | 3 => ⟨S_, .f32⟩
  | 4 => ⟨S_, .f32⟩
  | 5 => ⟨S1024x64, .i1⟩
  | 6 => ⟨S1024x64, .f32⟩
  | 7 => ⟨S1024x64, .f32⟩
  | 8 => ⟨S1024x64, .f32⟩
  | 9 => ⟨S1024x64, .f32⟩
  | 10 => ⟨S_, .f32⟩
  | 11 => ⟨S1024, .f32⟩
  | 12 => ⟨S1024, .f32⟩
  | 13 => ⟨S1024, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S2000x1, .f32⟩
  | .local _ .vmem, ⟨1, _⟩ => ⟨S2000x1, .f32⟩
  | .local _ .vmem, ⟨2, _⟩ => ⟨S2000x64, .f32⟩
  | .local _ .vmem, ⟨3, _⟩ => ⟨S2000x64, .f32⟩
  | .local _ .vmem, ⟨4, _⟩ => ⟨S64x1024, .bf16⟩
  | .local _ .vmem, ⟨5, _⟩ => ⟨S1x1024, .f32⟩
  | .local _ .vmem, ⟨6, _⟩ => ⟨S1x128, .f32⟩
  | .local _ .vmem, ⟨7, _⟩ => ⟨S1x128, .f32⟩
  | .local _ .vmem, ⟨8, _⟩ => ⟨S1x1, .f32⟩
  | .local _ .vmem, ⟨9, _⟩ => ⟨S2000x1, .f32⟩
  | .local _ .vmem, ⟨10, _⟩ => ⟨S2000x1, .f32⟩
  | .local _ .vmem, ⟨11, _⟩ => ⟨S2000x64, .f32⟩
  | .local _ .vmem, ⟨12, _⟩ => ⟨S2000x64, .f32⟩
  | .local _ .vmem, ⟨13, _⟩ => ⟨S64x1024, .bf16⟩
  | .local _ .vmem, ⟨14, _⟩ => ⟨S1x1024, .f32⟩
  | .local _ .vmem, ⟨15, _⟩ => ⟨S1x1, .f32⟩
  | .local _ .vmem, ⟨16, _⟩ => ⟨S1x128, .f32⟩
  | .local _ .vmem, ⟨17, _⟩ => ⟨S1x128, .f32⟩
  | .local _ .vmem, ⟨18, _⟩ => ⟨S1x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_6 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_7 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_8 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_9 : Ref sig .tc := ⟨.hbm, 56, rfl⟩
abbrev main_call0_v0 : Ref sig .tc := ⟨.hbm, 57, rfl⟩
abbrev main_v43 : Ref sig .tc := ⟨.hbm, 58, rfl⟩
abbrev main_cst_10 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_cst_12 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_call1_v3 : Ref sig .tc := ⟨.hbm, 68, rfl⟩
abbrev main_call1_v4 : Ref sig .tc := ⟨.hbm, 69, rfl⟩
abbrev main_v47 : Ref sig .tc := ⟨.hbm, 70, rfl⟩
abbrev main_cst_13 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_14 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_15 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_16 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_cst_17 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_18 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_19 : Ref sig .tc := ⟨.hbm, 102, rfl⟩
abbrev main_v73 : Ref sig .tc := ⟨.hbm, 103, rfl⟩
abbrev main_v74 : Ref sig .tc := ⟨.hbm, 104, rfl⟩
abbrev main_call2_v0 : Ref sig .tc := ⟨.hbm, 105, rfl⟩
abbrev main_call2_c : Ref sig .tc := ⟨.hbm, 106, rfl⟩
abbrev main_call2_v1 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_cst : Ref sig .tc := ⟨.hbm, 111, rfl⟩
abbrev main_call2_v5 : Ref sig .tc := ⟨.hbm, 112, rfl⟩
abbrev main_v75 : Ref sig .tc := ⟨.hbm, 113, rfl⟩
abbrev main_v76 : Ref sig .tc := ⟨.hbm, 114, rfl⟩
abbrev main_cst_20 : Ref sig .tc := ⟨.hbm, 115, rfl⟩
abbrev main_v77 : Ref sig .tc := ⟨.hbm, 116, rfl⟩
abbrev main_cst_21 : Ref sig .tc := ⟨.hbm, 117, rfl⟩
abbrev main_v78 : Ref sig .tc := ⟨.hbm, 118, rfl⟩
abbrev main_cst_22 : Ref sig .tc := ⟨.hbm, 119, rfl⟩
abbrev main_v79 : Ref sig .tc := ⟨.hbm, 120, rfl⟩
abbrev main_v80 : Ref sig .tc := ⟨.hbm, 121, rfl⟩
abbrev main_cst_23 : Ref sig .tc := ⟨.hbm, 122, rfl⟩
abbrev main_call3_v0 : Ref sig .tc := ⟨.hbm, 123, rfl⟩
abbrev main_call3_v1 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_24 : Ref sig .tc := ⟨.hbm, 131, rfl⟩
abbrev main_call4_v0 : Ref sig .tc := ⟨.hbm, 132, rfl⟩
abbrev main_call4_v1 : Ref sig .tc := ⟨.hbm, 133, rfl⟩
abbrev main_call4_v2 : Ref sig .tc := ⟨.hbm, 134, rfl⟩
abbrev main_v87 : Ref sig .tc := ⟨.hbm, 135, rfl⟩
abbrev main_v88 : Ref sig .tc := ⟨.hbm, 136, rfl⟩
abbrev main_v89 : Ref sig .tc := ⟨.hbm, 137, rfl⟩
abbrev main_cst_25 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_cst_26 : Ref sig .tc := ⟨.hbm, 142, rfl⟩
abbrev main_v93 : Ref sig .tc := ⟨.hbm, 143, rfl⟩
abbrev main_cst_27 : Ref sig .tc := ⟨.hbm, 144, rfl⟩
abbrev main_v94 : Ref sig .tc := ⟨.hbm, 145, rfl⟩
abbrev main_v95 : Ref sig .tc := ⟨.hbm, 146, rfl⟩
abbrev main_cst_28 : Ref sig .tc := ⟨.hbm, 147, rfl⟩
abbrev main_v96 : Ref sig .tc := ⟨.hbm, 148, rfl⟩
abbrev main_v97 : Ref sig .tc := ⟨.hbm, 149, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v27 : BitVec 1 := Scalar.cmpi .eq arg1 c24_i32
  let v28 : BitVec 32 := Scalar.extui v27
  let c0_i32_15 : BitVec 32 := 0#32
  let v29 : BitVec 1 := Scalar.cmpi .ne v28 c0_i32_15
  v29

def cc0_transform_0 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![2, 25], ![false, false]⟩

def k1_cond2 (i : grid1.Coords) : BitVec 1 :=
  let arg1 : BitVec 32 := BitVec.ofNat 32 (i 1).val
  let c24_i32 : BitVec 32 := 24#32
  let v43 : BitVec 1 := Scalar.cmpi .eq arg1 c24_i32
  let v44 : BitVec 32 := Scalar.extui v43
  let c0_i32_21 : BitVec 32 := 0#32
  let v45 : BitVec 1 := Scalar.cmpi .ne v44 c0_i32_21
  v45

def cc1_transform_0 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S2000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S64x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  reducesTo_S100000x64_S100000_d1 : S100000x64.ReducesTo [1] S100000
  h_S_ : 0 < S_.numel
  bcast_S100000_S100000x1_0 : S100000.BroadcastsInDim S100000x1 (![0] : Fin 1 → Fin S100000x1.rank)
  bitsLt_bf16_f32 : FTy.bits .bf16 < FTy.bits .f32
  transposes_S1024x64_S64x1024_1_0 : S1024x64.Transposes [1, 0] S64x1024
  reducesTo_S1024x64_S1024_d1 : S1024x64.ReducesTo [1] S1024
  bcast_S1024_S1024x1_0 : S1024.BroadcastsInDim S1024x1 (![0] : Fin 1 → Fin S1024x1.rank)
  transposes_S1024x1_S1x1024_1_0 : S1024x1.Transposes [1, 0] S1x1024
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2000x64_S2000x64_0_0 : ∀ a, (![0, 0] : Fin 2 → Nat) a + S2000x64.size a ≤ S2000x64.size a
  h_S2000x64 : 0 < S2000x64.numel
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S2000x1_S2000x1024 : S2000x1.Broadcasts S2000x1024
  broadcasts_S1x1024_S2000x1024 : S1x1024.Broadcasts S2000x1024
  reduces_S2000x1024_S2000 : S2000x1024.Reduces [1] S2000
  shapeCasts_S2000_S2000x1 : S2000.ShapeCasts S2000x1
  reduces_S2000x1_S1 : S2000x1.Reduces [0] S1
  shapeCasts_S1_S1x1 : S1.ShapeCasts S1x1
  broadcasts_S1x1_S1x128 : S1x1.Broadcasts S1x128
  inb_S1x128_S1x128_0_0 : ∀ a, (![0, 0] : Fin 2 → Nat) a + S1x128.size a ≤ S1x128.size a
  h_S1x128 : 0 < S1x128.numel
  shapeCasts_S1x256_S2x128 : S1x256.ShapeCasts S2x128
  slices_S2x128_S2x1_0_0 : S2x128.Slices ![0, 0] S2x1
  shapeCasts_S2x1_S2 : S2x1.ShapeCasts S2
  reducesTo_S2_S_d0 : S2.ReducesTo [0] S_
  shapeCasts_S_S1x1 : S_.ShapeCasts S1x1
  inpos_S1x1_p0_0 : ∀ a, (![0, 0] : Fin 2 → Nat) a < S1x1.size a
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  bcast_S_S1024x1024 : S_.BroadcastsInDim S1024x1024 (![] : Fin 0 → Fin S1024x1024.rank)
  reducesTo_S1024x1024_S_d0_1 : S1024x1024.ReducesTo [0, 1] S_
  reducesTo_S1024x1024_S1024_d1 : S1024x1024.ReducesTo [1] S1024
  transposes_S1024x1024_S1024x1024_1_0 : S1024x1024.Transposes [1, 0] S1024x1024
  bcast_S_S1024 : S_.BroadcastsInDim S1024 (![] : Fin 0 → Fin S1024.rank)
  bcast_S1024x1_S1024x64_0_1 : S1024x1.BroadcastsInDim S1024x64 (![0, 1] : Fin 2 → Fin S1024x64.rank)
  bcast_S_S1024x64 : S_.BroadcastsInDim S1024x64 (![] : Fin 0 → Fin S1024x64.rank)
  reducesTo_S1024_S_d0 : S1024.ReducesTo [0] S_
  dot_S2000x64_S64x1024_S2000x1024_1_0_0_1_n_n_wf : DotDims.WF S2000x64 S64x1024 S2000x1024 [1] [0] [0] [1] [] []
  dot_S1024x64_S64x1024_S1024x1024_1_0_0_1_n_n_wf : DotDims.WF S1024x64 S64x1024 S1024x1024 [1] [0] [0] [1] [] []
  dot_S1024x1024_S1024x64_S1024x64_1_0_0_1_n_n_wf : DotDims.WF S1024x1024 S1024x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1.size a ≤ S100000x1.size a
  hwx0_0 : ∀ i : grid0.Coords, EltTy.bits .f32 = 32 ∨ (Rect.block (s := S100000x1) S2000x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .bf16 = 32 ∨ (Rect.block (s := S64x1024) S64x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x256.size a
  hwx0_4 : ∀ i : grid0.Coords, EltTy.bits .f32 = 32 ∨ (Rect.block (s := S1x256) S1x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S100000x1.size a
  hwx1_0 : ∀ i : grid1.Coords, EltTy.bits .f32 = 32 ∨ (Rect.block (s := S100000x1) S2000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S100000x64.size a
  hwx1_1 : ∀ i : grid1.Coords, EltTy.bits .f32 = 32 ∨ (Rect.block (s := S100000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1024.size a ≤ S64x1024.size a
  hwx1_2 : ∀ i : grid1.Coords, EltTy.bits .bf16 = 32 ∨ (Rect.block (s := S64x1024) S64x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x256.size a
  hwx1_5 : ∀ i : grid1.Coords, EltTy.bits .f32 = 32 ∨ (Rect.block (s := S1x256) S1x128.size (cc1_transform_5 i) (hinb1_5 i)).WholeWords (EltTy.packing .f32)

variable [Facts₀]

def dot_S2000x64_S64x1024_S2000x1024_1_0_0_1_n_n : DotDims S2000x64 S64x1024 S2000x1024 where
  lhsContracting := [1]
  rhsContracting := [0]
  lhsNonContracting := [0]
  rhsNonContracting := [1]
  lhsBatch := []
  rhsBatch := []
  wf := dot_S2000x64_S64x1024_S2000x1024_1_0_0_1_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

abbrev win0_0 : Pipeline.Window sig grid0 :=
  Pipeline.Window.ofSpec (Memref.whole main_v2) S2000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v2) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S64x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v16) S1x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

class Facts : Prop extends Facts₀ where

variable [Facts]
-- ==== ReferenceIdeal.lean ====
abbrev S100000x64 : Shape := ⟨2, ![100000, 64]⟩
abbrev S1024x64 : Shape := ⟨2, ![1024, 64]⟩
abbrev S_ : Shape := ⟨0, ![]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S64x1024 : Shape := ⟨2, ![64, 1024]⟩
abbrev S100000 : Shape := ⟨1, ![100000]⟩
abbrev S100000x1 : Shape := ⟨2, ![100000, 1]⟩
abbrev S100000x1024 : Shape := ⟨2, ![100000, 1024]⟩

abbrev nBuf : Space → Nat
  | .hbm => 168
  | .vmem => 0
  | .smem => 0
  | _ => 0

abbrev hbmTy0_0 (i : Nat) : BufTy := match i % 128 with
  | 0 => ⟨S100000x64, .f32⟩
  | 1 => ⟨S1024x64, .f32⟩
  | 2 => ⟨S1024x64, .f32⟩
  | 3 => ⟨S_, .f32⟩
  | 4 => ⟨S1024, .f32⟩
  | 5 => ⟨S1024x1, .f32⟩
  | 6 => ⟨S1024x64, .f32⟩
  | 7 => ⟨S_, .f32⟩
  | 8 => ⟨S1024, .f32⟩
  | 9 => ⟨S1x1024, .f32⟩
  | 10 => ⟨S1024x1024, .f32⟩
  | 11 => ⟨S1024x1024, .f32⟩
  | 12 => ⟨S1024x1024, .f32⟩
  | 13 => ⟨S64x1024, .f32⟩
  | 14 => ⟨S1024x1024, .f32⟩
  | 15 => ⟨S_, .f32⟩
  | 16 => ⟨S1024x1024, .f32⟩
  | 17 => ⟨S1024x1024, .f32⟩
  | 18 => ⟨S1024x1024, .f32⟩
  | 19 => ⟨S_, .f32⟩
  | 20 => ⟨S1024x1024, .f32⟩
  | 21 => ⟨S1024x1024, .f32⟩
  | 22 => ⟨S1024x1024, .i32⟩
  | 23 => ⟨S1024x1024, .i32⟩
  | 24 => ⟨S_, .i32⟩
  | 25 => ⟨S1024x1024, .i32⟩
  | 26 => ⟨S1024x1024, .i32⟩
  | 27 => ⟨S1024x1024, .i1⟩
  | 28 => ⟨S_, .f32⟩
  | 29 => ⟨S1024x1024, .f32⟩
  | 30 => ⟨S1024x1024, .f32⟩
  | 31 => ⟨S_, .f32⟩
  | 32 => ⟨S_, .f32⟩
  | 33 => ⟨S1024x1024, .f32⟩
  | 34 => ⟨S1024x1024, .f32⟩
  | 35 => ⟨S_, .f32⟩
  | 36 => ⟨S_, .f32⟩
  | 37 => ⟨S_, .f32⟩
  | 38 => ⟨S1024x1024, .f32⟩
  | 39 => ⟨S1024x1024, .f32⟩
  | 40 => ⟨S_, .f32⟩
  | 41 => ⟨S1024x1024, .f32⟩
  | 42 => ⟨S1024x1024, .f32⟩
  | 43 => ⟨S_, .f32⟩
  | 44 => ⟨S1024x1024, .f32⟩
  | 45 => ⟨S1024x1024, .f32⟩
  | 46 => ⟨S1024x1024, .f32⟩
  | 47 => ⟨S_, .f32⟩
  | 48 => ⟨S1024, .f32⟩
  | 49 => ⟨S1024x1, .f32⟩
  | 50 => ⟨S1024x1024, .f32⟩
  | 51 => ⟨S1024x1024, .f32⟩
  | 52 => ⟨S1024x1024, .f32⟩
  | 53 => ⟨S1024x1024, .f32⟩
  | 54 => ⟨S_, .f32⟩
  | 55 => ⟨S1024x1024, .f32⟩
  | 56 => ⟨S1024x1024, .f32⟩
  | 57 => ⟨S100000x64, .f32⟩
  | 58 => ⟨S_, .f32⟩
  | 59 => ⟨S100000, .f32⟩
  | 60 => ⟨S100000x1, .f32⟩
  | 61 => ⟨S1024x64, .f32⟩
  | 62 => ⟨S_, .f32⟩
  | 63 => ⟨S1024, .f32⟩
  | 64 => ⟨S1x1024, .f32⟩
  | 65 => ⟨S100000x1024, .f32⟩
  | 66 => ⟨S100000x1024, .f32⟩
  | 67 => ⟨S100000x1024, .f32⟩
  | 68 => ⟨S64x1024, .f32⟩
  | 69 => ⟨S100000x1024, .f32⟩
  | 70 => ⟨S_, .f32⟩
  | 71 => ⟨S100000x1024, .f32⟩
  | 72 => ⟨S100000x1024, .f32⟩
  | 73 => ⟨S100000x1024, .f32⟩
  | 74 => ⟨S_, .f32⟩
  | 75 => ⟨S100000x1024, .f32⟩
  | 76 => ⟨S100000x1024, .f32⟩
  | 77 => ⟨S_, .f32⟩
  | 78 => ⟨S_, .f32⟩
  | 79 => ⟨S100000x1024, .f32⟩
  | 80 => ⟨S100000x1024, .f32⟩
  | 81 => ⟨S_, .f32⟩
  | 82 => ⟨S_, .f32⟩
  | 83 => ⟨S_, .f32⟩
  | 84 => ⟨S100000x1024, .f32⟩
  | 85 => ⟨S100000x1024, .f32⟩
  | 86 => ⟨S_, .f32⟩
  | 87 => ⟨S100000x1024, .f32⟩
  | 88 => ⟨S100000x1024, .f32⟩
  | 89 => ⟨S_, .f32⟩
  | 90 => ⟨S100000x1024, .f32⟩
  | 91 => ⟨S100000x1024, .f32⟩
  | 92 => ⟨S100000x1024, .f32⟩
  | 93 => ⟨S_, .f32⟩
  | 94 => ⟨S100000, .f32⟩
  | 95 => ⟨S100000x1, .f32⟩
  | 96 => ⟨S100000x1024, .f32⟩
  | 97 => ⟨S100000x1024, .f32⟩
  | 98 => ⟨S100000x1024, .f32⟩
  | 99 => ⟨S_, .f32⟩
  | 100 => ⟨S_, .f32⟩
  | 101 => ⟨S_, .f32⟩
  | 102 => ⟨S_, .f32⟩
  | 103 => ⟨S1024x64, .f32⟩
  | 104 => ⟨S_, .f32⟩
  | 105 => ⟨S1024, .f32⟩
  | 106 => ⟨S1024x1, .f32⟩
  | 107 => ⟨S1024x64, .f32⟩
  | 108 => ⟨S_, .f32⟩
  | 109 => ⟨S1024, .f32⟩
  | 110 => ⟨S1x1024, .f32⟩
  | 111 => ⟨S1024x1024, .f32⟩
  | 112 => ⟨S1024x1024, .f32⟩
  | 113 => ⟨S1024x1024, .f32⟩
  | 114 => ⟨S64x1024, .f32⟩
  | 115 => ⟨S1024x1024, .f32⟩
  | 116 => ⟨S_, .f32⟩
  | 117 => ⟨S1024x1024, .f32⟩
  | 118 => ⟨S1024x1024, .f32⟩
  | 119 => ⟨S1024x1024, .f32⟩
  | 120 => ⟨S_, .f32⟩
  | 121 => ⟨S1024x1024, .f32⟩
  | 122 => ⟨S1024x1024, .f32⟩
  | 123 => ⟨S1024x1024, .i32⟩
  | 124 => ⟨S_, .i32⟩
  | 125 => ⟨S1024x1024, .i32⟩
  | 126 => ⟨S1024x1024, .i32⟩
  | 127 => ⟨S1024x1024, .i32⟩
  | _ => ⟨S100000x64, .f32⟩

abbrev hbmTy0_1 (i : Nat) : BufTy := match i % 128 with
  | 0 => ⟨S1024x1024, .i1⟩
  | 1 => ⟨S_, .f32⟩
  | 2 => ⟨S1024x1024, .f32⟩
  | 3 => ⟨S1024x1024, .f32⟩
  | 4 => ⟨S1024x1024, .f32⟩
  | 5 => ⟨S_, .f32⟩
  | 6 => ⟨S_, .f32⟩
  | 7 => ⟨S_, .f32⟩
  | 8 => ⟨S1024, .f32⟩
  | 9 => ⟨S_, .f32⟩
  | 10 => ⟨S1024, .f32⟩
  | 11 => ⟨S1024, .i1⟩
  | 12 => ⟨S_, .f32⟩
  | 13 => ⟨S_, .f32⟩
  | 14 => ⟨S1024, .f32⟩
  | 15 => ⟨S1024, .f32⟩
  | 16 => ⟨S1024x1, .i1⟩
  | 17 => ⟨S1024x64, .f32⟩
  | 18 => ⟨S1024x1, .f32⟩
  | 19 => ⟨S1024x64, .f32⟩
  | 20 => ⟨S1024x64, .f32⟩
  | 21 => ⟨S_, .f32⟩
  | 22 => ⟨S_, .f32⟩
  | 23 => ⟨S1024x64, .i1⟩
  | 24 => ⟨S1024x64, .f32⟩
  | 25 => ⟨S1024x64, .f32⟩
  | 26 => ⟨S1024x64, .f32⟩
  | 27 => ⟨S1024x64, .f32⟩
  | 28 => ⟨S_, .f32⟩
  | 29 => ⟨S1024, .f32⟩
  | 30 => ⟨S1024, .f32⟩
  | 31 => ⟨S1024, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_call0_v0 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_cst_6 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_v25 : Ref sig .tc := ⟨.hbm, 42, rfl⟩
abbrev main_cst_7 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_10 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_11 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_13 : Ref sig .tc := ⟨.hbm, 74, rfl⟩
abbrev main_v51 : Ref sig .tc := ⟨.hbm, 75, rfl⟩
abbrev main_v52 : Ref sig .tc := ⟨.hbm, 76, rfl⟩
abbrev main_cst_14 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_15 : Ref sig .tc := ⟨.hbm, 81, rfl⟩
abbrev main_cst_16 : Ref sig .tc := ⟨.hbm, 82, rfl⟩
abbrev main_call2_v0 : Ref sig .tc := ⟨.hbm, 83, rfl⟩
abbrev main_call2_v1 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_v56 : Ref sig .tc := ⟨.hbm, 88, rfl⟩
abbrev main_cst_17 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_18 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_cst_19 : Ref sig .tc := ⟨.hbm, 99, rfl⟩
abbrev main_v65 : Ref sig .tc := ⟨.hbm, 100, rfl⟩
abbrev main_cst_20 : Ref sig .tc := ⟨.hbm, 101, rfl⟩
abbrev main_v66 : Ref sig .tc := ⟨.hbm, 102, rfl⟩
abbrev main_v67 : Ref sig .tc := ⟨.hbm, 103, rfl⟩
abbrev main_cst_21 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_cst_22 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_23 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_cst_24 : Ref sig .tc := ⟨.hbm, 120, rfl⟩
abbrev main_v81 : Ref sig .tc := ⟨.hbm, 121, rfl⟩
abbrev main_v82 : Ref sig .tc := ⟨.hbm, 122, rfl⟩
abbrev main_call3_v0 : Ref sig .tc := ⟨.hbm, 123, rfl⟩
abbrev main_call3_c : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_cst : Ref sig .tc := ⟨.hbm, 129, rfl⟩
abbrev main_call3_v5 : Ref sig .tc := ⟨.hbm, 130, rfl⟩
abbrev main_v83 : Ref sig .tc := ⟨.hbm, 131, rfl⟩
abbrev main_v84 : Ref sig .tc := ⟨.hbm, 132, rfl⟩
abbrev main_cst_25 : Ref sig .tc := ⟨.hbm, 133, rfl⟩
abbrev main_v85 : Ref sig .tc := ⟨.hbm, 134, rfl⟩
abbrev main_cst_26 : Ref sig .tc := ⟨.hbm, 135, rfl⟩
abbrev main_v86 : Ref sig .tc := ⟨.hbm, 136, rfl⟩
abbrev main_cst_27 : Ref sig .tc := ⟨.hbm, 137, rfl⟩
abbrev main_v87 : Ref sig .tc := ⟨.hbm, 138, rfl⟩
abbrev main_v88 : Ref sig .tc := ⟨.hbm, 139, rfl⟩
abbrev main_cst_28 : Ref sig .tc := ⟨.hbm, 140, rfl⟩
abbrev main_call4_v0 : Ref sig .tc := ⟨.hbm, 141, rfl⟩
abbrev main_call4_v1 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_cst_29 : Ref sig .tc := ⟨.hbm, 149, rfl⟩
abbrev main_call5_v0 : Ref sig .tc := ⟨.hbm, 150, rfl⟩
abbrev main_call5_v1 : Ref sig .tc := ⟨.hbm, 151, rfl⟩
abbrev main_call5_v2 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_30 : Ref sig .tc := ⟨.hbm, 156, rfl⟩
abbrev main_v98 : Ref sig .tc := ⟨.hbm, 157, rfl⟩
abbrev main_v99 : Ref sig .tc := ⟨.hbm, 158, rfl⟩
abbrev main_v100 : Ref sig .tc := ⟨.hbm, 159, rfl⟩
abbrev main_cst_31 : Ref sig .tc := ⟨.hbm, 160, rfl⟩
abbrev main_v101 : Ref sig .tc := ⟨.hbm, 161, rfl⟩
abbrev main_cst_32 : Ref sig .tc := ⟨.hbm, 162, rfl⟩
abbrev main_v102 : Ref sig .tc := ⟨.hbm, 163, rfl⟩
abbrev main_v103 : Ref sig .tc := ⟨.hbm, 164, rfl⟩
abbrev main_cst_33 : Ref sig .tc := ⟨.hbm, 165, rfl⟩
abbrev main_v104 : Ref sig .tc := ⟨.hbm, 166, rfl⟩
abbrev main_v105 : Ref sig .tc := ⟨.hbm, 167, rfl⟩

abbrev nD : Nat := 1
abbrev τ : Topo := Topo.v7x

variable {F : FTy → Type} [FloatOps F]

class Facts₀ : Prop where
  reducesTo_S1024x64_S1024_d1 : S1024x64.ReducesTo [1] S1024
  h_S_ : 0 < S_.numel
  bcast_S1024_S1024x1_0 : S1024.BroadcastsInDim S1024x1 (![0] : Fin 1 → Fin S1024x1.rank)
  bcast_S1024_S1x1024_1 : S1024.BroadcastsInDim S1x1024 (![1] : Fin 1 → Fin S1x1024.rank)
  bcast_S1024x1_S1024x1024_0_1 : S1024x1.BroadcastsInDim S1024x1024 (![0, 1] : Fin 2 → Fin S1024x1024.rank)
  bcast_S1x1024_S1024x1024_0_1 : S1x1024.BroadcastsInDim S1024x1024 (![0, 1] : Fin 2 → Fin S1024x1024.rank)
  transposes_S1024x64_S64x1024_1_0 : S1024x64.Transposes [1, 0] S64x1024
  bcast_S_S1024x1024 : S_.BroadcastsInDim S1024x1024 (![] : Fin 0 → Fin S1024x1024.rank)
  reducesTo_S1024x1024_S_d0_1 : S1024x1024.ReducesTo [0, 1] S_
  reducesTo_S1024x1024_S1024_d1 : S1024x1024.ReducesTo [1] S1024
  transposes_S1024x1024_S1024x1024_1_0 : S1024x1024.Transposes [1, 0] S1024x1024
  reducesTo_S100000x64_S100000_d1 : S100000x64.ReducesTo [1] S100000
  bcast_S100000_S100000x1_0 : S100000.BroadcastsInDim S100000x1 (![0] : Fin 1 → Fin S100000x1.rank)
  bcast_S100000x1_S100000x1024_0_1 : S100000x1.BroadcastsInDim S100000x1024 (![0, 1] : Fin 2 → Fin S100000x1024.rank)
  bcast_S1x1024_S100000x1024_0_1 : S1x1024.BroadcastsInDim S100000x1024 (![0, 1] : Fin 2 → Fin S100000x1024.rank)
  bcast_S_S100000x1024 : S_.BroadcastsInDim S100000x1024 (![] : Fin 0 → Fin S100000x1024.rank)
  reducesTo_S100000x1024_S_d0_1 : S100000x1024.ReducesTo [0, 1] S_
  reducesTo_S100000x1024_S100000_d1 : S100000x1024.ReducesTo [1] S100000
  bcast_S_S1024 : S_.BroadcastsInDim S1024 (![] : Fin 0 → Fin S1024.rank)
  bcast_S1024x1_S1024x64_0_1 : S1024x1.BroadcastsInDim S1024x64 (![0, 1] : Fin 2 → Fin S1024x64.rank)
  bcast_S_S1024x64 : S_.BroadcastsInDim S1024x64 (![] : Fin 0 → Fin S1024x64.rank)
  reducesTo_S1024_S_d0 : S1024.ReducesTo [0] S_
  dot_S1024x64_S64x1024_S1024x1024_1_0_0_1_n_n_wf : DotDims.WF S1024x64 S64x1024 S1024x1024 [1] [0] [0] [1] [] []
  dot_S100000x64_S64x1024_S100000x1024_1_0_0_1_n_n_wf : DotDims.WF S100000x64 S64x1024 S100000x1024 [1] [0] [0] [1] [] []
  dot_S1024x1024_S1024x64_S1024x64_1_0_0_1_n_n_wf : DotDims.WF S1024x1024 S1024x64 S1024x64 [1] [0] [0] [1] [] []

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S100000x64_S64x1024_S100000x1024_1_0_0_1_n_n : DotDims S100000x64 S64x1024 S100000x1024 where
  lhsContracting := [1]
  rhsContracting := [0]
  lhsNonContracting := [0]
  rhsNonContracting := [1]
  lhsBatch := []
  rhsBatch := []
  wf := dot_S100000x64_S64x1024_S100000x1024_1_0_0_1_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf

class Facts : Prop extends Facts₀ where

variable [Facts]
-- ==== Proof.K.Blocks.lean ====
import proofs.«413624_j13305808683177_3_alg».proof.Proof.Gen.Kernel.Launch
import proofs.«413624_j13305808683177_3_alg».proof.Proof.Gen.Kernel.Skeleton
import proofs.«413624_j13305808683177_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The blocks of each region's windows, read off the arrays as the region finds them: V c b is what core c
    holds in buffer b when the region is entered. -/

variable (V : (c : Dev nD) → (b : Ref sig .tc) → Buf (Elt F) ((c : Thread nD τ).loc b))

/-- Region 0 (the minimum pass): window w's block at grid point t. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1 (the weighted-sum pass): window w's block at grid point t. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Cert.Kernel.Hand

end
-- ==== Proof.K.R0Dat.lean ====
import proofs.«413624_j13305808683177_3_alg».proof.Proof.K.Blocks
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! REGION 0, the minimum pass: the proof data of its pipeline at the entry contents V, the body obligation,
    and what the carried scratch and the output block hold point by point. -/

variable (V : (c : Dev nD) → (b : Ref sig .tc) → Buf (Elt F) ((c : Thread nD τ).loc b))

/-- The running minimum the body keeps in its one-element scratch, after grid position n: at the first point of
    each row of the grid (n a multiple of 25) the minimum of +inf and the tile's least distance, afterwards the
    minimum of what the point before left and the tile's least distance. -/
def S0 (c : Dev nD) : (n : ℕ) → n < cfg0.N → Vec F S1x1 .f32
  | 0, hn => k0_pay2 (iblk0 V c 1 ⟨0, hn⟩) (iblk0 V c 2 ⟨0, hn⟩) (iblk0 V c 0 ⟨0, hn⟩) (iblk0 V c 3 ⟨0, hn⟩) (k0_pay1 (F := F))
  | n + 1, hn => k0_pay2 (iblk0 V c 1 ⟨n + 1, hn⟩) (iblk0 V c 2 ⟨n + 1, hn⟩) (iblk0 V c 0 ⟨n + 1, hn⟩) (iblk0 V c 3 ⟨n + 1, hn⟩)
      (if (n + 1) % 25 = 0 then (k0_pay1 (F := F)) else S0 c n (Nat.lt_of_succ_lt hn))

/-! ## The body's two conditions, in closed form over the grid -/

/-- The body's first branch is taken where the second grid coordinate is 0. -/
abbrev cond0_0 (i : grid0.Coords) : Prop := (Scalar.cmpi .ne (Scalar.extui (Scalar.cmpi .eq (BitVec.ofNat 32 (i 1).val) 0#32)) 0#32) = 1#1
/-- Its last branch is taken where the second grid coordinate is 24. -/
abbrev cond0_1 (i : grid0.Coords) : Prop := k0_cond2 i = 1#1

theorem hcond0_0 : ∀ t : Fin cfg0.N, cond0_0 (grid0.coords t) ↔ t.val % 25 = 0 :=
  (by decide +kernel : ∀ t : Fin grid0.N, cond0_0 (grid0.coords t) ↔ t.val % 25 = 0)
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last column the output window is idle, -/
theorem idleAt0_4 : ∀ t : Fin cfg0.N, ¬cond0_1 (grid0.coords t) → cfg0.idle 4 (grid0.coords t) = true := by decide +kernel
/-- and not written back; -/
theorem noFlush0_4 : ∀ t : Fin cfg0.N, ¬cond0_1 (grid0.coords t) → (cfg0.win 4).flush t = false := by decide +kernel
/-- on the last column it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S2000x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
/-- The one-element scratch, a whole scoped buffer. -/
abbrev scM0 : Memref sig .tc .vmem S1x1 .f32 := Memref.whole cc0_scratch0

/-- The scoped buffers of the core that region 0 never touches, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the launch hands the region, with the scratch as a memref owned at some contents. -/
theorem PhiA0_eq (c : Dev nD) :
    (Pipeline.ΦA spec0 c : sProp 𝕄)
      = iprop(iprop((∃ d, owns (c : Thread nD τ) scM0 fullShare d) ∗ Rest0 (F := F) c) ∗ (∃ r, prngReg c r)) := by
  unfold Pipeline.ΦA Rest0; rw [scopedRest0_eq]; simp only [scM0, owns_whole]; try rfl

/-! ## The body on whole memrefs, case by case -/

/-- The zero offsets of a whole-buffer rectangle of rank two. -/
theorem off2_zero : (![0, 0] : Fin 2 → ℕ) = fun _ => 0 := by
  funext a; fin_cases a <;> rfl

set_option maxHeartbeats 1000000 in
/-- First column: the scratch, found at anything, is reset to +inf and then lowered by the tile's least distance;
    the output buffer is handed back as found. -/
theorem run0_A (c : Dev nD) (i : grid0.Coords) (arg2 : Memref sig .tc .vmem S2000x1 .f32) (harg2 : arg2.IsWhole) (arg3 : Memref sig .tc .vmem S2000x64 .f32) (harg3 : arg3.IsWhole) (arg4 : Memref sig .tc .vmem S64x1024 .bf16) (harg4 : arg4.IsWhole) (arg5 : Memref sig .tc .vmem S1x1024 .f32) (harg5 : arg5.IsWhole) (arg6 : Memref sig .tc .vmem S1x128 .f32) (harg6 : arg6.IsWhole) (arg7 : Memref sig .tc .vmem S1x1 .f32) (harg7 : arg7.IsWhole)
    (hc0 : cond0_0 i) (hc1 : ¬cond0_1 i)
    (x0 : Vec F S2000x1 .f32) (x1 : Vec F S2000x64 .f32) (x2 : Vec F S64x1024 .bf16) (x3 : Vec F S1x1024 .f32) (xi4 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (k0_pay2 x1 x2 x0 x3 (k0_pay1 (F := F)))) -∗ K ⟨⟩))
      ⊢ wp frame (wpE (defs₀ (F := F)) Variants.none c none) E (cc0__min_kernel i arg2 harg2 arg3 harg3 arg4 harg4 arg5 harg5 arg6 harg6 arg7 harg7) K := by
  rw [cc0__min_kernel_eq_skeleton]; unfold cc0__min_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_run_names
  rw [View.read_writes_eq_canon _ _ _ (fun y => ⟨_, List.mem_cons_self, View.mem_set_unit_zero off2_zero inb_S1x1_S1x1_0_0 y⟩),
    View.canon_cons_unit_zero off2_zero, View.readCov_unit_zero _ off2_zero]
  simp only [View.readAt_eq_ld, harg2.read_unread, harg3.read_unread, harg4.read_unread, harg5.read_unread, harg7.read_unread, View.ld_unit_zero (S := S2000x64) off2_zero, View.ld_unit_zero (S := S64x1024) off2_zero, View.ld_unit_zero (S := S2000x1) off2_zero, View.ld_unit_zero (S := S1x1024) off2_zero, View.ld_unit_zero (S := S1x1) off2_zero]

set_option maxHeartbeats 1000000 in
/-- Inner columns: the scratch, found at xs, is lowered by the tile's least distance; the output buffer is handed
    back as found. -/
theorem run0_B (c : Dev nD) (i : grid0.Coords) (arg2 : Memref sig .tc .vmem S2000x1 .f32) (harg2 : arg2.IsWhole) (arg3 : Memref sig .tc .vmem S2000x64 .f32) (harg3 : arg3.IsWhole) (arg4 : Memref sig .tc .vmem S64x1024 .bf16) (harg4 : arg4.IsWhole) (arg5 : Memref sig .tc .vmem S1x1024 .f32) (harg5 : arg5.IsWhole) (arg6 : Memref sig .tc .vmem S1x128 .f32) (harg6 : arg6.IsWhole) (arg7 : Memref sig .tc .vmem S1x1 .f32) (harg7 : arg7.IsWhole)
    (hc0 : ¬cond0_0 i) (hc1 : ¬cond0_1 i)
    (x0 : Vec F S2000x1 .f32) (x1 : Vec F S2000x64 .f32) (x2 : Vec F S64x1024 .bf16) (x3 : Vec F S1x1024 .f32) (xs : Vec F S1x1 .f32) (xi4 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (k0_pay2 x1 x2 x0 x3 xs)) -∗ K ⟨⟩))
      ⊢ wp frame (wpE (defs₀ (F := F)) Variants.none c none) E (cc0__min_kernel i arg2 harg2 arg3 harg3 arg4 harg4 arg5 harg5 arg6 harg6 arg7 harg7) K := by
  rw [cc0__min_kernel_eq_skeleton]; unfold cc0__min_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_run_names
  rw [View.read_writes_eq_canon _ _ _ (fun y => ⟨_, List.mem_cons_self, View.mem_set_unit_zero off2_zero inb_S1x1_S1x1_0_0 y⟩),
    View.canon_unit_zero off2_zero]
  simp only [View.readAt_eq_ld, harg2.read_unread, harg3.read_unread, harg4.read_unread, harg5.read_unread, harg7.read_unread, View.ld_unit_zero (S := S2000x64) off2_zero, View.ld_unit_zero (S := S64x1024) off2_zero, View.ld_unit_zero (S := S2000x1) off2_zero, View.ld_unit_zero (S := S1x1024) off2_zero, View.ld_unit_zero (S := S1x1) off2_zero]

set_option maxHeartbeats 1000000 in
/-- Last column: the scratch, found at xs, is lowered by the tile's least distance, and the result, broadcast
    along the lanes, is stored over the whole output buffer, found at anything. -/
theorem run0_C (c : Dev nD) (i : grid0.Coords) (arg2 : Memref sig .tc .vmem S2000x1 .f32) (harg2 : arg2.IsWhole) (arg3 : Memref sig .tc .vmem S2000x64 .f32) (harg3 : arg3.IsWhole) (arg4 : Memref sig .tc .vmem S64x1024 .bf16) (harg4 : arg4.IsWhole) (arg5 : Memref sig .tc .vmem S1x1024 .f32) (harg5 : arg5.IsWhole) (arg6 : Memref sig .tc .vmem S1x128 .f32) (harg6 : arg6.IsWhole) (arg7 : Memref sig .tc .vmem S1x1 .f32) (harg7 : arg7.IsWhole)
    (hc0 : ¬cond0_0 i) (hc1 : cond0_1 i)
    (x0 : Vec F S2000x1 .f32) (x1 : Vec F S2000x64 .f32) (x2 : Vec F S64x1024 .bf16) (x3 : Vec F S1x1024 .f32) (xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 (k0_pay2 x1 x2 x0 x3 xs)) ∗ owns (c : Thread nD τ) arg7 fullShare (k0_pay2 x1 x2 x0 x3 xs)) -∗ K ⟨⟩))
      ⊢ wp frame (wpE (defs₀ (F := F)) Variants.none c none) E (cc0__min_kernel i arg2 harg2 arg3 harg3 arg4 harg4 arg5 harg5 arg6 harg6 arg7 harg7) K := by
  rw [cc0__min_kernel_eq_skeleton]; unfold cc0__min_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [View.read_writes_eq_canon _ _ _ (fun y => ⟨_, List.mem_cons_self, View.mem_set_unit_zero off2_zero inb_S1x128_S1x128_0_0 y⟩),
      View.canon_unit_zero off2_zero, View.readCov_unit_zero _ off2_zero]
    simp only [View.readAt_eq_ld, harg2.read_unread, harg3.read_unread, harg4.read_unread, harg5.read_unread, harg7.read_unread, View.ld_unit_zero (S := S2000x64) off2_zero, View.ld_unit_zero (S := S64x1024) off2_zero, View.ld_unit_zero (S := S2000x1) off2_zero, View.ld_unit_zero (S := S1x1024) off2_zero, View.ld_unit_zero (S := S1x1) off2_zero]
  iexists _; isplitr
  swap; · iexact HS
  ipureintro
  sl_unfold_run_names
  rw [View.read_writes_eq_canon _ _ _ (fun y => ⟨_, List.mem_cons_self, View.mem_set_unit_zero off2_zero inb_S1x1_S1x1_0_0 y⟩),
    View.canon_unit_zero off2_zero]
  simp only [View.readAt_eq_ld, harg2.read_unread, harg3.read_unread, harg4.read_unread, harg5.read_unread, harg7.read_unread, View.ld_unit_zero (S := S2000x64) off2_zero, View.ld_unit_zero (S := S64x1024) off2_zero, View.ld_unit_zero (S := S2000x1) off2_zero, View.ld_unit_zero (S := S1x1024) off2_zero, View.ld_unit_zero (S := S1x1) off2_zero]

/-! ## The carried minimum, point by point -/

/-- At the first column the fold restarts from +inf; -/
theorem S0_first (c : Dev nD) (t : Fin cfg0.N) (h0 : t.val % 25 = 0) :
    S0 V c t.val t.isLt = k0_pay2 (iblk0 V c 1 t) (iblk0 V c 2 t) (iblk0 V c 0 t) (iblk0 V c 3 t) (k0_pay1 (F := F)) := by
  obtain ⟨n, hn⟩ := t
  cases n with
  | zero => rfl
  | succ n => exact (show S0 V c (n + 1) hn = _ from by rw [S0, if_pos h0])

/-- elsewhere it goes on from what the point before left. -/
theorem S0_next (c : Dev nD) (t : Fin cfg0.N) (h0 : ¬t.val % 25 = 0) :
    S0 V c t.val t.isLt = k0_pay2 (iblk0 V c 1 t) (iblk0 V c 2 t) (iblk0 V c 0 t) (iblk0 V c 3 t)
      (S0 V c (t.val - 1) (Nat.lt_of_le_of_lt (Nat.sub_le _ _) t.isLt)) := by
  obtain ⟨n, hn⟩ := t
  cases n with
  | zero => exact absurd (Nat.zero_mod _) h0
  | succ n => exact (show S0 V c (n + 1) hn = _ from by rw [S0, if_neg h0]; rfl)

/-! ## The region's invariant -/

/-- Before the first point what the launch hands over; before a later point the scratch at the running minimum
    the point before left, the untouched scoped buffers and the generator register at some state. -/
def PhiS0 (c : Dev nD) : (n : ℕ) → n ≤ cfg0.N → sProp 𝕄
  | 0, _ => Pipeline.ΦA spec0 c
  | n + 1, hn => iprop(iprop(owns (c : Thread nD τ) scM0 fullShare (S0 V c n hn) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (S0 V c n hn) ∗ Rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (S0 V c (n - 1) (by omega)) ∗ Rest0 (F := F) c) ∗ (∃ r, prngReg c r)) := by
  cases n with
  | zero => exact absurd rfl hz
  | succ n => rfl

/-! ## The pipeline's proof data -/

/-- The proof data of pipeline 0 on core c. -/
def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (S0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]
theorem recorded_eq0 (c : Dev nD) (t : Fin (cfg0.N + 1)) : (dat0 V c).recorded t = Set.univ := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

/-- The body leaves each input window's staging buffer at its block. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
/-- The output window's block after a point is named at every point as the broadcast of the running minimum
    (it is consulted at the storing points only). -/
theorem after0_4_all (c : Dev nD) (t : Fin cfg0.N) : (dat0 V c).after 4 t = k0_pay3 (S0 V c t.val t.isLt) := by dsimp only [dat0]
/-- At the last point of each row of the grid the body stores the running minimum, broadcast along the lanes,
    into the output block. -/
theorem after0_4 (c : Dev nD) (t : Fin cfg0.N) (h : t.val % 25 = 24) :
    (dat0 V c).after 4 t = k0_pay3 (S0 V c t.val t.isLt) := after0_4_all V c t

/-! ## Each input's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' buffers hold their blocks; the closed forms say which column the point is
    in; the invariant hands the body the scratch at what the point before left (at anything at the first point) and
    takes it back at this point's running minimum; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  by_cases h0 : t.val % 25 = 0
  · have h1 : ¬t.val % 25 = 24 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [S0_first V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (run0_A c (grid0.coords t) _ _ _ _ _ _ _ _ _ _ _ _ hc0 hc1 (iblk0 V c 0 t) (iblk0 V c 1 t) (iblk0 V c 2 t) (iblk0 V c 3 t) ((dat0 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run0_A c (grid0.coords t) _ _ _ _ _ _ _ _ _ _ _ _ hc0 hc1 (iblk0 V c 0 t) (iblk0 V c 1 t) (iblk0 V c 2 t) (iblk0 V c 3 t) ((dat0 V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond0_0 (grid0.coords t) := fun h => h0 ((hcond0_0 t).mp h)
    rw [S0_next V c t h0, PhiS0_castSucc V c t, PhiS0_pos V c _ _ hz]
    by_cases h1 : t.val % 25 = 24
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4_all, S0_next V c t h0]
      iintro ⟨⟨⟨HS, HR⟩, Hg⟩, Ho, ⟨%d0, H0⟩, ⟨%d1, H1⟩, ⟨%d2, H2⟩, ⟨%d3, H3⟩, ⟨%d4, H4⟩⟩
      iapply (run0_C c (grid0.coords t) _ _ _ _ _ _ _ _ _ _ _ _ hc0 hc1 (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dat0 V c) 4 t (idleAt0_4 t hc1) (noFlush0_4 t hc1)]
      iintro ⟨⟨⟨HS, HR⟩, Hg⟩, Ho, ⟨%d0, H0⟩, ⟨%d1, H1⟩, ⟨%d2, H2⟩, ⟨%d3, H3⟩, ⟨%d4, H4⟩⟩
      iapply (run0_B c (grid0.coords t) _ _ _ _ _ _ _ _ _ _ _ _ hc0 hc1 (iblk0 V c 0 t) (iblk0 V c 1 t) (iblk0 V c 2 t) (iblk0 V c 3 t) _ ((dat0 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back what the launch handed over, the scratch's contents
    forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

/-- After the last point the invariant gives it back, the scratch's contents forgotten. -/
theorem hout0 (c : Dev nD) : (dat0 V c).Φ (Fin.last cfg0.N) ⊢ (Pipeline.ΦA spec0 c : sProp 𝕄) :=
  Phi_out0 V c _ (by rw [Fin.val_last]; have : cfg0.N = 50 := N_0; omega)

end Cert.Kernel.Hand

end
-- ==== Proof.K.R1Runs.lean ====
import proofs.«413624_j13305808683177_3_alg».proof.Proof.K.Blocks
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! REGION 1, the weighted-sum pass: what the body's runs are stated over — its two branch conditions in closed form,
    where the output window is idle, the staging memrefs at a point, and the region's invariant with the carried
    scratch singled out. -/

/-- The reset condition of the body (second grid coordinate zero), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

/-- The storing condition of the body (second grid coordinate 24). -/
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

/-! Where the windows are idle: the inputs never, the output window except at the last point of a row. -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last point of a row the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last point of a row it is live. -/
theorem liveAt1_5 : ∀ t : Fin cfg1.N, cond1_1 (grid1.coords t) → cfg1.idle 5 (grid1.coords t) = false := by decide +kernel

/-! The current staging memref of each window at point t, as the pipeline passes it to the body, and its wholeness. -/

abbrev ms1_0 (t : Fin cfg1.N) : Memref sig .tc .vmem S2000x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
/-- The one-element scratch the body carries between points: a whole scoped buffer of the kernel's own. -/
abbrev scM1_0 : Memref sig .tc .vmem S1x1 .f32 := Memref.whole cc1_scratch0

/-- The core's scoped buffers the region never touches (the other region's staging buffers and scratch), each whole
    at some contents, beside the generator register at some state. -/
def Rest1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f)) ∗ (∃ r, prngReg c r))

/-- The launch's invariant gives the carried scratch at some contents, beside the untouched rest; -/
theorem PhiA1_split (c : Dev nD) :
    (Pipeline.ΦA spec1 c : sProp 𝕄) ⊢ iprop(iprop((∃ d, owns (c : Thread nD τ) scM1_0 fullShare d)) ∗ Rest1 c) := by
  unfold Pipeline.ΦA Rest1; rw [scopedRest1_eq]; simp only [scM1_0, owns_whole]
  iintro ⟨⟨R0, R1, R2, R3, R4, R5, R6, R7, R8, HS⟩, Hg⟩
  isplitl [HS]; · iexact HS
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact Hg

/-- and is given back by them. -/
theorem PhiA1_join (c : Dev nD) :
    iprop(iprop((∃ d, owns (c : Thread nD τ) scM1_0 fullShare d)) ∗ Rest1 c) ⊢ (Pipeline.ΦA spec1 c : sProp 𝕄) := by
  unfold Pipeline.ΦA Rest1; rw [scopedRest1_eq]; simp only [scM1_0, owns_whole]
  iintro ⟨HS, ⟨R0, R1, R2, R3, R4, R5, R6, R7, R8⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  iexact Hg

/-- The region's invariant as the launch hands it over: the carried scratch owned at some contents, beside the
    untouched rest. -/
theorem PhiA1_eq (c : Dev nD) :
    (Pipeline.ΦA spec1 c : sProp 𝕄)
      = iprop(iprop((∃ d, owns (c : Thread nD τ) scM1_0 fullShare d)) ∗ Rest1 c) :=
  BI.equiv_iff.mp ⟨PhiA1_split c, PhiA1_join c⟩

end Cert.Kernel.Hand

end
-- ==== Proof.K.R1Run.lean ====
import proofs.«413624_j13305808683177_3_alg».proof.Proof.K.R1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! REGION 1, the weighted-sum pass: the body's run in each of its three control cases, by symbolic execution of
    its skeleton. Every load and store of the body goes through the whole-buffer rectangle at zero offsets, so a
    load reads the buffer's contents and a store leaves its payload. -/

set_option maxHeartbeats 1000000 in
/-- The body at a first point of a row (the reset taken, no output store), on whole staging memrefs: the inputs at
    their contents, the output's buffer handed back untouched, the scratch at anything; it leaves the scratch at
    zero plus the tile's sum. -/
theorem kernelRun1_A (c : Dev nD) (i : grid1.Coords) (arg2 : Memref sig .tc .vmem S2000x1 .f32) (harg2 : arg2.IsWhole) (arg3 : Memref sig .tc .vmem S2000x64 .f32) (harg3 : arg3.IsWhole) (arg4 : Memref sig .tc .vmem S64x1024 .bf16) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x1 .f32) (harg8 : arg8.IsWhole) (hc0 : cond1_0 i) (hc1 : ¬cond1_1 i)
    (x0 : Vec F S2000x1 .f32) (x1 : Vec F S2000x64 .f32) (x2 : Vec F S64x1024 .bf16) (x3 : Vec F S1x1024 .f32) (x4 : Vec F S1x1 .f32) (xi5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare (k1_pay1 (k1_pay4 x1 x2 x0 x3 x4) (k1_pay3 (F := F)))) -∗ K ⟨⟩))
      ⊢ wp frame (wpE (defs₀ (F := F)) Variants.none c none) E (cc1__sum_kernel i arg2 harg2 arg3 harg3 arg4 harg4 arg5 harg5 arg6 harg6 arg7 harg7 arg8 harg8) K := by
  simp only [cc1__sum_kernel_eq_skeleton]; unfold cc1__sum_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS0
  ipureintro
  sl_unfold_run_names
  have hz : (![0, 0] : Fin S1x1.rank → ℕ) = fun _ => 0 := by funext a; fin_cases a <;> rfl
  have hcov : ∀ y : S1x1.Idx, y ∈ (Rect.unit (s := S1x1) ![0, 0] S1x1.size inb_S1x1_S1x1_0_0).set := View.mem_set_unit_zero (S := S1x1) hz inb_S1x1_S1x1_0_0
  rw [View.read_writes_eq_canon _ _ _ (fun y => ⟨_, List.mem_cons_self, hcov y⟩)]
  rw [View.canon_cons_unit_zero (S := S1x1) hz, View.readCov_unit_zero (S := S1x1) _ hz]
  simp only [View.readAt_eq_ld, harg2.read_unread, harg3.read_unread, harg4.read_unread, harg5.read_unread, harg6.read_unread,
    View.ld_unit_zero (S := S2000x64) hz, View.ld_unit_zero (S := S64x1024) hz, View.ld_unit_zero (S := S2000x1) hz, View.ld_unit_zero (S := S1x1024) hz, View.ld_unit_zero (S := S1x1) hz]

set_option maxHeartbeats 1000000 in
/-- The body at an inner point of a row (no reset, no output store), on whole staging memrefs: the inputs at their
    contents, the output's buffer handed back untouched, the scratch at what the point before left; it leaves the
    scratch at that plus the tile's sum. -/
theorem kernelRun1_B (c : Dev nD) (i : grid1.Coords) (arg2 : Memref sig .tc .vmem S2000x1 .f32) (harg2 : arg2.IsWhole) (arg3 : Memref sig .tc .vmem S2000x64 .f32) (harg3 : arg3.IsWhole) (arg4 : Memref sig .tc .vmem S64x1024 .bf16) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x1 .f32) (harg8 : arg8.IsWhole) (hc0 : ¬cond1_0 i) (hc1 : ¬cond1_1 i)
    (x0 : Vec F S2000x1 .f32) (x1 : Vec F S2000x64 .f32) (x2 : Vec F S64x1024 .bf16) (x3 : Vec F S1x1024 .f32) (x4 : Vec F S1x1 .f32) (xs0 : Vec F S1x1 .f32) (xi5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare (k1_pay1 (k1_pay4 x1 x2 x0 x3 x4) xs0)) -∗ K ⟨⟩))
      ⊢ wp frame (wpE (defs₀ (F := F)) Variants.none c none) E (cc1__sum_kernel i arg2 harg2 arg3 harg3 arg4 harg4 arg5 harg5 arg6 harg6 arg7 harg7 arg8 harg8) K := by
  simp only [cc1__sum_kernel_eq_skeleton]; unfold cc1__sum_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS0
  ipureintro
  sl_unfold_run_names
  have hz : (![0, 0] : Fin S1x1.rank → ℕ) = fun _ => 0 := by funext a; fin_cases a <;> rfl
  have hcov : ∀ y : S1x1.Idx, y ∈ (Rect.unit (s := S1x1) ![0, 0] S1x1.size inb_S1x1_S1x1_0_0).set := View.mem_set_unit_zero (S := S1x1) hz inb_S1x1_S1x1_0_0
  rw [View.read_writes_eq_canon _ _ _ (fun y => ⟨_, List.mem_singleton_self _, hcov y⟩)]
  rw [View.canon_unit_zero (S := S1x1) hz]
  simp only [View.readAt_eq_ld, harg2.read_unread, harg3.read_unread, harg4.read_unread, harg5.read_unread, harg6.read_unread, harg8.read_unread,
    View.ld_unit_zero (S := S2000x64) hz, View.ld_unit_zero (S := S64x1024) hz, View.ld_unit_zero (S := S2000x1) hz, View.ld_unit_zero (S := S1x1024) hz, View.ld_unit_zero (S := S1x1) hz]

set_option maxHeartbeats 1000000 in
/-- The body at a last point of a row (no reset, the output store taken), on whole staging memrefs: the inputs at
    their contents, the output's buffer at anything, the scratch at what the point before left; it leaves the scratch
    at that plus the tile's sum, and the output's buffer at the broadcast of the new scratch. -/
theorem kernelRun1_C (c : Dev nD) (i : grid1.Coords) (arg2 : Memref sig .tc .vmem S2000x1 .f32) (harg2 : arg2.IsWhole) (arg3 : Memref sig .tc .vmem S2000x64 .f32) (harg3 : arg3.IsWhole) (arg4 : Memref sig .tc .vmem S64x1024 .bf16) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x1 .f32) (harg8 : arg8.IsWhole) (hc0 : ¬cond1_0 i) (hc1 : cond1_1 i)
    (x0 : Vec F S2000x1 .f32) (x1 : Vec F S2000x64 .f32) (x2 : Vec F S64x1024 .bf16) (x3 : Vec F S1x1024 .f32) (x4 : Vec F S1x1 .f32) (xs0 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay2 (k1_pay1 (k1_pay4 x1 x2 x0 x3 x4) xs0)) ∗ owns (c : Thread nD τ) arg8 fullShare (k1_pay1 (k1_pay4 x1 x2 x0 x3 x4) xs0)) -∗ K ⟨⟩))
      ⊢ wp frame (wpE (defs₀ (F := F)) Variants.none c none) E (cc1__sum_kernel i arg2 harg2 arg3 harg3 arg4 harg4 arg5 harg5 arg6 harg6 arg7 harg7 arg8 harg8) K := by
  simp only [cc1__sum_kernel_eq_skeleton]; unfold cc1__sum_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0
  sl_exec (disch := first | exact hc0 | exact hc1)
  sl_step
  have hz : (![0, 0] : Fin S1x1.rank → ℕ) = fun _ => 0 := by funext a; fin_cases a <;> rfl
  have hcov : ∀ y : S1x1.Idx, y ∈ (Rect.unit (s := S1x1) ![0, 0] S1x1.size inb_S1x1_S1x1_0_0).set := View.mem_set_unit_zero (S := S1x1) hz inb_S1x1_S1x1_0_0
  have hcov5 : ∀ y : S1x128.Idx, y ∈ (Rect.unit (s := S1x128) ![0, 0] S1x128.size inb_S1x128_S1x128_0_0).set := View.mem_set_unit_zero (S := S1x128) hz inb_S1x128_S1x128_0_0
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    rw [View.read_writes_eq_canon _ _ _ (fun y => ⟨_, List.mem_singleton_self _, hcov5 y⟩)]
    rw [View.canon_unit_zero (S := S1x128) hz, View.readCov_unit_zero (S := S1x1) _ hz]
    simp only [View.readAt_eq_ld, harg2.read_unread, harg3.read_unread, harg4.read_unread, harg5.read_unread, harg6.read_unread, harg8.read_unread,
      View.ld_unit_zero (S := S2000x64) hz, View.ld_unit_zero (S := S64x1024) hz, View.ld_unit_zero (S := S2000x1) hz, View.ld_unit_zero (S := S1x1024) hz, View.ld_unit_zero (S := S1x1) hz]
  iexists _; isplitr
  swap; · iexact HS0
  ipureintro
  sl_unfold_run_names
  rw [View.read_writes_eq_canon _ _ _ (fun y => ⟨_, List.mem_singleton_self _, hcov y⟩)]
  rw [View.canon_unit_zero (S := S1x1) hz]
  simp only [View.readAt_eq_ld, harg2.read_unread, harg3.read_unread, harg4.read_unread, harg5.read_unread, harg6.read_unread, harg8.read_unread,
    View.ld_unit_zero (S := S2000x64) hz, View.ld_unit_zero (S := S64x1024) hz, View.ld_unit_zero (S := S2000x1) hz, View.ld_unit_zero (S := S1x1024) hz, View.ld_unit_zero (S := S1x1) hz]

end Cert.Kernel.Hand

end
-- ==== Proof.K.R1Dat.lean ====
import proofs.«413624_j13305808683177_3_alg».proof.Proof.K.R1Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! REGION 1, the weighted-sum pass: the proof data of its pipeline at the entry contents V, the body obligation,
    and what the carried scratch and the output block hold point by point. -/

variable (V : (c : Dev nD) → (b : Ref sig .tc) → Buf (Elt F) ((c : Thread nD τ).loc b))

/-- The tile's weighted sum at grid point t (a one-element vector): the body's pure value of its five input blocks. -/
def tileSum1 (c : Dev nD) (t : Fin cfg1.N) : FVec F S1 .f32 :=
  k1_pay4 (iblk1 V c 1 t) (iblk1 V c 2 t) (iblk1 V c 0 t) (iblk1 V c 3 t) (iblk1 V c 4 t)

/-- The running sum the body keeps in its one-element scratch, after grid position n: at the first point of each
    row of the grid (n a multiple of 25) zero plus the tile's sum, afterwards what the point before left plus the
    tile's sum. -/
def S1 (c : Dev nD) : (n : ℕ) → n < cfg1.N → Vec F S1x1 .f32
  | 0, hn => k1_pay1 (tileSum1 V c ⟨0, hn⟩) (k1_pay3 (F := F))
  | n + 1, hn => k1_pay1 (tileSum1 V c ⟨n + 1, hn⟩)
      (if (n + 1) % 25 = 0 then (k1_pay3 (F := F)) else S1 c n (Nat.lt_of_succ_lt hn))

/-- At the first point of a row the running sum restarts from zero. -/
theorem S1_reset (c : Dev nD) (t : Fin cfg1.N) (h : t.val % 25 = 0) :
    S1 V c t.val t.isLt = k1_pay1 (tileSum1 V c t) (k1_pay3 (F := F)) := by
  obtain ⟨n, hn⟩ := t
  cases n with
  | zero => rfl
  | succ n =>
    show k1_pay1 (tileSum1 V c ⟨n + 1, hn⟩) (if (n + 1) % 25 = 0 then (k1_pay3 (F := F)) else S1 V c n (Nat.lt_of_succ_lt hn)) = _
    rw [if_pos h]

/-- At every other point it is what the point before left plus the tile's sum. -/
theorem S1_carry (c : Dev nD) (t : Fin cfg1.N) (h : ¬t.val % 25 = 0) :
    S1 V c t.val t.isLt = k1_pay1 (tileSum1 V c t) (S1 V c (t.val - 1) (Nat.lt_of_le_of_lt (Nat.sub_le _ _) t.isLt)) := by
  obtain ⟨n, hn⟩ := t
  cases n with
  | zero => exact absurd (Nat.zero_mod _) h
  | succ n =>
    show k1_pay1 (tileSum1 V c ⟨n + 1, hn⟩) (if (n + 1) % 25 = 0 then (k1_pay3 (F := F)) else S1 V c n (Nat.lt_of_succ_lt hn)) = _
    rw [if_neg h]; rfl

/-- The region's invariant before position n: before the first point what the launch hands over; afterwards the
    carried scratch at the running sum the point before left, beside the untouched rest. -/
def PhiS1 (c : Dev nD) : (n : ℕ) → n ≤ cfg1.N → sProp 𝕄
  | 0, _ => Pipeline.ΦA spec1 c
  | n + 1, hn => iprop(iprop(owns (c : Thread nD τ) scM1_0 fullShare (S1 V c n hn)) ∗ Rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (S1 V c n hn)) ∗ Rest1 c) := rfl

theorem PhiS1_pos (c : Dev nD) (n : ℕ) (h : n ≤ cfg1.N) (hz : n ≠ 0) :
    PhiS1 V c n h = iprop(iprop(owns (c : Thread nD τ) scM1_0 fullShare (S1 V c (n - 1) (by omega))) ∗ Rest1 c) := by
  cases n with
  | zero => exact absurd rfl hz
  | succ n => rfl

/-- The proof data of pipeline 1 on core c. -/
def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay2 (S1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]
theorem recorded_eq1 (c : Dev nD) (t : Fin (cfg1.N + 1)) : (dat1 V c).recorded t = Set.univ := by dsimp only [dat1]

/-- The body leaves each input window's staging buffer at its block. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
/-- At the last point of each row of the grid the body stores the running sum, broadcast along the lanes,
    into the output block. -/
theorem after1_5 (c : Dev nD) (t : Fin cfg1.N) (h : t.val % 25 = 24) :
    (dat1 V c).after 5 t = k1_pay2 (S1 V c t.val t.isLt) := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! An input window's current staging buffer holds its block at every point, fetched there or not: where it is not
    fetched its block index has not moved, and the body left the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- An input window is live everywhere: the body's post for it is its buffer at what the body leaves. -/
theorem leaves1_0 (c : Dev nD) (t : Fin cfg1.N) :
    (dat1 V c).leavesExact 0 t = owns (c : Thread nD τ) (ms1_0 t) fullShare ((dat1 V c).after 0 t) := by
  unfold Dat.leavesExact; rw [liveAt1_0 t]
theorem leaves1_1 (c : Dev nD) (t : Fin cfg1.N) :
    (dat1 V c).leavesExact 1 t = owns (c : Thread nD τ) (ms1_1 t) fullShare ((dat1 V c).after 1 t) := by
  unfold Dat.leavesExact; rw [liveAt1_1 t]
theorem leaves1_2 (c : Dev nD) (t : Fin cfg1.N) :
    (dat1 V c).leavesExact 2 t = owns (c : Thread nD τ) (ms1_2 t) fullShare ((dat1 V c).after 2 t) := by
  unfold Dat.leavesExact; rw [liveAt1_2 t]
theorem leaves1_3 (c : Dev nD) (t : Fin cfg1.N) :
    (dat1 V c).leavesExact 3 t = owns (c : Thread nD τ) (ms1_3 t) fullShare ((dat1 V c).after 3 t) := by
  unfold Dat.leavesExact; rw [liveAt1_3 t]
theorem leaves1_4 (c : Dev nD) (t : Fin cfg1.N) :
    (dat1 V c).leavesExact 4 t = owns (c : Thread nD τ) (ms1_4 t) fullShare ((dat1 V c).after 4 t) := by
  unfold Dat.leavesExact; rw [liveAt1_4 t]

/-! The body obligation, at a generic point. -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the point's position in its row says which of the
    three runs applies; the invariant hands the body the scratch at what the point before left (at anything before
    the first point) and takes it back at the running sum of this point; away from the last point of a row the
    output window is idle and its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V, before1_3 V, before1_4 V]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, after1_0, after1_1, after1_2, after1_3, after1_4]
  have hN : t.val < 50 := lt_of_lt_of_eq t.isLt (show cfg1.N = 50 from N_1)
  by_cases h0 : t.val % 25 = 0
  · have h1 : ¬t.val % 25 = 24 := by omega
    rw [Dat.leavesExact_idle (dat1 V c) 5 t (idleAt1_5 t (fun h => h1 ((hcond1_1 t).mp h))) (noFlush1_5 t (fun h => h1 ((hcond1_1 t).mp h)))]
    rw [S1_reset V c t h0]; unfold tileSum1
    by_cases hz : t.val = 0
    · rw [PhiS1_castSucc V c t, PhiS1_zero V c _ _ hz, PhiA1_eq]
      iintro ⟨⟨HS0, Hg⟩, Ho, ⟨%d0, H0⟩, ⟨%d1, H1⟩, ⟨%d2, H2⟩, ⟨%d3, H3⟩, ⟨%d4, H4⟩, ⟨%d5, H5⟩⟩
      iapply (kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun hz => h0 (by rw [hz])
    by_cases h1 : t.val % 25 = 24
    · rw [show (dat1 V c).leavesExact 5 t = owns (c : Thread nD τ) (ms1_5 t) fullShare ((dat1 V c).after 5 t) from by
        unfold Dat.leavesExact; rw [liveAt1_5 t ((hcond1_1 t).mpr h1)], after1_5 V c t h1]
      rw [S1_carry V c t h0]; unfold tileSum1
      rw [PhiS1_castSucc V c t, PhiS1_pos V c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcond1_1 t).mp h))) (noFlush1_5 t (fun h => h1 ((hcond1_1 t).mp h)))]
      rw [S1_carry V c t h0]; unfold tileSum1
      rw [PhiS1_castSucc V c t, PhiS1_pos V c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch's contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨HS0, Hg⟩
  isplitl [HS0]
  · iexists _; iexact HS0
  iexact Hg

/-- After the last point the invariant gives it back, the scratch's contents forgotten. -/
theorem hout1 (c : Dev nD) : (dat1 V c).Φ (Fin.last cfg1.N) ⊢ (Pipeline.ΦA spec1 c : sProp 𝕄) :=
  Phi_out1 V c _ (by rw [Fin.val_last]; have : cfg1.N = 50 := N_1; omega)

end Cert.Kernel.Hand

end
-- ==== Proof.K.Run.lean ====
import proofs.«413624_j13305808683177_3_alg».proof.Proof.K.R0Dat
import proofs.«413624_j13305808683177_3_alg».proof.Proof.K.R1Dat
import proofs.«413624_j13305808683177_3_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! THE RUN of the whole program: its fifteen segments (thirteen stretches of host operations and the two kernel
    regions) from the launch to the return, the buffer contents at every boundary as a fold from the launch memory,
    and the statement that every weakly fair execution terminates with every unscoped buffer at the last fold. -/

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- Core c's buffers after the host operations of stretch hostOps0. -/
abbrev W1 : Dev nD → Valuation τ sig (Elt F) := fun c => StableHlo.after hostOps0 (W0 m ρ c)
/-- The contents region 0 is entered from, read at the TensorCore's references. -/
abbrev V1 : (c : Dev nD) → (b : Ref sig .tc) → Buf (Elt F) ((c : Thread nD τ).loc b) := fun c b => W1 m ρ c b
/-- Core c's buffers when region 0 is left: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Core c's buffers after the host operations of stretch hostOps1. -/
abbrev W3 : Dev nD → Valuation τ sig (Elt F) := fun c => StableHlo.after hostOps1 (W2 m ρ c)
/-- The contents region 1 is entered from, read at the TensorCore's references. -/
abbrev V3 : (c : Dev nD) → (b : Ref sig .tc) → Buf (Elt F) ((c : Thread nD τ).loc b) := fun c b => W3 m ρ c b
/-- Core c's buffers when region 1 is left: its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Core c's buffers after the host operations of stretch hostOps2. -/
abbrev W5 : Dev nD → Valuation τ sig (Elt F) := fun c => StableHlo.after hostOps2 (W4 m ρ c)
/-- Core c's buffers after the host operations of stretch hostOps2_1. -/
abbrev W6 : Dev nD → Valuation τ sig (Elt F) := fun c => StableHlo.after hostOps2_1 (W5 m ρ c)
/-- Core c's buffers after the host operations of stretch hostOps2_2. -/
abbrev W7 : Dev nD → Valuation τ sig (Elt F) := fun c => StableHlo.after hostOps2_2 (W6 m ρ c)
/-- Core c's buffers after the host operations of stretch hostOps2_3. -/
abbrev W8 : Dev nD → Valuation τ sig (Elt F) := fun c => StableHlo.after hostOps2_3 (W7 m ρ c)
/-- Core c's buffers after the host operations of stretch hostOps2_4. -/
abbrev W9 : Dev nD → Valuation τ sig (Elt F) := fun c => StableHlo.after hostOps2_4 (W8 m ρ c)
/-- Core c's buffers after the host operations of stretch hostOps2_5. -/
abbrev W10 : Dev nD → Valuation τ sig (Elt F) := fun c => StableHlo.after hostOps2_5 (W9 m ρ c)
/-- Core c's buffers after the host operations of stretch hostOps2_6. -/
abbrev W11 : Dev nD → Valuation τ sig (Elt F) := fun c => StableHlo.after hostOps2_6 (W10 m ρ c)
/-- Core c's buffers after the host operations of stretch hostOps2_7. -/
abbrev W12 : Dev nD → Valuation τ sig (Elt F) := fun c => StableHlo.after hostOps2_7 (W11 m ρ c)
/-- Core c's buffers after the host operations of stretch hostOps2_8. -/
abbrev W13 : Dev nD → Valuation τ sig (Elt F) := fun c => StableHlo.after hostOps2_8 (W12 m ρ c)
/-- Core c's buffers after the host operations of stretch hostOps2_9. -/
abbrev W14 : Dev nD → Valuation τ sig (Elt F) := fun c => StableHlo.after hostOps2_9 (W13 m ρ c)
/-- Core c's buffers after the host operations of stretch hostOps2_10. -/
abbrev W15 : Dev nD → Valuation τ sig (Elt F) := fun c => StableHlo.after hostOps2_10 (W14 m ρ c)

/-- No pallas_call has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes term. -/
abbrev Tₙ (c : Dev nD) : sProp 𝕄 := iprop(StableHlo.held (c : Thread nD τ) (Pipeline.ucRefs τ sig) (W15 m ρ c) ∗ ∃ r, prngReg c r)

set_option backward.isDefEq.respectTransparency.types false in
/-- Region 0 as a segment: entered from every unscoped buffer at W1, left at W2; its arrays are split out of the
    unscoped buffers and put back at the exit contents; the generator register goes into the region's invariant and comes
    back; the core owes nothing; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed_eq0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from owed_eq0 (V1 m ρ) c 0]
      icases HO with ⟨%W, HO⟩; iexists W; isplitr
      · ipureintro; exact fun _ _ => Or.inl ((recorded_eq0 (V1 m ρ) c 0).symm ▸ Set.mem_univ _)
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from owed_eq0 (V1 m ρ) c _]
    icases HO with ⟨%W, -, HO⟩; iexists W; iexact HO

set_option backward.isDefEq.respectTransparency.types false in
/-- Region 1 as a segment: entered from every unscoped buffer at W3, left at W4; its arrays are split out of the
    unscoped buffers and put back at the exit contents; the generator register goes into the region's invariant and comes
    back; the core owes nothing; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed_eq1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed_eq1 (V3 m ρ) c 0]
      icases HO with ⟨%W, HO⟩; iexists W; isplitr
      · ipureintro; exact fun _ _ => Or.inl ((recorded_eq1 (V3 m ρ) c 0).symm ▸ Set.mem_univ _)
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last _) = 0 from owed_eq1 (V3 m ρ) c _]
    icases HO with ⟨%W, -, HO⟩; iexists W; iexact HO

/-- The program's fifteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)),
    .host (hseg hostOps2_5 hostOps2_5_sub hostOps2_5_fresh (W9 m ρ)),
    .host (hseg hostOps2_6 hostOps2_6_sub hostOps2_6_fresh (W10 m ρ)),
    .host (hseg hostOps2_7 hostOps2_7_sub hostOps2_7_fresh (W11 m ρ)),
    .host (hseg hostOps2_8 hostOps2_8_sub hostOps2_8_fresh (W12 m ρ)),
    .host (hseg hostOps2_9 hostOps2_9_sub hostOps2_9_fresh (W13 m ρ)),
    .host (hseg hostOps2_10 hostOps2_10_sub hostOps2_10_fresh (W14 m ρ)) ]

theorem main_run (c : Dev nD) : main (F := F) c = Pipeline.Seg.run (segs m ρ) := (main_chain c).trans (by chain_rfl)

set_option backward.isDefEq.respectTransparency.types false in
/-- From any memory with zero counters, every weakly fair execution of the program terminates without a fault, and in
    every final state every unscoped buffer of every core holds the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W15 m ρ c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

end Cert.Kernel.Hand

end
-- ==== Proof.K.Kept.lean ====
import proofs.«413624_j13305808683177_3_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Which buffers reach where unchanged: a stretch of host operations leaves every buffer it does not write, and a
    region leaves the arrays of its input windows and every buffer that is no array of its pipeline. So the two
    arguments end as launched, and the arrays the first stretch makes reach both regions as it left them. -/

variable (m : (ℓ : Loc nD τ sig) → Buf (Elt F) ℓ) (ρ : Dev nD → PrngReg)

namespace HF

/-- A buffer the first stretch does not write is as launched. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- A buffer the stretch between the regions does not write leaves it as region 0 left it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W6_of (c : Dev nD) (r : Ref sig .tc) (h : r ∉ hostOps2_1_W) :
    W6 m ρ c (Proc.devRef .tc r) = W5 m ρ c (Proc.devRef .tc r) :=
  StableHlo.after_of_writes_sub hostOps2_1 _ hostOps2_1_writes h
theorem W7_of (c : Dev nD) (r : Ref sig .tc) (h : r ∉ hostOps2_2_W) :
    W7 m ρ c (Proc.devRef .tc r) = W6 m ρ c (Proc.devRef .tc r) :=
  StableHlo.after_of_writes_sub hostOps2_2 _ hostOps2_2_writes h
theorem W8_of (c : Dev nD) (r : Ref sig .tc) (h : r ∉ hostOps2_3_W) :
    W8 m ρ c (Proc.devRef .tc r) = W7 m ρ c (Proc.devRef .tc r) :=
  StableHlo.after_of_writes_sub hostOps2_3 _ hostOps2_3_writes h
theorem W9_of (c : Dev nD) (r : Ref sig .tc) (h : r ∉ hostOps2_4_W) :
    W9 m ρ c (Proc.devRef .tc r) = W8 m ρ c (Proc.devRef .tc r) :=
  StableHlo.after_of_writes_sub hostOps2_4 _ hostOps2_4_writes h
theorem W10_of (c : Dev nD) (r : Ref sig .tc) (h : r ∉ hostOps2_5_W) :
    W10 m ρ c (Proc.devRef .tc r) = W9 m ρ c (Proc.devRef .tc r) :=
  StableHlo.after_of_writes_sub hostOps2_5 _ hostOps2_5_writes h
theorem W11_of (c : Dev nD) (r : Ref sig .tc) (h : r ∉ hostOps2_6_W) :
    W11 m ρ c (Proc.devRef .tc r) = W10 m ρ c (Proc.devRef .tc r) :=
  StableHlo.after_of_writes_sub hostOps2_6 _ hostOps2_6_writes h
theorem W12_of (c : Dev nD) (r : Ref sig .tc) (h : r ∉ hostOps2_7_W) :
    W12 m ρ c (Proc.devRef .tc r) = W11 m ρ c (Proc.devRef .tc r) :=
  StableHlo.after_of_writes_sub hostOps2_7 _ hostOps2_7_writes h
theorem W13_of (c : Dev nD) (r : Ref sig .tc) (h : r ∉ hostOps2_8_W) :
    W13 m ρ c (Proc.devRef .tc r) = W12 m ρ c (Proc.devRef .tc r) :=
  StableHlo.after_of_writes_sub hostOps2_8 _ hostOps2_8_writes h
theorem W14_of (c : Dev nD) (r : Ref sig .tc) (h : r ∉ hostOps2_9_W) :
    W14 m ρ c (Proc.devRef .tc r) = W13 m ρ c (Proc.devRef .tc r) :=
  StableHlo.after_of_writes_sub hostOps2_9 _ hostOps2_9_writes h
theorem W15_of (c : Dev nD) (r : Ref sig .tc) (h : r ∉ hostOps2_10_W) :
    W15 m ρ c (Proc.devRef .tc r) = W14 m ρ c (Proc.devRef .tc r) :=
  StableHlo.after_of_writes_sub hostOps2_10 _ hostOps2_10_writes h

/-- A buffer none of the last eleven stretches writes ends as region 1 left it. -/
theorem W15_of_W4 (c : Dev nD) (r : Ref sig .tc)
    (h5 : r ∉ hostOps2_W) (h6 : r ∉ hostOps2_1_W) (h7 : r ∉ hostOps2_2_W) (h8 : r ∉ hostOps2_3_W) (h9 : r ∉ hostOps2_4_W)
    (h10 : r ∉ hostOps2_5_W) (h11 : r ∉ hostOps2_6_W) (h12 : r ∉ hostOps2_7_W) (h13 : r ∉ hostOps2_8_W)
    (h14 : r ∉ hostOps2_9_W) (h15 : r ∉ hostOps2_10_W) :
    W15 m ρ c (Proc.devRef .tc r) = W4 m ρ c (Proc.devRef .tc r) :=
  (W15_of m ρ c r h15).trans <| (W14_of m ρ c r h14).trans <| (W13_of m ρ c r h13).trans <| (W12_of m ρ c r h12).trans <|
  (W11_of m ρ c r h11).trans <| (W10_of m ρ c r h10).trans <| (W9_of m ρ c r h9).trans <| (W8_of m ρ c r h8).trans <|
  (W7_of m ρ c r h7).trans <| (W6_of m ρ c r h6).trans <| (W5_of m ρ c r h5)

/-- Region 0 leaves the array of an input window as it found it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- Region 1 leaves the array of an input window as it found it. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

end HF

theorem W1_main_arg0 (c : Dev nD) : W1 m ρ c (Proc.devRef .tc main_arg0) = m ((c : Thread nD τ).loc main_arg0) :=
  HF.W1_of m ρ c main_arg0 (by decide)
theorem W1_main_arg1 (c : Dev nD) : W1 m ρ c (Proc.devRef .tc main_arg1) = m ((c : Thread nD τ).loc main_arg1) :=
  HF.W1_of m ρ c main_arg1 (by decide)
theorem W3_main_arg0 (c : Dev nD) : W3 m ρ c (Proc.devRef .tc main_arg0) = m ((c : Thread nD τ).loc main_arg0) :=
  (HF.W3_of m ρ c main_arg0 (by decide)).trans <| (HF.W2_in m ρ c 1 rfl).trans (W1_main_arg0 m ρ c)
theorem W3_main_arg1 (c : Dev nD) : W3 m ρ c (Proc.devRef .tc main_arg1) = m ((c : Thread nD τ).loc main_arg1) :=
  (HF.W3_of m ρ c main_arg1 (by decide)).trans <| (W2_of_ne m ρ c main_arg1 (by decide)).trans (W1_main_arg1 m ρ c)
theorem W3_main_v2 (c : Dev nD) : W3 m ρ c (Proc.devRef .tc main_v2) = W1 m ρ c (Proc.devRef .tc main_v2) :=
  (HF.W3_of m ρ c main_v2 (by decide)).trans (HF.W2_in m ρ c 0 rfl)
theorem W3_main_v4 (c : Dev nD) : W3 m ρ c (Proc.devRef .tc main_v4) = W1 m ρ c (Proc.devRef .tc main_v4) :=
  (HF.W3_of m ρ c main_v4 (by decide)).trans (HF.W2_in m ρ c 2 rfl)
theorem W3_main_v8 (c : Dev nD) : W3 m ρ c (Proc.devRef .tc main_v8) = W1 m ρ c (Proc.devRef .tc main_v8) :=
  (HF.W3_of m ρ c main_v8 (by decide)).trans (HF.W2_in m ρ c 3 rfl)
theorem W4_main_arg0 (c : Dev nD) : W4 m ρ c (Proc.devRef .tc main_arg0) = m ((c : Thread nD τ).loc main_arg0) :=
  (HF.W4_in m ρ c 1 rfl).trans (W3_main_arg0 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W15_main_arg0 (c : Dev nD) : W15 m ρ c (Proc.devRef .tc main_arg0) = m ((c : Thread nD τ).loc main_arg0) :=
  (HF.W15_of_W4 m ρ c main_arg0 (by decide) (by decide) (by decide) (by decide) (by decide) (by decide) (by decide) (by decide)
    (by decide) (by decide) (by decide)).trans (W4_main_arg0 m ρ c)
theorem W15_main_arg1 (c : Dev nD) : W15 m ρ c (Proc.devRef .tc main_arg1) = m ((c : Thread nD τ).loc main_arg1) :=
  (HF.W15_of_W4 m ρ c main_arg1 (by decide) (by decide) (by decide) (by decide) (by decide) (by decide) (by decide) (by decide)
    (by decide) (by decide) (by decide)).trans (W4_main_arg1 m ρ c)

end Cert.Kernel.Hand

end
-- ==== Proof.KI.Blocks.lean ====
import proofs.«413624_j13305808683177_3_alg».proof.Proof.Gen.KernelIdeal.Launch
import proofs.«413624_j13305808683177_3_alg».proof.Proof.Gen.KernelIdeal.Skeleton
import proofs.«413624_j13305808683177_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The blocks of each region's windows, read off the arrays as the region finds them: V c b is what core c
    holds in buffer b when the region is entered. -/

variable (V : (c : Dev nD) → (b : Ref sig .tc) → Buf (Elt F) ((c : Thread nD τ).loc b))

/-- Region 0 (the minimum pass): window w's block at grid point t. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 1 (the weighted-sum pass): window w's block at grid point t. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

end Cert.KernelIdeal.Hand

end
-- ==== Proof.KI.R0Dat.lean ====
import proofs.«413624_j13305808683177_3_alg».proof.Proof.KI.Blocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! REGION 0, the minimum pass: the proof data of its pipeline at the entry contents V, the body obligation,
    and what the carried scratch and the output block hold point by point. -/

variable (V : (c : Dev nD) → (b : Ref sig .tc) → Buf (Elt F) ((c : Thread nD τ).loc b))

/-- The running minimum the body keeps in its one-element scratch, after grid position n: at the first point of
    each row of the grid (n a multiple of 25) the minimum of +inf and the tile's least distance, afterwards the
    minimum of what the point before left and the tile's least distance. -/
def S0 (c : Dev nD) : (n : ℕ) → n < cfg0.N → Vec F S1x1 .f32
  | 0, hn => k0_pay2 (iblk0 V c 1 ⟨0, hn⟩) (iblk0 V c 2 ⟨0, hn⟩) (iblk0 V c 0 ⟨0, hn⟩) (iblk0 V c 3 ⟨0, hn⟩) (k0_pay1 (F := F))
  | n + 1, hn => k0_pay2 (iblk0 V c 1 ⟨n + 1, hn⟩) (iblk0 V c 2 ⟨n + 1, hn⟩) (iblk0 V c 0 ⟨n + 1, hn⟩) (iblk0 V c 3 ⟨n + 1, hn⟩)
      (if (n + 1) % 25 = 0 then (k0_pay1 (F := F)) else S0 c n (Nat.lt_of_succ_lt hn))

/-! ## The body's two conditions, in closed form over the grid -/

/-- The body's first branch is taken where the second grid coordinate is 0. -/
abbrev cond0_0 (i : grid0.Coords) : Prop := (Scalar.cmpi .ne (Scalar.extui (Scalar.cmpi .eq (BitVec.ofNat 32 (i 1).val) 0#32)) 0#32) = 1#1
/-- Its last branch is taken where the second grid coordinate is 24. -/
abbrev cond0_1 (i : grid0.Coords) : Prop := k0_cond2 i = 1#1

theorem hcond0_0 : ∀ t : Fin cfg0.N, cond0_0 (grid0.coords t) ↔ t.val % 25 = 0 :=
  (by decide +kernel : ∀ t : Fin grid0.N, cond0_0 (grid0.coords t) ↔ t.val % 25 = 0)
theorem hcond0_1 : ∀ t : Fin cfg0.N, cond0_1 (grid0.coords t) ↔ t.val % 25 = 24 :=
  (by decide +kernel : ∀ t : Fin grid0.N, cond0_1 (grid0.coords t) ↔ t.val % 25 = 24)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Off the last column the output window is idle, -/
theorem idleAt0_4 : ∀ t : Fin cfg0.N, ¬cond0_1 (grid0.coords t) → cfg0.idle 4 (grid0.coords t) = true := by decide +kernel
/-- and not written back; -/
theorem noFlush0_4 : ∀ t : Fin cfg0.N, ¬cond0_1 (grid0.coords t) → (cfg0.win 4).flush t = false := by decide +kernel
/-- on the last column it is live. -/
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S2000x1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2000x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S64x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
/-- The one-element scratch, a whole scoped buffer. -/
abbrev scM0 : Memref sig .tc .vmem S1x1 .f32 := Memref.whole cc0_scratch0

/-- The scoped buffers of the core that region 0 never touches, each at some contents. -/
def Rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_scratch0), ((c : Thread nD τ).loc cc1_scratch0) ↦{fullShare} f))

/-- What the launch hands the region, with the scratch as a memref owned at some contents. -/
theorem PhiA0_eq (c : Dev nD) :
    (Pipeline.ΦA spec0 c : sProp 𝕄)
      = iprop(iprop((∃ d, owns (c : Thread nD τ) scM0 fullShare d) ∗ Rest0 (F := F) c) ∗ (∃ r, prngReg c r)) := by
  unfold Pipeline.ΦA Rest0; rw [scopedRest0_eq]; simp only [scM0, owns_whole]; try rfl

/-! ## The body on whole memrefs, case by case -/

/-- The zero offsets of a whole-buffer rectangle of rank two. -/
theorem off2_zero : (![0, 0] : Fin 2 → ℕ) = fun _ => 0 := by
  funext a; fin_cases a <;> rfl

set_option maxHeartbeats 1000000 in
/-- First column: the scratch, found at anything, is reset to +inf and then lowered by the tile's least distance;
    the output buffer is handed back as found. -/
theorem run0_A (c : Dev nD) (i : grid0.Coords) (arg2 : Memref sig .tc .vmem S2000x1 .f32) (harg2 : arg2.IsWhole) (arg3 : Memref sig .tc .vmem S2000x64 .f32) (harg3 : arg3.IsWhole) (arg4 : Memref sig .tc .vmem S64x1024 .bf16) (harg4 : arg4.IsWhole) (arg5 : Memref sig .tc .vmem S1x1024 .f32) (harg5 : arg5.IsWhole) (arg6 : Memref sig .tc .vmem S1x128 .f32) (harg6 : arg6.IsWhole) (arg7 : Memref sig .tc .vmem S1x1 .f32) (harg7 : arg7.IsWhole)
    (hc0 : cond0_0 i) (hc1 : ¬cond0_1 i)
    (x0 : Vec F S2000x1 .f32) (x1 : Vec F S2000x64 .f32) (x2 : Vec F S64x1024 .bf16) (x3 : Vec F S1x1024 .f32) (xi4 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (k0_pay2 x1 x2 x0 x3 (k0_pay1 (F := F)))) -∗ K ⟨⟩))
      ⊢ wp frame (wpE (defs₀ (F := F)) Variants.none c none) E (cc0__min_kernel i arg2 harg2 arg3 harg3 arg4 harg4 arg5 harg5 arg6 harg6 arg7 harg7) K := by
  rw [cc0__min_kernel_eq_skeleton]; unfold cc0__min_kernel_skel
  unfold owns
  iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
  obtain rfl := harg2.eq_unread hf0; obtain rfl := harg3.eq_unread hf1; obtain rfl := harg4.eq_unread hf2
  obtain rfl := harg5.eq_unread hf3; obtain rfl := harg6.eq_unread hf4
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_run_names
  rw [View.read_writes_eq_canon _ _ _ (fun y => ⟨_, List.mem_cons_self, View.mem_set_unit_zero off2_zero inb_S1x1_S1x1_0_0 y⟩),
    View.canon_cons_unit_zero off2_zero, View.readCov_unit_zero _ off2_zero]
  simp only [View.readAt_eq_ld, harg2.read_unread, harg3.read_unread, harg4.read_unread, harg5.read_unread, harg7.read_unread, View.ld_unit_zero (S := S2000x64) off2_zero, View.ld_unit_zero (S := S64x1024) off2_zero, View.ld_unit_zero (S := S2000x1) off2_zero, View.ld_unit_zero (S := S1x1024) off2_zero, View.ld_unit_zero (S := S1x1) off2_zero]

set_option maxHeartbeats 1000000 in
/-- Inner columns: the scratch, found at xs, is lowered by the tile's least distance; the output buffer is handed
    back as found. -/
theorem run0_B (c : Dev nD) (i : grid0.Coords) (arg2 : Memref sig .tc .vmem S2000x1 .f32) (harg2 : arg2.IsWhole) (arg3 : Memref sig .tc .vmem S2000x64 .f32) (harg3 : arg3.IsWhole) (arg4 : Memref sig .tc .vmem S64x1024 .bf16) (harg4 : arg4.IsWhole) (arg5 : Memref sig .tc .vmem S1x1024 .f32) (harg5 : arg5.IsWhole) (arg6 : Memref sig .tc .vmem S1x128 .f32) (harg6 : arg6.IsWhole) (arg7 : Memref sig .tc .vmem S1x1 .f32) (harg7 : arg7.IsWhole)
    (hc0 : ¬cond0_0 i) (hc1 : ¬cond0_1 i)
    (x0 : Vec F S2000x1 .f32) (x1 : Vec F S2000x64 .f32) (x2 : Vec F S64x1024 .bf16) (x3 : Vec F S1x1024 .f32) (xs : Vec F S1x1 .f32) (xi4 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare xi4 ∗ owns (c : Thread nD τ) arg7 fullShare (k0_pay2 x1 x2 x0 x3 xs)) -∗ K ⟨⟩))
      ⊢ wp frame (wpE (defs₀ (F := F)) Variants.none c none) E (cc0__min_kernel i arg2 harg2 arg3 harg3 arg4 harg4 arg5 harg5 arg6 harg6 arg7 harg7) K := by
  rw [cc0__min_kernel_eq_skeleton]; unfold cc0__min_kernel_skel
  unfold owns
  iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  iexists _; isplitr
  swap; · iexact HS
  ipureintro
  sl_unfold_run_names
  rw [View.read_writes_eq_canon _ _ _ (fun y => ⟨_, List.mem_cons_self, View.mem_set_unit_zero off2_zero inb_S1x1_S1x1_0_0 y⟩),
    View.canon_unit_zero off2_zero]
  simp only [View.readAt_eq_ld, harg2.read_unread, harg3.read_unread, harg4.read_unread, harg5.read_unread, harg7.read_unread, View.ld_unit_zero (S := S2000x64) off2_zero, View.ld_unit_zero (S := S64x1024) off2_zero, View.ld_unit_zero (S := S2000x1) off2_zero, View.ld_unit_zero (S := S1x1024) off2_zero, View.ld_unit_zero (S := S1x1) off2_zero]

set_option maxHeartbeats 1000000 in
/-- Last column: the scratch, found at xs, is lowered by the tile's least distance, and the result, broadcast
    along the lanes, is stored over the whole output buffer, found at anything. -/
theorem run0_C (c : Dev nD) (i : grid0.Coords) (arg2 : Memref sig .tc .vmem S2000x1 .f32) (harg2 : arg2.IsWhole) (arg3 : Memref sig .tc .vmem S2000x64 .f32) (harg3 : arg3.IsWhole) (arg4 : Memref sig .tc .vmem S64x1024 .bf16) (harg4 : arg4.IsWhole) (arg5 : Memref sig .tc .vmem S1x1024 .f32) (harg5 : arg5.IsWhole) (arg6 : Memref sig .tc .vmem S1x128 .f32) (harg6 : arg6.IsWhole) (arg7 : Memref sig .tc .vmem S1x1 .f32) (harg7 : arg7.IsWhole)
    (hc0 : ¬cond0_0 i) (hc1 : cond0_1 i)
    (x0 : Vec F S2000x1 .f32) (x1 : Vec F S2000x64 .f32) (x2 : Vec F S64x1024 .bf16) (x3 : Vec F S1x1024 .f32) (xs : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (k0_pay3 (k0_pay2 x1 x2 x0 x3 xs)) ∗ owns (c : Thread nD τ) arg7 fullShare (k0_pay2 x1 x2 x0 x3 xs)) -∗ K ⟨⟩))
      ⊢ wp frame (wpE (defs₀ (F := F)) Variants.none c none) E (cc0__min_kernel i arg2 harg2 arg3 harg3 arg4 harg4 arg5 harg5 arg6 harg6 arg7 harg7) K := by
  rw [cc0__min_kernel_eq_skeleton]; unfold cc0__min_kernel_skel
  unfold owns
  iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
  obtain rfl := harg2.eq_unread hf0; obtain rfl := harg3.eq_unread hf1; obtain rfl := harg4.eq_unread hf2
  obtain rfl := harg5.eq_unread hf3; obtain rfl := harg7.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr
    swap; · iexact H4
    ipureintro
    sl_unfold_run_names
    rw [View.read_writes_eq_canon _ _ _ (fun y => ⟨_, List.mem_cons_self, View.mem_set_unit_zero off2_zero inb_S1x128_S1x128_0_0 y⟩),
      View.canon_unit_zero off2_zero, View.readCov_unit_zero _ off2_zero]
    simp only [View.readAt_eq_ld, harg2.read_unread, harg3.read_unread, harg4.read_unread, harg5.read_unread, harg7.read_unread, View.ld_unit_zero (S := S2000x64) off2_zero, View.ld_unit_zero (S := S64x1024) off2_zero, View.ld_unit_zero (S := S2000x1) off2_zero, View.ld_unit_zero (S := S1x1024) off2_zero, View.ld_unit_zero (S := S1x1) off2_zero]
  iexists _; isplitr
  swap; · iexact HS
  ipureintro
  sl_unfold_run_names
  rw [View.read_writes_eq_canon _ _ _ (fun y => ⟨_, List.mem_cons_self, View.mem_set_unit_zero off2_zero inb_S1x1_S1x1_0_0 y⟩),
    View.canon_unit_zero off2_zero]
  simp only [View.readAt_eq_ld, harg2.read_unread, harg3.read_unread, harg4.read_unread, harg5.read_unread, harg7.read_unread, View.ld_unit_zero (S := S2000x64) off2_zero, View.ld_unit_zero (S := S64x1024) off2_zero, View.ld_unit_zero (S := S2000x1) off2_zero, View.ld_unit_zero (S := S1x1024) off2_zero, View.ld_unit_zero (S := S1x1) off2_zero]

/-! ## The carried minimum, point by point -/

/-- At the first column the fold restarts from +inf; -/
theorem S0_first (c : Dev nD) (t : Fin cfg0.N) (h0 : t.val % 25 = 0) :
    S0 V c t.val t.isLt = k0_pay2 (iblk0 V c 1 t) (iblk0 V c 2 t) (iblk0 V c 0 t) (iblk0 V c 3 t) (k0_pay1 (F := F)) := by
  obtain ⟨n, hn⟩ := t
  cases n with
  | zero => rfl
  | succ n => exact (show S0 V c (n + 1) hn = _ from by rw [S0, if_pos h0])

/-- elsewhere it goes on from what the point before left. -/
theorem S0_next (c : Dev nD) (t : Fin cfg0.N) (h0 : ¬t.val % 25 = 0) :
    S0 V c t.val t.isLt = k0_pay2 (iblk0 V c 1 t) (iblk0 V c 2 t) (iblk0 V c 0 t) (iblk0 V c 3 t)
      (S0 V c (t.val - 1) (Nat.lt_of_le_of_lt (Nat.sub_le _ _) t.isLt)) := by
  obtain ⟨n, hn⟩ := t
  cases n with
  | zero => exact absurd (Nat.zero_mod _) h0
  | succ n => exact (show S0 V c (n + 1) hn = _ from by rw [S0, if_neg h0]; rfl)

/-! ## The region's invariant -/

/-- Before the first point what the launch hands over; before a later point the scratch at the running minimum
    the point before left, the untouched scoped buffers and the generator register at some state. -/
def PhiS0 (c : Dev nD) : (n : ℕ) → n ≤ cfg0.N → sProp 𝕄
  | 0, _ => Pipeline.ΦA spec0 c
  | n + 1, hn => iprop(iprop(owns (c : Thread nD τ) scM0 fullShare (S0 V c n hn) ∗ Rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0 fullShare (S0 V c n hn) ∗ Rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0 fullShare (S0 V c (n - 1) (by omega)) ∗ Rest0 (F := F) c) ∗ (∃ r, prngReg c r)) := by
  cases n with
  | zero => exact absurd rfl hz
  | succ n => rfl

/-! ## The pipeline's proof data -/

/-- The proof data of pipeline 0 on core c. -/
def dat0 (V : (c : Dev nD) → (b : Ref sig .tc) → Buf (Elt F) ((c : Thread nD τ).loc b)) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay3 (S0 V c t.val t.isLt)
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem q_eq0 (c : Dev nD) (w : Fin cfg0.W) : (dat0 V c).q w = fullShare := by
  dsimp only [dat0]
theorem owed_eq0 (c : Dev nD) (t : Fin (cfg0.N + 1)) : (dat0 V c).owed t = 0 := by
  dsimp only [dat0]
theorem recorded_eq0 (c : Dev nD) (t : Fin (cfg0.N + 1)) : (dat0 V c).recorded t = Set.univ := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

/-- The body leaves each input window's staging buffer at its block. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
/-- The output window's block after a point is named at every point as the broadcast of the running minimum
    (it is consulted at the storing points only). -/
theorem after0_4_all (c : Dev nD) (t : Fin cfg0.N) : (dat0 V c).after 4 t = k0_pay3 (S0 V c t.val t.isLt) := by dsimp only [dat0]
/-- At the last point of each row of the grid the body stores the running minimum, broadcast along the lanes,
    into the output block. -/
theorem after0_4 (c : Dev nD) (t : Fin cfg0.N) (h : t.val % 25 = 24) :
    (dat0 V c).after 4 t = k0_pay3 (S0 V c t.val t.isLt) := after0_4_all V c t

/-! ## Each input's staging buffer holds its block at every point, fetched there or not -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 4800000 in
/-- The body at any point: the inputs' buffers hold their blocks; the closed forms say which column the point is
    in; the invariant hands the body the scratch at what the point before left (at anything at the first point) and
    takes it back at this point's running minimum; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS0 V c (t.val + 1) t.isLt from rfl, PhiS0_succ]
  have hN : t.val < 50 := lt_of_lt_of_eq t.isLt (show cfg0.N = 50 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  rw [show (dat0 V c).leavesExact 3 t = owns (c : Thread nD τ) (ms0_3 t) fullShare ((dat0 V c).after 3 t) from by
      unfold Dat.leavesExact; rw [liveAt0_3 t], after0_3]
  by_cases h0 : t.val % 25 = 0
  · have h1 : ¬t.val % 25 = 24 := by omega
    have hc0 : cond0_0 (grid0.coords t) := (hcond0_0 t).mpr h0
    have hc1 : ¬cond0_1 (grid0.coords t) := fun h => h1 ((hcond0_1 t).mp h)
    rw [Dat.leavesExact_idle (dat0 V c) 4 t (idleAt0_4 t hc1) (noFlush0_4 t hc1)]
    rw [S0_first V c t h0]
    by_cases hz : t.val = 0
    · rw [PhiS0_castSucc V c t, PhiS0_zero V c _ _ hz, PhiA0_eq]
      iintro ⟨⟨⟨HS, HR⟩, Hg⟩, Ho, ⟨%d0, H0⟩, ⟨%d1, H1⟩, ⟨%d2, H2⟩, ⟨%d3, H3⟩, ⟨%d4, H4⟩⟩
      iapply (run0_A c (grid0.coords t) _ _ _ _ _ _ _ _ _ _ _ _ hc0 hc1 (iblk0 V c 0 t) (iblk0 V c 1 t) (iblk0 V c 2 t) (iblk0 V c 3 t) ((dat0 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
    · rw [PhiS0_castSucc V c t, PhiS0_pos V c _ _ hz]
      iintro ⟨⟨⟨HS, HR⟩, Hg⟩, Ho, ⟨%d0, H0⟩, ⟨%d1, H1⟩, ⟨%d2, H2⟩, ⟨%d3, H3⟩, ⟨%d4, H4⟩⟩
      iapply (run0_A c (grid0.coords t) _ _ _ _ _ _ _ _ _ _ _ _ hc0 hc1 (iblk0 V c 0 t) (iblk0 V c 1 t) (iblk0 V c 2 t) (iblk0 V c 3 t) ((dat0 V c).before 4 t d4) Set.univ _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4
  · have hz : t.val ≠ 0 := fun e => h0 (by rw [e])
    have hc0 : ¬cond0_0 (grid0.coords t) := fun h => h0 ((hcond0_0 t).mp h)
    rw [S0_next V c t h0, PhiS0_castSucc V c t, PhiS0_pos V c _ _ hz]
    by_cases h1 : t.val % 25 = 24
    · have hc1 : cond0_1 (grid0.coords t) := (hcond0_1 t).mpr h1
      rw [show (dat0 V c).leavesExact 4 t = owns (c : Thread nD τ) (ms0_4 t) fullShare ((dat0 V c).after 4 t) from by
        unfold Dat.leavesExact; rw [liveAt0_4 t hc1], after0_4_all, S0_next V c t h0]
      iintro ⟨⟨⟨HS, HR⟩, Hg⟩, Ho, ⟨%d0, H0⟩, ⟨%d1, H1⟩, ⟨%d2, H2⟩, ⟨%d3, H3⟩, ⟨%d4, H4⟩⟩
      iapply (run0_C c (grid0.coords t) _ _ _ _ _ _ _ _ _ _ _ _ hc0 hc1 (iblk0 V c 0 t) (iblk0 V c 1 t) (iblk0 V c 2 t) (iblk0 V c 3 t) _ Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dat0 V c) 4 t (idleAt0_4 t hc1) (noFlush0_4 t hc1)]
      iintro ⟨⟨⟨HS, HR⟩, Hg⟩, Ho, ⟨%d0, H0⟩, ⟨%d1, H1⟩, ⟨%d2, H2⟩, ⟨%d3, H3⟩, ⟨%d4, H4⟩⟩
      iapply (run0_B c (grid0.coords t) _ _ _ _ _ _ _ _ _ _ _ _ hc0 hc1 (iblk0 V c 0 t) (iblk0 V c 1 t) (iblk0 V c 2 t) (iblk0 V c 3 t) _ ((dat0 V c).before 4 t d4) Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back what the launch handed over, the scratch's contents
    forgotten. -/
theorem Phi_out0 (c : Dev nD) (t : Fin (cfg0.N + 1)) (ht : t.val ≠ 0) : (dat0 V c).Φ t ⊢ (Pipeline.ΦA spec0 c : sProp 𝕄) := by
  rw [show (dat0 V c).Φ t = PhiS0 V c t.val (Nat.le_of_lt_succ t.isLt) from rfl, PhiS0_pos V c _ _ ht, PhiA0_eq]
  iintro ⟨⟨HS, HR⟩, Hg⟩
  isplitl [HS HR]
  · isplitl [HS]
    · iexists _; iexact HS
    iexact HR
  iexact Hg

/-- After the last point the invariant gives it back, the scratch's contents forgotten. -/
theorem hout0 (c : Dev nD) : (dat0 V c).Φ (Fin.last cfg0.N) ⊢ (Pipeline.ΦA spec0 c : sProp 𝕄) :=
  Phi_out0 V c _ (by rw [Fin.val_last]; have : cfg0.N = 50 := N_0; omega)

end Cert.KernelIdeal.Hand

end
-- ==== Proof.KI.R1Runs.lean ====
import proofs.«413624_j13305808683177_3_alg».proof.Proof.KI.Blocks
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! REGION 1, the weighted-sum pass: what the body's runs are stated over — its two branch conditions in closed form,
    where the output window is idle, the staging memrefs at a point, and the region's invariant with the carried
    scratch singled out. -/

/-- The reset condition of the body (second grid coordinate zero), from the grid coordinates. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 25 = 0 :=
  (by decide +kernel : ∀ t : Fin grid1.N, cond1_0 (grid1.coords t) ↔ t.val % 25 = 0)

/-- The storing condition of the body (second grid coordinate 24). -/
abbrev cond1_1 (i : grid1.Coords) : Prop := k1_cond2 i = 1#1
theorem hcond1_1 : ∀ t : Fin cfg1.N, cond1_1 (grid1.coords t) ↔ t.val % 25 = 24 :=
  (by decide +kernel : ∀ t : Fin grid1.N, cond1_1 (grid1.coords t) ↔ t.val % 25 = 24)

/-! Where the windows are idle: the inputs never, the output window except at the last point of a row. -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- Away from the last point of a row the output window is idle and is not written back. -/
theorem idleAt1_5 : ∀ t : Fin cfg1.N, ¬cond1_1 (grid1.coords t) → cfg1.idle 5 (grid1.coords t) = true := by decide +kernel
theorem noFlush1_5 : ∀ t : Fin cfg1.N, ¬cond1_1 (grid1.coords t) → (cfg1.win 5).flush t = false := by decide +kernel
/-- At the last point of a row it is live. -/
theorem liveAt1_5 : ∀ t : Fin cfg1.N, cond1_1 (grid1.coords t) → cfg1.idle 5 (grid1.coords t) = false := by decide +kernel

/-! The current staging memref of each window at point t, as the pipeline passes it to the body, and its wholeness. -/

abbrev ms1_0 (t : Fin cfg1.N) : Memref sig .tc .vmem S2000x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2000x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S64x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
/-- The one-element scratch the body carries between points: a whole scoped buffer of the kernel's own. -/
abbrev scM1_0 : Memref sig .tc .vmem S1x1 .f32 := Memref.whole cc1_scratch0

/-- The core's scoped buffers the region never touches (the other region's staging buffers and scratch), each whole
    at some contents, beside the generator register at some state. -/
def Rest1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f)) ∗ (∃ r, prngReg c r))

/-- The launch's invariant gives the carried scratch at some contents, beside the untouched rest; -/
theorem PhiA1_split (c : Dev nD) :
    (Pipeline.ΦA spec1 c : sProp 𝕄) ⊢ iprop(iprop((∃ d, owns (c : Thread nD τ) scM1_0 fullShare d)) ∗ Rest1 c) := by
  unfold Pipeline.ΦA Rest1; rw [scopedRest1_eq]; simp only [scM1_0, owns_whole]
  iintro ⟨⟨R0, R1, R2, R3, R4, R5, R6, R7, R8, HS⟩, Hg⟩
  isplitl [HS]; · iexact HS
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  iexact Hg

/-- and is given back by them. -/
theorem PhiA1_join (c : Dev nD) :
    iprop(iprop((∃ d, owns (c : Thread nD τ) scM1_0 fullShare d)) ∗ Rest1 c) ⊢ (Pipeline.ΦA spec1 c : sProp 𝕄) := by
  unfold Pipeline.ΦA Rest1; rw [scopedRest1_eq]; simp only [scM1_0, owns_whole]
  iintro ⟨HS, ⟨R0, R1, R2, R3, R4, R5, R6, R7, R8⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  iexact Hg

/-- The region's invariant as the launch hands it over: the carried scratch owned at some contents, beside the
    untouched rest. -/
theorem PhiA1_eq (c : Dev nD) :
    (Pipeline.ΦA spec1 c : sProp 𝕄)
      = iprop(iprop((∃ d, owns (c : Thread nD τ) scM1_0 fullShare d)) ∗ Rest1 c) :=
  BI.equiv_iff.mp ⟨PhiA1_split c, PhiA1_join c⟩

end Cert.KernelIdeal.Hand

end
-- ==== Proof.KI.R1Run.lean ====
import proofs.«413624_j13305808683177_3_alg».proof.Proof.KI.R1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! REGION 1, the weighted-sum pass: the body's run in each of its three control cases, by symbolic execution of
    its skeleton. Every load and store of the body goes through the whole-buffer rectangle at zero offsets, so a
    load reads the buffer's contents and a store leaves its payload. -/

set_option maxHeartbeats 1000000 in
/-- The body at a first point of a row (the reset taken, no output store), on whole staging memrefs: the inputs at
    their contents, the output's buffer handed back untouched, the scratch at anything; it leaves the scratch at
    zero plus the tile's sum. -/
theorem kernelRun1_A (c : Dev nD) (i : grid1.Coords) (arg2 : Memref sig .tc .vmem S2000x1 .f32) (harg2 : arg2.IsWhole) (arg3 : Memref sig .tc .vmem S2000x64 .f32) (harg3 : arg3.IsWhole) (arg4 : Memref sig .tc .vmem S64x1024 .bf16) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x1 .f32) (harg8 : arg8.IsWhole) (hc0 : cond1_0 i) (hc1 : ¬cond1_1 i)
    (x0 : Vec F S2000x1 .f32) (x1 : Vec F S2000x64 .f32) (x2 : Vec F S64x1024 .bf16) (x3 : Vec F S1x1024 .f32) (x4 : Vec F S1x1 .f32) (xi5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare (k1_pay1 (k1_pay4 x1 x2 x0 x3 x4) (k1_pay3 (F := F)))) -∗ K ⟨⟩))
      ⊢ wp frame (wpE (defs₀ (F := F)) Variants.none c none) E (cc1__sum_kernel i arg2 harg2 arg3 harg3 arg4 harg4 arg5 harg5 arg6 harg6 arg7 harg7 arg8 harg8) K := by
  simp only [cc1__sum_kernel_eq_skeleton]; unfold cc1__sum_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS0
  ipureintro
  sl_unfold_run_names
  have hz : (![0, 0] : Fin S1x1.rank → ℕ) = fun _ => 0 := by funext a; fin_cases a <;> rfl
  have hcov : ∀ y : S1x1.Idx, y ∈ (Rect.unit (s := S1x1) ![0, 0] S1x1.size inb_S1x1_S1x1_0_0).set := View.mem_set_unit_zero (S := S1x1) hz inb_S1x1_S1x1_0_0
  rw [View.read_writes_eq_canon _ _ _ (fun y => ⟨_, List.mem_cons_self, hcov y⟩)]
  rw [View.canon_cons_unit_zero (S := S1x1) hz, View.readCov_unit_zero (S := S1x1) _ hz]
  simp only [View.readAt_eq_ld, harg2.read_unread, harg3.read_unread, harg4.read_unread, harg5.read_unread, harg6.read_unread,
    View.ld_unit_zero (S := S2000x64) hz, View.ld_unit_zero (S := S64x1024) hz, View.ld_unit_zero (S := S2000x1) hz, View.ld_unit_zero (S := S1x1024) hz, View.ld_unit_zero (S := S1x1) hz]

set_option maxHeartbeats 1000000 in
/-- The body at an inner point of a row (no reset, no output store), on whole staging memrefs: the inputs at their
    contents, the output's buffer handed back untouched, the scratch at what the point before left; it leaves the
    scratch at that plus the tile's sum. -/
theorem kernelRun1_B (c : Dev nD) (i : grid1.Coords) (arg2 : Memref sig .tc .vmem S2000x1 .f32) (harg2 : arg2.IsWhole) (arg3 : Memref sig .tc .vmem S2000x64 .f32) (harg3 : arg3.IsWhole) (arg4 : Memref sig .tc .vmem S64x1024 .bf16) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x1 .f32) (harg8 : arg8.IsWhole) (hc0 : ¬cond1_0 i) (hc1 : ¬cond1_1 i)
    (x0 : Vec F S2000x1 .f32) (x1 : Vec F S2000x64 .f32) (x2 : Vec F S64x1024 .bf16) (x3 : Vec F S1x1024 .f32) (x4 : Vec F S1x1 .f32) (xs0 : Vec F S1x1 .f32) (xi5 : Vec F S1x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ owns (c : Thread nD τ) arg8 fullShare (k1_pay1 (k1_pay4 x1 x2 x0 x3 x4) xs0)) -∗ K ⟨⟩))
      ⊢ wp frame (wpE (defs₀ (F := F)) Variants.none c none) E (cc1__sum_kernel i arg2 harg2 arg3 harg3 arg4 harg4 arg5 harg5 arg6 harg6 arg7 harg7 arg8 harg8) K := by
  simp only [cc1__sum_kernel_eq_skeleton]; unfold cc1__sum_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  iexists _; isplitr
  swap; · iexact HS0
  ipureintro
  sl_unfold_run_names
  have hz : (![0, 0] : Fin S1x1.rank → ℕ) = fun _ => 0 := by funext a; fin_cases a <;> rfl
  have hcov : ∀ y : S1x1.Idx, y ∈ (Rect.unit (s := S1x1) ![0, 0] S1x1.size inb_S1x1_S1x1_0_0).set := View.mem_set_unit_zero (S := S1x1) hz inb_S1x1_S1x1_0_0
  rw [View.read_writes_eq_canon _ _ _ (fun y => ⟨_, List.mem_singleton_self _, hcov y⟩)]
  rw [View.canon_unit_zero (S := S1x1) hz]
  simp only [View.readAt_eq_ld, harg2.read_unread, harg3.read_unread, harg4.read_unread, harg5.read_unread, harg6.read_unread, harg8.read_unread,
    View.ld_unit_zero (S := S2000x64) hz, View.ld_unit_zero (S := S64x1024) hz, View.ld_unit_zero (S := S2000x1) hz, View.ld_unit_zero (S := S1x1024) hz, View.ld_unit_zero (S := S1x1) hz]

set_option maxHeartbeats 1000000 in
/-- The body at a last point of a row (no reset, the output store taken), on whole staging memrefs: the inputs at
    their contents, the output's buffer at anything, the scratch at what the point before left; it leaves the scratch
    at that plus the tile's sum, and the output's buffer at the broadcast of the new scratch. -/
theorem kernelRun1_C (c : Dev nD) (i : grid1.Coords) (arg2 : Memref sig .tc .vmem S2000x1 .f32) (harg2 : arg2.IsWhole) (arg3 : Memref sig .tc .vmem S2000x64 .f32) (harg3 : arg3.IsWhole) (arg4 : Memref sig .tc .vmem S64x1024 .bf16) (harg4 : arg4.IsWhole) (arg5 : Memref sig .tc .vmem S1x1024 .f32) (harg5 : arg5.IsWhole) (arg6 : Memref sig .tc .vmem S1x1 .f32) (harg6 : arg6.IsWhole) (arg7 : Memref sig .tc .vmem S1x128 .f32) (harg7 : arg7.IsWhole) (arg8 : Memref sig .tc .vmem S1x1 .f32) (harg8 : arg8.IsWhole) (hc0 : ¬cond1_0 i) (hc1 : cond1_1 i)
    (x0 : Vec F S2000x1 .f32) (x1 : Vec F S2000x64 .f32) (x2 : Vec F S64x1024 .bf16) (x3 : Vec F S1x1024 .f32) (x4 : Vec F S1x1 .f32) (xs0 : Vec F S1x1 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs0
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay2 (k1_pay1 (k1_pay4 x1 x2 x0 x3 x4) xs0)) ∗ owns (c : Thread nD τ) arg8 fullShare (k1_pay1 (k1_pay4 x1 x2 x0 x3 x4) xs0)) -∗ K ⟨⟩))
      ⊢ wp frame (wpE (defs₀ (F := F)) Variants.none c none) E (cc1__sum_kernel i arg2 harg2 arg3 harg3 arg4 harg4 arg5 harg5 arg6 harg6 arg7 harg7 arg8 harg8) K := by
  simp only [cc1__sum_kernel_eq_skeleton]; unfold cc1__sum_kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0
  sl_exec (disch := first | exact hc0 | exact hc1)
  sl_step
  have hz : (![0, 0] : Fin S1x1.rank → ℕ) = fun _ => 0 := by funext a; fin_cases a <;> rfl
  have hcov : ∀ y : S1x1.Idx, y ∈ (Rect.unit (s := S1x1) ![0, 0] S1x1.size inb_S1x1_S1x1_0_0).set := View.mem_set_unit_zero (S := S1x1) hz inb_S1x1_S1x1_0_0
  have hcov5 : ∀ y : S1x128.Idx, y ∈ (Rect.unit (s := S1x128) ![0, 0] S1x128.size inb_S1x128_S1x128_0_0).set := View.mem_set_unit_zero (S := S1x128) hz inb_S1x128_S1x128_0_0
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr
    swap; · iexact H5
    ipureintro
    sl_unfold_run_names
    rw [View.read_writes_eq_canon _ _ _ (fun y => ⟨_, List.mem_singleton_self _, hcov5 y⟩)]
    rw [View.canon_unit_zero (S := S1x128) hz, View.readCov_unit_zero (S := S1x1) _ hz]
    simp only [View.readAt_eq_ld, harg2.read_unread, harg3.read_unread, harg4.read_unread, harg5.read_unread, harg6.read_unread, harg8.read_unread,
      View.ld_unit_zero (S := S2000x64) hz, View.ld_unit_zero (S := S64x1024) hz, View.ld_unit_zero (S := S2000x1) hz, View.ld_unit_zero (S := S1x1024) hz, View.ld_unit_zero (S := S1x1) hz]
  iexists _; isplitr
  swap; · iexact HS0
  ipureintro
  sl_unfold_run_names
  rw [View.read_writes_eq_canon _ _ _ (fun y => ⟨_, List.mem_singleton_self _, hcov y⟩)]
  rw [View.canon_unit_zero (S := S1x1) hz]
  simp only [View.readAt_eq_ld, harg2.read_unread, harg3.read_unread, harg4.read_unread, harg5.read_unread, harg6.read_unread, harg8.read_unread,
    View.ld_unit_zero (S := S2000x64) hz, View.ld_unit_zero (S := S64x1024) hz, View.ld_unit_zero (S := S2000x1) hz, View.ld_unit_zero (S := S1x1024) hz, View.ld_unit_zero (S := S1x1) hz]

end Cert.KernelIdeal.Hand

end
-- ==== Proof.KI.R1Dat.lean ====
import proofs.«413624_j13305808683177_3_alg».proof.Proof.KI.R1Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! REGION 1, the weighted-sum pass: the proof data of its pipeline at the entry contents V, the body obligation,
    and what the carried scratch and the output block hold point by point. -/

variable (V : (c : Dev nD) → (b : Ref sig .tc) → Buf (Elt F) ((c : Thread nD τ).loc b))

/-- The tile's weighted sum at grid point t (a one-element vector): the body's pure value of its five input blocks. -/
def tileSum1 (c : Dev nD) (t : Fin cfg1.N) : FVec F S1 .f32 :=
  k1_pay4 (iblk1 V c 1 t) (iblk1 V c 2 t) (iblk1 V c 0 t) (iblk1 V c 3 t) (iblk1 V c 4 t)

/-- The running sum the body keeps in its one-element scratch, after grid position n: at the first point of each
    row of the grid (n a multiple of 25) zero plus the tile's sum, afterwards what the point before left plus the
    tile's sum. -/
def S1 (c : Dev nD) : (n : ℕ) → n < cfg1.N → Vec F S1x1 .f32
  | 0, hn => k1_pay1 (tileSum1 V c ⟨0, hn⟩) (k1_pay3 (F := F))
  | n + 1, hn => k1_pay1 (tileSum1 V c ⟨n + 1, hn⟩)
      (if (n + 1) % 25 = 0 then (k1_pay3 (F := F)) else S1 c n (Nat.lt_of_succ_lt hn))

/-- At the first point of a row the running sum restarts from zero. -/
theorem S1_reset (c : Dev nD) (t : Fin cfg1.N) (h : t.val % 25 = 0) :
    S1 V c t.val t.isLt = k1_pay1 (tileSum1 V c t) (k1_pay3 (F := F)) := by
  obtain ⟨n, hn⟩ := t
  cases n with
  | zero => rfl
  | succ n =>
    show k1_pay1 (tileSum1 V c ⟨n + 1, hn⟩) (if (n + 1) % 25 = 0 then (k1_pay3 (F := F)) else S1 V c n (Nat.lt_of_succ_lt hn)) = _
    rw [if_pos h]

/-- At every other point it is what the point before left plus the tile's sum. -/
theorem S1_carry (c : Dev nD) (t : Fin cfg1.N) (h : ¬t.val % 25 = 0) :
    S1 V c t.val t.isLt = k1_pay1 (tileSum1 V c t) (S1 V c (t.val - 1) (Nat.lt_of_le_of_lt (Nat.sub_le _ _) t.isLt)) := by
  obtain ⟨n, hn⟩ := t
  cases n with
  | zero => exact absurd (Nat.zero_mod _) h
  | succ n =>
    show k1_pay1 (tileSum1 V c ⟨n + 1, hn⟩) (if (n + 1) % 25 = 0 then (k1_pay3 (F := F)) else S1 V c n (Nat.lt_of_succ_lt hn)) = _
    rw [if_neg h]; rfl

/-- The region's invariant before position n: before the first point what the launch hands over; afterwards the
    carried scratch at the running sum the point before left, beside the untouched rest. -/
def PhiS1 (c : Dev nD) : (n : ℕ) → n ≤ cfg1.N → sProp 𝕄
  | 0, _ => Pipeline.ΦA spec1 c
  | n + 1, hn => iprop(iprop(owns (c : Thread nD τ) scM1_0 fullShare (S1 V c n hn)) ∗ Rest1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare (S1 V c n hn)) ∗ Rest1 c) := rfl

theorem PhiS1_pos (c : Dev nD) (n : ℕ) (h : n ≤ cfg1.N) (hz : n ≠ 0) :
    PhiS1 V c n h = iprop(iprop(owns (c : Thread nD τ) scM1_0 fullShare (S1 V c (n - 1) (by omega))) ∗ Rest1 c) := by
  cases n with
  | zero => exact absurd rfl hz
  | succ n => rfl

/-- The proof data of pipeline 1 on core c. -/
def dat1 (V : (c : Dev nD) → (b : Ref sig .tc) → Buf (Elt F) ((c : Thread nD τ).loc b)) (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay2 (S1 V c t.val t.isLt)
  Φ t := PhiS1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem q_eq1 (c : Dev nD) (w : Fin cfg1.W) : (dat1 V c).q w = fullShare := by dsimp only [dat1]
theorem owed_eq1 (c : Dev nD) (t : Fin (cfg1.N + 1)) : (dat1 V c).owed t = 0 := by dsimp only [dat1]
theorem recorded_eq1 (c : Dev nD) (t : Fin (cfg1.N + 1)) : (dat1 V c).recorded t = Set.univ := by dsimp only [dat1]

/-- The body leaves each input window's staging buffer at its block. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
/-- At the last point of each row of the grid the body stores the running sum, broadcast along the lanes,
    into the output block. -/
theorem after1_5 (c : Dev nD) (t : Fin cfg1.N) (h : t.val % 25 = 24) :
    (dat1 V c).after 5 t = k1_pay2 (S1 V c t.val t.isLt) := by dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-! An input window's current staging buffer holds its block at every point, fetched there or not: where it is not
    fetched its block index has not moved, and the body left the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- An input window is live everywhere: the body's post for it is its buffer at what the body leaves. -/
theorem leaves1_0 (c : Dev nD) (t : Fin cfg1.N) :
    (dat1 V c).leavesExact 0 t = owns (c : Thread nD τ) (ms1_0 t) fullShare ((dat1 V c).after 0 t) := by
  unfold Dat.leavesExact; rw [liveAt1_0 t]
theorem leaves1_1 (c : Dev nD) (t : Fin cfg1.N) :
    (dat1 V c).leavesExact 1 t = owns (c : Thread nD τ) (ms1_1 t) fullShare ((dat1 V c).after 1 t) := by
  unfold Dat.leavesExact; rw [liveAt1_1 t]
theorem leaves1_2 (c : Dev nD) (t : Fin cfg1.N) :
    (dat1 V c).leavesExact 2 t = owns (c : Thread nD τ) (ms1_2 t) fullShare ((dat1 V c).after 2 t) := by
  unfold Dat.leavesExact; rw [liveAt1_2 t]
theorem leaves1_3 (c : Dev nD) (t : Fin cfg1.N) :
    (dat1 V c).leavesExact 3 t = owns (c : Thread nD τ) (ms1_3 t) fullShare ((dat1 V c).after 3 t) := by
  unfold Dat.leavesExact; rw [liveAt1_3 t]
theorem leaves1_4 (c : Dev nD) (t : Fin cfg1.N) :
    (dat1 V c).leavesExact 4 t = owns (c : Thread nD τ) (ms1_4 t) fullShare ((dat1 V c).after 4 t) := by
  unfold Dat.leavesExact; rw [liveAt1_4 t]

/-! The body obligation, at a generic point. -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point. The inputs' memrefs hold their blocks; the point's position in its row says which of the
    three runs applies; the invariant hands the body the scratch at what the point before left (at anything before
    the first point) and takes it back at the running sum of this point; away from the last point of a row the
    output window is idle and its buffer is handed back as found. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0 V, before1_1 V, before1_2 V, before1_3 V, before1_4 V]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2, leaves1_3, leaves1_4, after1_0, after1_1, after1_2, after1_3, after1_4]
  have hN : t.val < 50 := lt_of_lt_of_eq t.isLt (show cfg1.N = 50 from N_1)
  by_cases h0 : t.val % 25 = 0
  · have h1 : ¬t.val % 25 = 24 := by omega
    rw [Dat.leavesExact_idle (dat1 V c) 5 t (idleAt1_5 t (fun h => h1 ((hcond1_1 t).mp h))) (noFlush1_5 t (fun h => h1 ((hcond1_1 t).mp h)))]
    rw [S1_reset V c t h0]; unfold tileSum1
    by_cases hz : t.val = 0
    · rw [PhiS1_castSucc V c t, PhiS1_zero V c _ _ hz, PhiA1_eq]
      iintro ⟨⟨HS0, Hg⟩, Ho, ⟨%d0, H0⟩, ⟨%d1, H1⟩, ⟨%d2, H2⟩, ⟨%d3, H3⟩, ⟨%d4, H4⟩, ⟨%d5, H5⟩⟩
      iapply (kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS1_castSucc V c t, PhiS1_pos V c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := fun hz => h0 (by rw [hz])
    by_cases h1 : t.val % 25 = 24
    · rw [show (dat1 V c).leavesExact 5 t = owns (c : Thread nD τ) (ms1_5 t) fullShare ((dat1 V c).after 5 t) from by
        unfold Dat.leavesExact; rw [liveAt1_5 t ((hcond1_1 t).mpr h1)], after1_5 V c t h1]
      rw [S1_carry V c t h0]; unfold tileSum1
      rw [PhiS1_castSucc V c t, PhiS1_pos V c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat1 V c) 5 t (idleAt1_5 t (fun h => h1 ((hcond1_1 t).mp h))) (noFlush1_5 t (fun h => h1 ((hcond1_1 t).mp h)))]
      rw [S1_carry V c t h0]; unfold tileSum1
      rw [PhiS1_castSucc V c t, PhiS1_pos V c _ _ hz]
      iintro ⟨⟨HS0, Hg⟩, Ho, ⟨%d0, H0⟩, ⟨%d1, H1⟩, ⟨%d2, H2⟩, ⟨%d3, H3⟩, ⟨%d4, H4⟩, ⟨%d5, H5⟩⟩
      iapply (kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      iintro ⟨H0, H1, H2, H3, H4, H5, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch's contents are forgotten. -/
theorem Phi_out1 (c : Dev nD) (t : Fin (cfg1.N + 1)) (ht : t.val ≠ 0) : (dat1 V c).Φ t ⊢ (Pipeline.ΦA spec1 c : sProp 𝕄) := by
  rw [show (dat1 V c).Φ t = PhiS1 V c t.val (Nat.le_of_lt_succ t.isLt) from rfl, PhiS1_pos V c _ _ ht, PhiA1_eq]
  iintro ⟨HS0, Hg⟩
  isplitl [HS0]
  · iexists _; iexact HS0
  iexact Hg

/-- After the last point the invariant gives it back, the scratch's contents forgotten. -/
theorem hout1 (c : Dev nD) : (dat1 V c).Φ (Fin.last cfg1.N) ⊢ (Pipeline.ΦA spec1 c : sProp 𝕄) :=
  Phi_out1 V c _ (by rw [Fin.val_last]; have : cfg1.N = 50 := N_1; omega)

end Cert.KernelIdeal.Hand

end
-- ==== Proof.Spec.lean ====
import Idealize.ShloMosaic.PureOps.Ideal
import Idealize.ShloMosaic.PureOps.Ideal.Laws
import Idealize.ShloMosaic.Lib.ValueIdx

noncomputable section

/-! The mathematics of the two passes over the extended reals: the squared distance of a data row to a code row
    from their squared norms and their inner product, its clamp at zero, the softmax weight of a clamped and
    shifted distance, and the two quantities the program computes from the whole distance matrix: its least
    clamped entry, and the sum over the matrix of each clamped distance times its normalised weight. -/

namespace Cert.Spec

open Idealize.ShloMosaic

/-- The float literals of the two programs, as the extended reals their words denote. -/
def zeroW : EReal := Ideal.ofBits .f32 0x00000000#32
def twoW : EReal := Ideal.ofBits .f32 0x40000000#32
def tenW : EReal := Ideal.ofBits .f32 0x41200000#32
def m5W : EReal := Ideal.ofBits .f32 0xC0A00000#32
def infW : EReal := Ideal.ofBits .f32 0x7F800000#32

/-- The squared distance before clamping: the two squared norms' sum less twice the inner product. -/
def dist (a b p : EReal) : EReal := (a + b) - twoW * p
/-- The clamp at zero. -/
def cl (d : EReal) : EReal := max d zeroW
/-- The unnormalised weight of a clamped distance d shifted by g, as the kernel spells it. -/
def wK (d g : EReal) : EReal := Ideal.exp (m5W * min (d + g) tenW)
/-- The same as the reference spells it, with the lower clip the kernel leaves out. -/
def wR (d g : EReal) : EReal := Ideal.exp (m5W * min tenW (max zeroW (d + g)))

/-- One tile of 2000 rows against the 1024 code rows: its least unclamped distance. -/
def tileMin (dt : Fin 2000 → Fin 1024 → EReal) : EReal := ⨅ r : Fin 2000, ⨅ c : Fin 1024, dt r c
/-- One tile's weighted sum: over its rows and the code rows, the clamped distance times its weight over the row's total weight. -/
def tileSum (dt : Fin 2000 → Fin 1024 → EReal) (g : EReal) : EReal :=
  ∑ r : Fin 2000, ∑ c : Fin 1024, cl (dt r c) * Ideal.div (wK (cl (dt r c)) g) (∑ c' : Fin 1024, wK (cl (dt r c')) g)

/-- Row r of tile i of half p of the 100000 data rows. -/
def rowOf (p : Fin 2) (i : Fin 25) (r : Fin 2000) : Fin 100000 := ⟨(p.val * 25 + i.val) * 2000 + r.val, by omega⟩

/-- The running minimum of a sequence from +inf: after step n it is the least of the first n+1 terms. -/
def accMin (f : ℕ → EReal) : ℕ → EReal
  | 0 => min infW (f 0)
  | n + 1 => min (accMin f n) (f (n + 1))
/-- The running sum of a sequence from zero: after step n it is the sum of the first n+1 terms. -/
def accSum (f : ℕ → EReal) : ℕ → EReal
  | 0 => zeroW + f 0
  | n + 1 => accSum f n + f (n + 1)

/-- THE KERNEL'S SHIFT: per half the running minimum over its 25 tiles, the least of the two halves from +inf, clamped at zero. -/
def shiftK (d : Fin 100000 → Fin 1024 → EReal) : EReal :=
  max (min (min infW (accMin (fun i => if h : i < 25 then tileMin (fun r c => d (rowOf 0 ⟨i, h⟩ r) c) else infW) 24))
      (accMin (fun i => if h : i < 25 then tileMin (fun r c => d (rowOf 1 ⟨i, h⟩ r) c) else infW) 24)) zeroW
/-- THE REFERENCE'S SHIFT: the least clamped distance of the whole matrix. -/
def shiftR (d : Fin 100000 → Fin 1024 → EReal) : EReal := ⨅ r : Fin 100000, ⨅ c : Fin 1024, cl (d r c)

/-- THE KERNEL'S TOTAL: per half the running sum over its 25 tiles, then zero plus the two halves' sum. -/
def totalK (d : Fin 100000 → Fin 1024 → EReal) (g : EReal) : EReal :=
  zeroW + ∑ p : Fin 2, accSum (fun i => if h : i < 25 then tileSum (fun r c => d (rowOf p ⟨i, h⟩ r) c) g else zeroW) 24
/-- THE REFERENCE'S TOTAL: zero plus the sum over the whole matrix, each row's weights normalised by zero plus their sum. -/
def totalR (d : Fin 100000 → Fin 1024 → EReal) (g : EReal) : EReal :=
  zeroW + ∑ r : Fin 100000, ∑ c : Fin 1024, cl (d r c) * Ideal.div (wR (cl (d r c)) g) (zeroW + ∑ c' : Fin 1024, wR (cl (d r c')) g)

end Cert.Spec

end
-- ==== Proof.KI.PayIdeal.lean ====
import proofs.«413624_j13305808683177_3_alg».proof.Proof.Gen.KernelIdeal.Skeleton
import proofs.«413624_j13305808683177_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

/-! The pure values the two kernel bodies store, read at an index over the extended reals: a tile's least distance
    joined to the running minimum, a tile's weighted sum, and the small layout steps around them. -/

namespace Cert.KernelIdeal.Hand

open Cert.KernelIdeal Cert.KernelIdeal.Gen Cert.Spec
open Idealize.ShloMosaic Idealize.ShloMosaic.ValueIdx

/-- The unclamped squared distances of one tile, from its blocks: the tile's column of squared row norms x0, its rows
    x1, the transposed code rows x2 and the row of squared code norms x3. -/
def tdist (x0 : Vec Ideal S2000x1 .f32) (x1 : Vec Ideal S2000x64 .f32) (x2 : Vec Ideal S64x1024 .bf16) (x3 : Vec Ideal S1x1024 .f32)
    (r : Fin 2000) (c : Fin 1024) : EReal :=
  dist (x0 (ix2 r 0)) (x3 (ix2 0 c)) (∑ k : Fin 64, x1 (ix2 r k) * x2 (ix2 k c))

/-! ## The small layout steps -/

/-- A one-element matrix broadcast along a row of 128 reads its one element everywhere. -/
theorem bc_1x1_1x128 (s : Vec Ideal S1x1 .f32) (l : Fin 128) :
    broadcastTo S1x128 s broadcasts_S1x1_S1x128 (ix2 0 l) = s (ix2 0 0) := by
  refine broadcastTo_apply s broadcasts_S1x1_S1x128 (ix2 0 l) (ix2 0 0) fun ax => ?_
  match ax with
  | ⟨0, _⟩ => rfl
  | ⟨1, _⟩ => rfl

/-- A one-element vector cast to a one-element matrix reads its one element. -/
theorem sc_1_1x1 (v : FVec Ideal S1 .f32) : shapeCast S1x1 v shapeCasts_S1_S1x1 (ix2 0 0) = v (ix1 0) :=
  shapeCast_a_1a_apply v shapeCasts_S1_S1x1 0 0

/-- The first pass's initial scratch value: the splat of +inf. -/
theorem pay0_1 : (k0_pay1 (F := Ideal)) (ix2 0 0) = infW := by
  unfold k0_pay1
  simp only [shapeCast_self]
  rfl

/-! ## Layout steps of the tile -/

/-- A vector cast to a one-column matrix reads, at row i, the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast over many columns reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The tile's product: one entry is the inner product of a data row and a code column -/

theorem lhs_dot_0 (i : S2000x1024.Idx) (q : dot_S2000x64_S64x1024_S2000x1024_1_0_0_1_n_n.contr.Idx) :
    (dot_S2000x64_S64x1024_S2000x1024_1_0_0_1_n_n.lhsIdx i q 0).val = (i 0).val := by
  unfold DotDims.lhsIdx
  rw [dif_neg (show ¬(0 : Fin S2000x64.rank) ∈ dot_S2000x64_S64x1024_S2000x1024_1_0_0_1_n_n.lhsBatch by decide), dif_pos (show (0 : Fin S2000x64.rank) ∈ dot_S2000x64_S64x1024_S2000x1024_1_0_0_1_n_n.lhsNonContracting by decide)]
  rfl
theorem lhs_dot_1 (i : S2000x1024.Idx) (q : dot_S2000x64_S64x1024_S2000x1024_1_0_0_1_n_n.contr.Idx) :
    (dot_S2000x64_S64x1024_S2000x1024_1_0_0_1_n_n.lhsIdx i q 1).val = (q ⟨0, by decide⟩).val :=
  dot_S2000x64_S64x1024_S2000x1024_1_0_0_1_n_n.lhsIdx_val_of_single rfl i q
theorem rhs_dot_0 (i : S2000x1024.Idx) (q : dot_S2000x64_S64x1024_S2000x1024_1_0_0_1_n_n.contr.Idx) :
    (dot_S2000x64_S64x1024_S2000x1024_1_0_0_1_n_n.rhsIdx i q 0).val = (q ⟨0, by decide⟩).val :=
  dot_S2000x64_S64x1024_S2000x1024_1_0_0_1_n_n.rhsIdx_val_of_single rfl i q
theorem rhs_dot_1 (i : S2000x1024.Idx) (q : dot_S2000x64_S64x1024_S2000x1024_1_0_0_1_n_n.contr.Idx) :
    (dot_S2000x64_S64x1024_S2000x1024_1_0_0_1_n_n.rhsIdx i q 1).val = (i 1).val := by
  unfold DotDims.rhsIdx
  rw [dif_neg (show ¬(1 : Fin S64x1024.rank) ∈ dot_S2000x64_S64x1024_S2000x1024_1_0_0_1_n_n.rhsBatch by decide), dif_pos (show (1 : Fin S64x1024.rank) ∈ dot_S2000x64_S64x1024_S2000x1024_1_0_0_1_n_n.rhsNonContracting by decide)]
  rfl

/-- The product into a zero accumulator, read at (r, c): the sum over the 64 coordinates of the products. -/
theorem matmul_tile_apply (A : FVec Ideal S2000x64 .bf16) (B : FVec Ideal S64x1024 .bf16) (r : Fin 2000) (c : Fin 1024) :
    matmul dot_S2000x64_S64x1024_S2000x1024_1_0_0_1_n_n none A B (constant S2000x1024 .f32 0x00000000#32) (ix2 r c)
      = ∑ k : Fin 64, A (ix2 r k) * B (ix2 k c) := by
  simp only [matmul]
  rw [Ideal.matmul_constant_zero_apply, ← Equiv.sum_comp (contrEquiv1 dot_S2000x64_S64x1024_S2000x1024_1_0_0_1_n_n 64 rfl rfl).symm]
  refine Finset.sum_congr rfl fun k _ => ?_
  have hk := contrEquiv1_symm_val dot_S2000x64_S64x1024_S2000x1024_1_0_0_1_n_n 64 rfl rfl k
  have el : dot_S2000x64_S64x1024_S2000x1024_1_0_0_1_n_n.lhsIdx (ix2 r c) ((contrEquiv1 dot_S2000x64_S64x1024_S2000x1024_1_0_0_1_n_n 64 rfl rfl).symm k) = ix2 r k := funext fun a => Fin.ext (by
    match a with
    | ⟨0, _⟩ => exact lhs_dot_0 _ _
    | ⟨1, _⟩ => exact (lhs_dot_1 _ _).trans hk)
  have er : dot_S2000x64_S64x1024_S2000x1024_1_0_0_1_n_n.rhsIdx (ix2 r c) ((contrEquiv1 dot_S2000x64_S64x1024_S2000x1024_1_0_0_1_n_n 64 rfl rfl).symm k) = ix2 k c := funext fun a => Fin.ext (by
    match a with
    | ⟨0, _⟩ => exact (rhs_dot_0 _ _).trans hk
    | ⟨1, _⟩ => exact rhs_dot_1 _ _)
  rw [el, er]

/-! ## The tile's distance matrix -/

/-- The distance matrix both passes compute first, as a vector value. -/
def tvec (x1 : Vec Ideal S2000x64 .f32) (x2 : Vec Ideal S64x1024 .bf16) (x0 : Vec Ideal S2000x1 .f32) (x3 : Vec Ideal S1x1024 .f32) :
    FVec Ideal S2000x1024 .f32 :=
  subf (addf (broadcastTo S2000x1024 (shapeCast S2000x1 x0 shapeCasts_S2000x1_S2000x1) broadcasts_S2000x1_S2000x1024)
             (broadcastTo S2000x1024 (shapeCast S1x1024 x3 shapeCasts_S1x1024_S1x1024) broadcasts_S1x1024_S2000x1024))
       (mulf (broadcast S2000x1024 (Scalar.ofBits .f32 0x40000000#32 : Ideal .f32))
             (matmul dot_S2000x64_S64x1024_S2000x1024_1_0_0_1_n_n none (truncf .bf16 x1 bitsLt_bf16_f32 : FVec Ideal S2000x64 .bf16)
                (shapeCast S64x1024 x2 shapeCasts_S64x1024_S64x1024 : FVec Ideal S64x1024 .bf16) (constant S2000x1024 .f32 0x00000000#32)))

/-- Read at (r, c) it is the squared distance of data row r to code row c. -/
theorem tvec_apply (x1 : Vec Ideal S2000x64 .f32) (x2 : Vec Ideal S64x1024 .bf16) (x0 : Vec Ideal S2000x1 .f32) (x3 : Vec Ideal S1x1024 .f32)
    (r : Fin 2000) (c : Fin 1024) : tvec x1 x2 x0 x3 (ix2 r c) = tdist x0 x1 x2 x3 r c := by
  unfold tvec
  rw [shapeCast_self, shapeCast_self, shapeCast_self, subf_apply, addf_apply, mulf_apply, broadcast_apply,
    broadcastTo_a1_ab_apply, broadcastTo_1b_ab_apply, matmul_tile_apply]
  rfl

/-! ## Minimum reductions as infima -/

/-- The word of +inf denotes the top extended real. -/
theorem ofBits_inf_f32 : Ideal.ofBits .f32 0x7F800000#32 = (⊤ : EReal) := by simp [Ideal.ofBits, Ideal.ieee]

/-- The fold of min from the top element over a whole finite range is the infimum over the range. -/
theorem fold_min_top_eq_iInf {n : ℕ} (f : Fin n → EReal) :
    (Finset.univ : Finset (Fin n)).fold min (⊤ : EReal) f = ⨅ k, f k :=
  eq_of_forall_le_iff fun c => by
    rw [Finset.le_fold_min, le_iInf_iff]
    exact ⟨fun h k => h.2 k (Finset.mem_univ k), fun h => ⟨le_top, fun k _ => h k⟩⟩

/-- A minimum reduction over one axis at the extended reals: the fold of min from the accumulator's value over that
    axis's coordinates. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The least entry of row r of a tile-shaped matrix. -/
theorem rowMin_apply (v : FVec Ideal S2000x1024 .f32) (r : Fin 2000) :
    multiReduction .minimumf [1] S2000 v 0x7F800000#32 reduces_S2000x1024_S2000 (.inl rfl) rfl (ix1 r)
      = ⨅ c : Fin 1024, v (ix2 r c) := by
  refine (multiReduction_minimumf_single v _ reduces_S2000x1024_S2000 _ _ (ix1 r)).trans ?_
  have e : (v ∘ reduces_S2000x1024_S2000.lift (ix1 r)) = fun c : Fin 1024 => v (ix2 r c) :=
    funext fun c => congrArg v (funext fun a => Fin.ext (match a with | ⟨0, _⟩ => rfl | ⟨1, _⟩ => rfl))
  show (Finset.univ : Finset (Fin 1024)).fold min (Ideal.ofBits .f32 0x7F800000#32) (v ∘ reduces_S2000x1024_S2000.lift (ix1 r)) = _
  rw [e, ofBits_inf_f32]
  exact fold_min_top_eq_iInf _

/-- The least entry of a column of 2000. -/
theorem colMin_apply (v : FVec Ideal S2000x1 .f32) :
    multiReduction .minimumf [0] S1 v 0x7F800000#32 reduces_S2000x1_S1 (.inl rfl) rfl (ix1 0)
      = ⨅ r : Fin 2000, v (ix2 r 0) := by
  refine (multiReduction_minimumf_single v _ reduces_S2000x1_S1 _ _ (ix1 0)).trans ?_
  have e : (v ∘ reduces_S2000x1_S1.lift (ix1 0)) = fun r : Fin 2000 => v (ix2 r 0) :=
    funext fun r => congrArg v (funext fun a => Fin.ext (match a with | ⟨0, _⟩ => rfl | ⟨1, _⟩ => rfl))
  show (Finset.univ : Finset (Fin 2000)).fold min (Ideal.ofBits .f32 0x7F800000#32) (v ∘ reduces_S2000x1_S1.lift (ix1 0)) = _
  rw [e, ofBits_inf_f32]
  exact fold_min_top_eq_iInf _

/-! ## The first pass's value: the tile's least distance joined to the carried minimum -/

/-- The stored value over the distance matrix: rows' minima, their minimum, joined to the carried value. -/
theorem k0_pay2_eq (x1 : Vec Ideal S2000x64 .f32) (x2 : Vec Ideal S64x1024 .bf16) (x0 : Vec Ideal S2000x1 .f32) (x3 : Vec Ideal S1x1024 .f32)
    (s : Vec Ideal S1x1 .f32) :
    k0_pay2 (F := Ideal) x1 x2 x0 x3 s
      = shapeCast S1x1 (minimumf s (shapeCast S1x1 (multiReduction .minimumf [0] S1
          (shapeCast S2000x1 (multiReduction .minimumf [1] S2000 (tvec x1 x2 x0 x3) 0x7F800000#32 reduces_S2000x1024_S2000 (.inl rfl) rfl)
            shapeCasts_S2000_S2000x1)
          0x7F800000#32 reduces_S2000x1_S1 (.inl rfl) rfl) shapeCasts_S1_S1x1)) shapeCasts_S1x1_S1x1 := rfl

theorem pay0_2 (x1 : Vec Ideal S2000x64 .f32) (x2 : Vec Ideal S64x1024 .bf16) (x0 : Vec Ideal S2000x1 .f32) (x3 : Vec Ideal S1x1024 .f32)
    (s : Vec Ideal S1x1 .f32) :
    k0_pay2 (F := Ideal) x1 x2 x0 x3 s (ix2 0 0) = min (s (ix2 0 0)) (tileMin (tdist x0 x1 x2 x3)) := by
  rw [k0_pay2_eq, shapeCast_self, minimumf_apply, sc_1_1x1, colMin_apply]
  refine congrArg (min (s (ix2 0 0))) ?_
  unfold tileMin
  refine iInf_congr fun r => ?_
  rw [shapeCast_a_a1_apply, rowMin_apply]
  exact iInf_congr fun c => tvec_apply x1 x2 x0 x3 r c

/-- The first pass's output row: the scratch value on every lane. -/
theorem pay0_3 (s : Vec Ideal S1x1 .f32) (l : Fin 128) : k0_pay3 (F := Ideal) s (ix2 0 l) = s (ix2 0 0) := by
  unfold k0_pay3
  simp only [shapeCast_self]
  exact bc_1x1_1x128 s l

/-- The second pass's initial scratch value: the splat of zero. -/
theorem pay1_3 : (k1_pay3 (F := Ideal)) (ix2 0 0) = zeroW := by
  unfold k1_pay3
  simp only [shapeCast_self]
  rfl

/-! ## Sums over one axis of the tile -/

/-- The sum of row r of a tile-shaped matrix. -/
theorem rowSum_apply (v : FVec Ideal S2000x1024 .f32) (r : Fin 2000) :
    multiReduction .add [1] S2000 v 0x00000000#32 reduces_S2000x1024_S2000 (.inl rfl) rfl (ix1 r)
      = ∑ c : Fin 1024, v (ix2 r c) := by
  refine (Ideal.multiReduction_add_single v 0x00000000#32 reduces_S2000x1024_S2000 _ _ (ix1 r)).trans ?_
  exact Finset.sum_congr rfl fun c _ =>
    congrArg v (funext fun a => Fin.ext (match a with | ⟨0, _⟩ => rfl | ⟨1, _⟩ => rfl))

/-- The sum of a column of 2000. -/
theorem colSum_apply (v : FVec Ideal S2000x1 .f32) :
    multiReduction .add [0] S1 v 0x00000000#32 reduces_S2000x1_S1 (.inl rfl) rfl (ix1 0)
      = ∑ r : Fin 2000, v (ix2 r 0) := by
  refine (Ideal.multiReduction_add_single v 0x00000000#32 reduces_S2000x1_S1 _ _ (ix1 0)).trans ?_
  exact Finset.sum_congr rfl fun r _ =>
    congrArg v (funext fun a => Fin.ext (match a with | ⟨0, _⟩ => rfl | ⟨1, _⟩ => rfl))

/-! ## The second pass's value: the tile's weighted sum -/

/-- The clamped distance matrix. -/
def tcl (x1 : Vec Ideal S2000x64 .f32) (x2 : Vec Ideal S64x1024 .bf16) (x0 : Vec Ideal S2000x1 .f32) (x3 : Vec Ideal S1x1024 .f32) :
    FVec Ideal S2000x1024 .f32 :=
  maximumf (tvec x1 x2 x0 x3) (broadcast S2000x1024 (Scalar.ofBits .f32 0x00000000#32 : Ideal .f32))

theorem tcl_apply (x1 : Vec Ideal S2000x64 .f32) (x2 : Vec Ideal S64x1024 .bf16) (x0 : Vec Ideal S2000x1 .f32) (x3 : Vec Ideal S1x1024 .f32)
    (r : Fin 2000) (c : Fin 1024) : tcl x1 x2 x0 x3 (ix2 r c) = cl (tdist x0 x1 x2 x3 r c) := by
  unfold tcl
  rw [maximumf_apply, broadcast_apply, tvec_apply]
  rfl

/-- The matrix of unnormalised weights: the exponential of minus five times the clamped, shifted and capped distance. -/
def twt (x1 : Vec Ideal S2000x64 .f32) (x2 : Vec Ideal S64x1024 .bf16) (x0 : Vec Ideal S2000x1 .f32) (x3 : Vec Ideal S1x1024 .f32)
    (g : Vec Ideal S1x1 .f32) : FVec Ideal S2000x1024 .f32 :=
  exp (mulf (broadcast S2000x1024 (Scalar.ofBits .f32 0xC0A00000#32 : Ideal .f32))
    (minimumf (addf (tcl x1 x2 x0 x3) (broadcast S2000x1024 (extractAt ![0, 0] g inpos_S1x1_p0_0)))
      (broadcast S2000x1024 (Scalar.ofBits .f32 0x41200000#32 : Ideal .f32))))

theorem twt_apply (x1 : Vec Ideal S2000x64 .f32) (x2 : Vec Ideal S64x1024 .bf16) (x0 : Vec Ideal S2000x1 .f32) (x3 : Vec Ideal S1x1024 .f32)
    (g : Vec Ideal S1x1 .f32) (r : Fin 2000) (c : Fin 1024) :
    twt x1 x2 x0 x3 g (ix2 r c) = wK (cl (tdist x0 x1 x2 x3 r c)) (g (ix2 0 0)) := by
  have hg : extractAt ![0, 0] g inpos_S1x1_p0_0 = g (ix2 0 0) :=
    congrArg g (funext fun a => Fin.ext (match a with | ⟨0, _⟩ => rfl | ⟨1, _⟩ => rfl))
  unfold twt
  rw [hg]
  show Ideal.exp (m5W * min (tcl x1 x2 x0 x3 (ix2 r c) + g (ix2 0 0)) tenW) = _
  rw [tcl_apply]
  rfl

/-- The matrix of normalised weights: each weight over its row's total. -/
def tnorm (x1 : Vec Ideal S2000x64 .f32) (x2 : Vec Ideal S64x1024 .bf16) (x0 : Vec Ideal S2000x1 .f32) (x3 : Vec Ideal S1x1024 .f32)
    (g : Vec Ideal S1x1 .f32) : FVec Ideal S2000x1024 .f32 :=
  divf (twt x1 x2 x0 x3 g)
    (broadcastTo S2000x1024
      (shapeCast S2000x1 (multiReduction .add [1] S2000 (twt x1 x2 x0 x3 g) 0x00000000#32 reduces_S2000x1024_S2000 (.inl rfl) rfl)
        shapeCasts_S2000_S2000x1)
      broadcasts_S2000x1_S2000x1024)

theorem tnorm_apply (x1 : Vec Ideal S2000x64 .f32) (x2 : Vec Ideal S64x1024 .bf16) (x0 : Vec Ideal S2000x1 .f32) (x3 : Vec Ideal S1x1024 .f32)
    (g : Vec Ideal S1x1 .f32) (r : Fin 2000) (c : Fin 1024) :
    tnorm x1 x2 x0 x3 g (ix2 r c)
      = Ideal.div (wK (cl (tdist x0 x1 x2 x3 r c)) (g (ix2 0 0))) (∑ c' : Fin 1024, wK (cl (tdist x0 x1 x2 x3 r c')) (g (ix2 0 0))) := by
  unfold tnorm
  rw [divf_apply, broadcastTo_a1_ab_apply, shapeCast_a_a1_apply, rowSum_apply, twt_apply]
  exact congrArg (Ideal.div _) (Finset.sum_congr rfl fun c' _ => twt_apply x1 x2 x0 x3 g r c')

/-- The stored value over those matrices: the rows' sums of clamped distance times normalised weight, summed. -/
theorem k1_pay4_eq (x1 : Vec Ideal S2000x64 .f32) (x2 : Vec Ideal S64x1024 .bf16) (x0 : Vec Ideal S2000x1 .f32) (x3 : Vec Ideal S1x1024 .f32)
    (g : Vec Ideal S1x1 .f32) :
    k1_pay4 (F := Ideal) x1 x2 x0 x3 g
      = multiReduction .add [0] S1
          (shapeCast S2000x1 (multiReduction .add [1] S2000 (mulf (tcl x1 x2 x0 x3) (tnorm x1 x2 x0 x3 g)) 0x00000000#32
            reduces_S2000x1024_S2000 (.inl rfl) rfl) shapeCasts_S2000_S2000x1)
          0x00000000#32 reduces_S2000x1_S1 (.inl rfl) rfl := rfl

theorem pay1_4 (x1 : Vec Ideal S2000x64 .f32) (x2 : Vec Ideal S64x1024 .bf16) (x0 : Vec Ideal S2000x1 .f32) (x3 : Vec Ideal S1x1024 .f32)
    (g : Vec Ideal S1x1 .f32) :
    k1_pay4 (F := Ideal) x1 x2 x0 x3 g (ix1 0) = tileSum (tdist x0 x1 x2 x3) (g (ix2 0 0)) := by
  rw [k1_pay4_eq, colSum_apply]
  unfold tileSum
  refine Finset.sum_congr rfl fun r _ => ?_
  rw [shapeCast_a_a1_apply, rowSum_apply]
  refine Finset.sum_congr rfl fun c _ => ?_
  rw [mulf_apply, tcl_apply, tnorm_apply]

/-- The second pass's accumulation: the scratch value plus the tile's sum. -/
theorem pay1_1 (v36 : FVec Ideal S1 .f32) (v38 : Vec Ideal S1x1 .f32) :
    k1_pay1 (F := Ideal) v36 v38 (ix2 0 0) = v38 (ix2 0 0) + v36 (ix1 0) := by
  unfold k1_pay1
  simp only [shapeCast_self]
  rw [addf_apply, sc_1_1x1]

/-- The second pass's output row: the scratch value on every lane. -/
theorem pay1_2 (s : Vec Ideal S1x1 .f32) (l : Fin 128) : k1_pay2 (F := Ideal) s (ix2 0 l) = s (ix2 0 0) := by
  unfold k1_pay2
  simp only [shapeCast_self]
  exact bc_1x1_1x128 s l

end Cert.KernelIdeal.Hand

end
-- ==== Proof.Math.lean ====
import proofs.«413624_j13305808683177_3_alg».proof.Proof.Spec
import Mathlib.Algebra.BigOperators.Fin
import Mathlib.Data.Fintype.BigOperators
import Mathlib.Order.CompleteBooleanAlgebra

noncomputable section

/-! The two identities between the kernel's and the reference's arrangements: the least clamped entry of the matrix
    is the clamp of the least entry taken tile by tile and half by half, and the matrix's weighted sum is the sum of
    the tiles' weighted sums taken in the kernel's order. Neither needs any entry to be finite: the first is the
    distributivity of max over an infimum in a complete linear order, the second is a regrouping of a finite sum in a
    commutative monoid, once the kernel's and the reference's weights are seen to agree on nonnegative arguments. -/

namespace Cert.Spec

open Idealize.ShloMosaic

theorem zeroW_eq : zeroW = 0 := by simp [zeroW]
theorem infW_eq : infW = ⊤ := by simp [infW, Ideal.ofBits, Ideal.ieee]
theorem cl_nonneg (d : EReal) : 0 ≤ cl d := by
  rw [cl, zeroW_eq]; exact le_max_right _ _

theorem accMin_eq (f : ℕ → EReal) (n : ℕ) : accMin f n = ⨅ j : Fin (n + 1), f j.val := by
  induction n with
  | zero =>
    rw [accMin, infW_eq, top_inf_eq]
    apply le_antisymm
    · exact le_iInf fun j => le_of_eq (by rw [Fin.val_eq_zero j])
    · exact iInf_le (fun j : Fin (0 + 1) => f j.val) 0
  | succ n ih =>
    rw [accMin, ih]
    apply le_antisymm
    · apply le_iInf; intro j
      refine Fin.lastCases ?_ (fun i => ?_) j
      · exact min_le_right _ _
      · exact (min_le_left _ _).trans (iInf_le (fun j : Fin (n + 1) => f j.val) i)
    · apply le_min
      · apply le_iInf; intro i
        exact iInf_le (fun j : Fin (n + 1 + 1) => f j.val) i.castSucc
      · exact iInf_le (fun j : Fin (n + 1 + 1) => f j.val) (Fin.last (n + 1))

theorem accSum_eq (f : ℕ → EReal) (n : ℕ) : accSum f n = ∑ j : Fin (n + 1), f j.val := by
  induction n with
  | zero => simp [accSum, zeroW_eq]
  | succ n ih => rw [accSum, ih, Fin.sum_univ_castSucc (n := n + 1)]; simp

theorem shiftR_nonneg (d : Fin 100000 → Fin 1024 → EReal) : 0 ≤ shiftR d :=
  le_iInf fun _ => le_iInf fun _ => cl_nonneg _

theorem wK_eq_wR (d g : EReal) (hd : 0 ≤ d) (hg : 0 ≤ g) : wK d g = wR d g := by
  unfold wK wR
  rw [zeroW_eq, max_eq_right (add_nonneg hd hg), min_comm]

/-- The max with a constant of an infimum is the infimum of the maxima. -/
theorem iInf_max_const {ι : Sort*} (f : ι → EReal) (a : EReal) : (⨅ i, max (f i) a) = max (⨅ i, f i) a :=
  (iInf_sup_eq f a).symm

/-- The infimum over all rows is the least of the two halves' infima over their tiles and the tiles' rows. -/
theorem iInf_rows (F : Fin 100000 → EReal) :
    min (min ⊤ (⨅ j : Fin 25, ⨅ r : Fin 2000, F (rowOf 0 j r))) (⨅ j : Fin 25, ⨅ r : Fin 2000, F (rowOf 1 j r))
      = ⨅ r : Fin 100000, F r := by
  apply le_antisymm
  · apply le_iInf; intro r
    by_cases h : r.val < 50000
    · refine (min_le_left _ _).trans ((min_le_right _ _).trans ?_)
      refine iInf_le_of_le ⟨r.val / 2000, by omega⟩ (iInf_le_of_le ⟨r.val % 2000, by omega⟩ (le_of_eq ?_))
      congr 1
      apply Fin.ext
      simp only [rowOf, Fin.val_zero]
      omega
    · refine (min_le_right _ _).trans ?_
      have hr := r.isLt
      refine iInf_le_of_le ⟨r.val / 2000 - 25, by omega⟩ (iInf_le_of_le ⟨r.val % 2000, by omega⟩ (le_of_eq ?_))
      congr 1
      apply Fin.ext
      simp only [rowOf, Fin.val_one]
      omega
  · refine le_min (le_min le_top ?_) ?_
    · exact le_iInf fun j => le_iInf fun r => iInf_le F (rowOf 0 j r)
    · exact le_iInf fun j => le_iInf fun r => iInf_le F (rowOf 1 j r)

theorem shift_eq (d : Fin 100000 → Fin 1024 → EReal) : shiftK d = shiftR d := by
  unfold shiftK shiftR
  rw [accMin_eq, accMin_eq]
  simp only [Fin.is_lt, dite_true, Fin.eta, tileMin, cl, infW_eq]
  rw [iInf_rows (fun r => ⨅ c : Fin 1024, d r c)]
  rw [← iInf_max_const]
  exact iInf_congr fun r => (iInf_max_const _ _).symm

/-- The rows as half, tile, row in tile. -/
def rowEquiv : Fin 2 × Fin 25 × Fin 2000 ≃ Fin 100000 where
  toFun x := rowOf x.1 x.2.1 x.2.2
  invFun r := (⟨r.val / 50000, by omega⟩, ⟨(r.val / 2000) % 25, by omega⟩, ⟨r.val % 2000, by omega⟩)
  left_inv := by
    rintro ⟨p, j, r⟩
    have hp := p.isLt; have hj := j.isLt; have hr := r.isLt
    refine Prod.ext (Fin.ext ?_) (Prod.ext (Fin.ext ?_) (Fin.ext ?_)) <;> simp only [rowOf] <;> omega
  right_inv := by
    intro r
    apply Fin.ext
    simp only [rowOf]
    omega

/-- A sum over all rows regroups as the sum over the halves of the sums over the tiles of the sums over the tiles' rows. -/
theorem sum_rows (F : Fin 100000 → EReal) :
    ∑ r : Fin 100000, F r = ∑ p : Fin 2, ∑ j : Fin 25, ∑ r : Fin 2000, F (rowOf p j r) := by
  rw [← Equiv.sum_comp rowEquiv F, Fintype.sum_prod_type]
  refine Finset.sum_congr rfl fun p _ => ?_
  rw [Fintype.sum_prod_type]
  rfl

theorem total_eq (d : Fin 100000 → Fin 1024 → EReal) (g : EReal) (hg : 0 ≤ g) : totalK d g = totalR d g := by
  unfold totalK totalR
  have hw : ∀ x : EReal, wR (cl x) g = wK (cl x) g := fun x => (wK_eq_wR _ _ (cl_nonneg x) hg).symm
  simp only [hw, zeroW_eq, zero_add, accSum_eq, Fin.is_lt, dite_true, Fin.eta, tileSum]
  rw [sum_rows]

end Cert.Spec

end
-- ==== Proof.KI.Folds.lean ====
import proofs.«413624_j13305808683177_3_alg».proof.Proof.KI.R0Dat
import proofs.«413624_j13305808683177_3_alg».proof.Proof.KI.R1Dat
import proofs.«413624_j13305808683177_3_alg».proof.Proof.KI.PayIdeal
import proofs.«413624_j13305808683177_3_alg».proof.Proof.Math

set_option maxRecDepth 16384

noncomputable section

/-! The running values the two bodies keep in their scratch, over the extended reals: along one half's row of the
    grid the running minimum is the least of the tiles' least distances so far, and the running sum the sum of the
    tiles' weighted sums so far. -/

namespace Cert.KernelIdeal.Hand

open Cert.KernelIdeal Cert.KernelIdeal.Gen Cert.Spec
open Idealize.ShloMosaic Idealize.ShloMosaic.TcCoe Idealize.ShloMosaic.ValueIdx

variable (V : (c : Dev nD) → (b : Ref sig .tc) → Buf (Elt Ideal) ((c : Thread nD τ).loc b))

/-- Tile j of half p of region 0's grid, as a grid point. -/
def pt0 (p : Fin 2) (j : ℕ) (hj : j < 25) : Fin cfg0.N := ⟨25 * p.val + j, by have : cfg0.N = 50 := N_0; omega⟩
def pt1 (p : Fin 2) (j : ℕ) (hj : j < 25) : Fin cfg1.N := ⟨25 * p.val + j, by have : cfg1.N = 50 := N_1; omega⟩

/-- The distances of the tile at a grid point of region 0, from the four input blocks there. -/
def dtile0 (c : Dev nD) (t : Fin cfg0.N) : Fin 2000 → Fin 1024 → EReal :=
  tdist (iblk0 V c 0 t) (iblk0 V c 1 t) (iblk0 V c 2 t) (iblk0 V c 3 t)
def dtile1 (c : Dev nD) (t : Fin cfg1.N) : Fin 2000 → Fin 1024 → EReal :=
  tdist (iblk1 V c 0 t) (iblk1 V c 1 t) (iblk1 V c 2 t) (iblk1 V c 3 t)

/-- The running minimum does not depend on how its position is written. -/
theorem S0_congr (c : Dev nD) {n n' : ℕ} (e : n = n') (hn : n < cfg0.N) (hn' : n' < cfg0.N) :
    S0 (F := Ideal) V c n hn = S0 (F := Ideal) V c n' hn' := by subst e; rfl

/-- At the first tile of a half the scratch holds the least of +inf and the tile's least distance. -/
theorem S0_ideal_first (c : Dev nD) (t : Fin cfg0.N) (h0 : t.val % 25 = 0) :
    S0 (F := Ideal) V c t.val t.isLt (ix2 0 0) = min infW (tileMin (dtile0 V c t)) := by
  refine (congrFun (S0_first V c t h0) (ix2 0 0)).trans ?_
  refine (pay0_2 _ _ _ _ _).trans ?_
  rw [pay0_1]
  rfl

/-- At a later tile it holds the least of what the tile before left and the tile's least distance. -/
theorem S0_ideal_next (c : Dev nD) (t : Fin cfg0.N) (h0 : ¬t.val % 25 = 0) :
    S0 (F := Ideal) V c t.val t.isLt (ix2 0 0)
      = min (S0 (F := Ideal) V c (t.val - 1) (Nat.lt_of_le_of_lt (Nat.sub_le _ _) t.isLt) (ix2 0 0)) (tileMin (dtile0 V c t)) := by
  refine (congrFun (S0_next V c t h0) (ix2 0 0)).trans ?_
  exact pay0_2 _ _ _ _ _

/-- After tile i of half p, region 0's scratch holds the least of that half's first i+1 tile minima. -/
theorem S0_ideal (c : Dev nD) (p : Fin 2) (i : ℕ) (hi : i < 25) :
    S0 (F := Ideal) V c (25 * p.val + i) (pt0 p i hi).isLt (ix2 0 0)
      = accMin (fun j => if h : j < 25 then tileMin (dtile0 V c (pt0 p j h)) else infW) i := by
  induction i with
  | zero =>
    refine (S0_ideal_first V c (pt0 p 0 hi) (by show (25 * p.val + 0) % 25 = 0; omega)).trans ?_
    rw [accMin, dif_pos hi]
  | succ i ih =>
    have hi' : i < 25 := Nat.lt_of_succ_lt hi
    refine (S0_ideal_next V c (pt0 p (i + 1) hi) (by show ¬(25 * p.val + (i + 1)) % 25 = 0; omega)).trans ?_
    rw [accMin, dif_pos hi]
    refine congrArg (fun x => min x (tileMin (dtile0 V c (pt0 p (i + 1) hi)))) ?_
    refine Eq.trans ?_ (ih hi')
    exact congrFun (S0_congr V c (by show 25 * p.val + (i + 1) - 1 = 25 * p.val + i; omega) _ _) (ix2 0 0)

/-- The running sum does not depend on how its position is written. -/
theorem S1_congr (c : Dev nD) {n n' : ℕ} (e : n = n') (hn : n < cfg1.N) (hn' : n' < cfg1.N) :
    S1 (F := Ideal) V c n hn = S1 (F := Ideal) V c n' hn' := by subst e; rfl

/-- The tile's weighted sum at a grid point of region 1, with the shift the region is handed. -/
theorem tileSum1_ideal (c : Dev nD) (g : EReal) (hg : ∀ t : Fin cfg1.N, (iblk1 V c 4 t : S1x1.Idx → EReal) (ix2 0 0) = g)
    (t : Fin cfg1.N) : tileSum1 (F := Ideal) V c t (ix1 0) = tileSum (dtile1 V c t) g := by
  unfold tileSum1
  refine (pay1_4 _ _ _ _ _).trans ?_
  exact congrArg (tileSum (dtile1 V c t)) (hg t)

/-- At the first tile of a half the scratch holds zero plus the tile's weighted sum. -/
theorem S1_ideal_first (c : Dev nD) (g : EReal) (hg : ∀ t : Fin cfg1.N, (iblk1 V c 4 t : S1x1.Idx → EReal) (ix2 0 0) = g)
    (t : Fin cfg1.N) (h0 : t.val % 25 = 0) :
    S1 (F := Ideal) V c t.val t.isLt (ix2 0 0) = zeroW + tileSum (dtile1 V c t) g := by
  obtain ⟨n, hn⟩ := t
  have e : S1 (F := Ideal) V c n hn = k1_pay1 (tileSum1 V c ⟨n, hn⟩) (k1_pay3 (F := Ideal)) := by
    cases n with
    | zero => rfl
    | succ n => exact (show S1 (F := Ideal) V c (n + 1) hn = _ from by rw [S1, if_pos h0])
  refine (congrFun e (ix2 0 0)).trans ?_
  rw [pay1_1, pay1_3, tileSum1_ideal V c g hg]

/-- At a later tile it holds what the tile before left plus the tile's weighted sum. -/
theorem S1_ideal_next (c : Dev nD) (g : EReal) (hg : ∀ t : Fin cfg1.N, (iblk1 V c 4 t : S1x1.Idx → EReal) (ix2 0 0) = g)
    (t : Fin cfg1.N) (h0 : ¬t.val % 25 = 0) :
    S1 (F := Ideal) V c t.val t.isLt (ix2 0 0)
      = S1 (F := Ideal) V c (t.val - 1) (Nat.lt_of_le_of_lt (Nat.sub_le _ _) t.isLt) (ix2 0 0) + tileSum (dtile1 V c t) g := by
  obtain ⟨n, hn⟩ := t
  have e : S1 (F := Ideal) V c n hn
      = k1_pay1 (tileSum1 V c ⟨n, hn⟩) (S1 (F := Ideal) V c (n - 1) (Nat.lt_of_le_of_lt (Nat.sub_le _ _) hn)) := by
    cases n with
    | zero => exact absurd (Nat.zero_mod _) h0
    | succ n => exact (show S1 (F := Ideal) V c (n + 1) hn = _ from by rw [S1, if_neg h0]; rfl)
  refine (congrFun e (ix2 0 0)).trans ?_
  rw [pay1_1, tileSum1_ideal V c g hg]

/-- After tile i of half p, region 1's scratch holds the sum of that half's first i+1 tile sums, each weighted with the
    shift the region is handed (its fifth input block, the same at every point). -/
theorem S1_ideal (c : Dev nD) (g : EReal) (hg : ∀ t : Fin cfg1.N, (iblk1 V c 4 t : S1x1.Idx → EReal) (ix2 0 0) = g)
    (p : Fin 2) (i : ℕ) (hi : i < 25) :
    S1 (F := Ideal) V c (25 * p.val + i) (pt1 p i hi).isLt (ix2 0 0)
      = accSum (fun j => if h : j < 25 then tileSum (dtile1 V c (pt1 p j h)) g else zeroW) i := by
  induction i with
  | zero =>
    refine (S1_ideal_first V c g hg (pt1 p 0 hi) (by show (25 * p.val + 0) % 25 = 0; omega)).trans ?_
    rw [accSum, dif_pos hi]
  | succ i ih =>
    have hi' : i < 25 := Nat.lt_of_succ_lt hi
    refine (S1_ideal_next V c g hg (pt1 p (i + 1) hi) (by show ¬(25 * p.val + (i + 1)) % 25 = 0; omega)).trans ?_
    rw [accSum, dif_pos hi]
    refine congrArg (fun x => x + tileSum (dtile1 V c (pt1 p (i + 1) hi)) g) ?_
    refine Eq.trans ?_ (ih hi')
    exact congrFun (S1_congr V c (by show 25 * p.val + (i + 1) - 1 = 25 * p.val + i; omega) _ _) (ix2 0 0)

end Cert.KernelIdeal.Hand

end
-- ==== Proof.KI.BlockRead.lean ====
import proofs.«413624_j13305808683177_3_alg».proof.Proof.KI.Blocks
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Each window's block at a grid point, read at an index, is its array at the corresponding index: the two tiled
    windows move 2000 rows per point; the other input windows are their whole arrays at every point. -/

open Idealize.ShloMosaic.ValueIdx

variable (V : (c : Dev nD) → (b : Ref sig .tc) → Buf (Elt F) ((c : Thread nD τ).loc b))

/-- The tiled windows' block index at point t is t along the rows; the whole-array windows stay at the origin. -/
theorem idx0_in : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)
theorem idx1_in : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Row r of tile t among the 100000 data rows. -/
def tileRow (t : ℕ) (ht : t < 50) (r : Fin 2000) : Fin 100000 := ⟨t * 2000 + r.val, by have := r.isLt; omega⟩

theorem iblk0_0_apply (c : Dev nD) (t : Fin cfg0.N) (r : Fin 2000) :
    (iblk0 V c 0 t : S2000x1.Idx → Elt F .f32) (ix2 r 0)
      = (V c main_v2 : S100000x1.Idx → Elt F .f32) (ix2 (tileRow t.val (lt_of_lt_of_eq t.isLt N_0) r) 0) := by
  obtain ⟨e0, e1, -⟩ := idx0_in t
  show (V c main_v2 : S100000x1.Idx → Elt F .f32) (((cfg0.win 0).blk t).view.emb (ix2 r 0)) = _
  refine congrArg _ ?_
  funext a; apply Fin.ext
  match a with
  | ⟨0, _⟩ => show win0_0.index t (0 : Fin 2) * 2000 + 1 * r.val = t.val * 2000 + r.val; rw [e0]; omega
  | ⟨1, _⟩ => show win0_0.index t (1 : Fin 2) * 1 + 1 * 0 = 0; rw [e1]

/-- The data rows' window in region 0: row r of tile t is data row t·2000 + r. -/
theorem iblk0_1_apply (c : Dev nD) (t : Fin cfg0.N) (r : Fin 2000) (k : Fin 64) :
    (iblk0 V c 1 t : S2000x64.Idx → Elt F .f32) (ix2 r k)
      = (V c main_arg0 : S100000x64.Idx → Elt F .f32) (ix2 (tileRow t.val (lt_of_lt_of_eq t.isLt N_0) r) k) := by
  obtain ⟨-, -, e0, e1, -⟩ := idx0_in t
  show (V c main_arg0 : S100000x64.Idx → Elt F .f32) (((cfg0.win 1).blk t).view.emb (ix2 r k)) = _
  refine congrArg _ ?_
  funext a; apply Fin.ext
  match a with
  | ⟨0, _⟩ => show win0_1.index t (0 : Fin 2) * 2000 + 1 * r.val = t.val * 2000 + r.val; rw [e0]; omega
  | ⟨1, _⟩ => show win0_1.index t (1 : Fin 2) * 64 + 1 * k.val = k.val; rw [e1]; omega

/-- The transposed code rows' window in region 0 is the whole array at every point. -/
theorem iblk0_2_apply (c : Dev nD) (t : Fin cfg0.N) (k : Fin 64) (j : Fin 1024) :
    (iblk0 V c 2 t : S64x1024.Idx → Elt F .bf16) (ix2 k j)
      = (V c main_v4 : S64x1024.Idx → Elt F .bf16) (ix2 k j) := by
  obtain ⟨-, -, -, -, e0, e1, -⟩ := idx0_in t
  show (V c main_v4 : S64x1024.Idx → Elt F .bf16) (((cfg0.win 2).blk t).view.emb (ix2 k j)) = _
  refine congrArg _ ?_
  funext a; apply Fin.ext
  match a with
  | ⟨0, _⟩ => show win0_2.index t (0 : Fin 2) * 64 + 1 * k.val = k.val; rw [e0]; omega
  | ⟨1, _⟩ => show win0_2.index t (1 : Fin 2) * 1024 + 1 * j.val = j.val; rw [e1]; omega

/-- The squared code norms' window in region 0 is the whole row at every point. -/
theorem iblk0_3_apply (c : Dev nD) (t : Fin cfg0.N) (j : Fin 1024) :
    (iblk0 V c 3 t : S1x1024.Idx → Elt F .f32) (ix2 0 j)
      = (V c main_v8 : S1x1024.Idx → Elt F .f32) (ix2 0 j) := by
  obtain ⟨-, -, -, -, -, -, e0, e1⟩ := idx0_in t
  show (V c main_v8 : S1x1024.Idx → Elt F .f32) (((cfg0.win 3).blk t).view.emb (ix2 0 j)) = _
  refine congrArg _ ?_
  funext a; apply Fin.ext
  match a with
  | ⟨0, _⟩ => show win0_3.index t (0 : Fin 2) * 1 + 1 * 0 = 0; rw [e0]
  | ⟨1, _⟩ => show win0_3.index t (1 : Fin 2) * 1024 + 1 * j.val = j.val; rw [e1]; omega

/-- The squared row norms' window in region 1: row r of tile t is row t·2000 + r of the column. -/
theorem iblk1_0_apply (c : Dev nD) (t : Fin cfg1.N) (r : Fin 2000) :
    (iblk1 V c 0 t : S2000x1.Idx → Elt F .f32) (ix2 r 0)
      = (V c main_v2 : S100000x1.Idx → Elt F .f32) (ix2 (tileRow t.val (lt_of_lt_of_eq t.isLt N_1) r) 0) := by
  obtain ⟨e0, e1, -⟩ := idx1_in t
  show (V c main_v2 : S100000x1.Idx → Elt F .f32) (((cfg1.win 0).blk t).view.emb (ix2 r 0)) = _
  refine congrArg _ ?_
  funext a; apply Fin.ext
  match a with
  | ⟨0, _⟩ => show win1_0.index t (0 : Fin 2) * 2000 + 1 * r.val = t.val * 2000 + r.val; rw [e0]; omega
  | ⟨1, _⟩ => show win1_0.index t (1 : Fin 2) * 1 + 1 * 0 = 0; rw [e1]

/-- The data rows' window in region 1. -/
theorem iblk1_1_apply (c : Dev nD) (t : Fin cfg1.N) (r : Fin 2000) (k : Fin 64) :
    (iblk1 V c 1 t : S2000x64.Idx → Elt F .f32) (ix2 r k)
      = (V c main_arg0 : S100000x64.Idx → Elt F .f32) (ix2 (tileRow t.val (lt_of_lt_of_eq t.isLt N_1) r) k) := by
  obtain ⟨-, -, e0, e1, -⟩ := idx1_in t
  show (V c main_arg0 : S100000x64.Idx → Elt F .f32) (((cfg1.win 1).blk t).view.emb (ix2 r k)) = _
  refine congrArg _ ?_
  funext a; apply Fin.ext
  match a with
  | ⟨0, _⟩ => show win1_1.index t (0 : Fin 2) * 2000 + 1 * r.val = t.val * 2000 + r.val; rw [e0]; omega
  | ⟨1, _⟩ => show win1_1.index t (1 : Fin 2) * 64 + 1 * k.val = k.val; rw [e1]; omega

/-- The transposed code rows' window in region 1 is the whole array at every point. -/
theorem iblk1_2_apply (c : Dev nD) (t : Fin cfg1.N) (k : Fin 64) (j : Fin 1024) :
    (iblk1 V c 2 t : S64x1024.Idx → Elt F .bf16) (ix2 k j)
      = (V c main_v4 : S64x1024.Idx → Elt F .bf16) (ix2 k j) := by
  obtain ⟨-, -, -, -, e0, e1, -⟩ := idx1_in t
  show (V c main_v4 : S64x1024.Idx → Elt F .bf16) (((cfg1.win 2).blk t).view.emb (ix2 k j)) = _
  refine congrArg _ ?_
  funext a; apply Fin.ext
  match a with
  | ⟨0, _⟩ => show win1_2.index t (0 : Fin 2) * 64 + 1 * k.val = k.val; rw [e0]; omega
  | ⟨1, _⟩ => show win1_2.index t (1 : Fin 2) * 1024 + 1 * j.val = j.val; rw [e1]; omega

/-- The squared code norms' window in region 1 is the whole row at every point. -/
theorem iblk1_3_apply (c : Dev nD) (t : Fin cfg1.N) (j : Fin 1024) :
    (iblk1 V c 3 t : S1x1024.Idx → Elt F .f32) (ix2 0 j)
      = (V c main_v8 : S1x1024.Idx → Elt F .f32) (ix2 0 j) := by
  obtain ⟨-, -, -, -, -, -, e0, e1, -⟩ := idx1_in t
  show (V c main_v8 : S1x1024.Idx → Elt F .f32) (((cfg1.win 3).blk t).view.emb (ix2 0 j)) = _
  refine congrArg _ ?_
  funext a; apply Fin.ext
  match a with
  | ⟨0, _⟩ => show win1_3.index t (0 : Fin 2) * 1 + 1 * 0 = 0; rw [e0]
  | ⟨1, _⟩ => show win1_3.index t (1 : Fin 2) * 1024 + 1 * j.val = j.val; rw [e1]; omega

/-- The shift's window in region 1 is the one-element array at every point. -/
theorem iblk1_4_apply (c : Dev nD) (t : Fin cfg1.N) :
    (iblk1 V c 4 t : S1x1.Idx → Elt F .f32) (ix2 0 0)
      = (V c main_v15 : S1x1.Idx → Elt F .f32) (ix2 0 0) := by
  obtain ⟨-, -, -, -, -, -, -, -, e0, e1⟩ := idx1_in t
  show (V c main_v15 : S1x1.Idx → Elt F .f32) (((cfg1.win 4).blk t).view.emb (ix2 0 0)) = _
  refine congrArg _ ?_
  funext a; apply Fin.ext
  match a with
  | ⟨0, _⟩ => show win1_4.index t (0 : Fin 2) * 1 + 1 * 0 = 0; rw [e0]
  | ⟨1, _⟩ => show win1_4.index t (1 : Fin 2) * 1 + 1 * 0 = 0; rw [e1]

end Cert.KernelIdeal.Hand

end
-- ==== Proof.KI.Run.lean ====
import proofs.«413624_j13305808683177_3_alg».proof.Proof.KI.R0Dat
import proofs.«413624_j13305808683177_3_alg».proof.Proof.KI.R1Dat
import proofs.«413624_j13305808683177_3_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! THE RUN of the whole program: its fifteen segments (thirteen stretches of host operations and the two kernel
    regions) from the launch to the return, the buffer contents at every boundary as a fold from the launch memory,
    and the statement that every weakly fair execution terminates with every unscoped buffer at the last fold. -/

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- Core c's buffers after the host operations of stretch hostOps0. -/
abbrev W1 : Dev nD → Valuation τ sig (Elt F) := fun c => StableHlo.after hostOps0 (W0 m ρ c)
/-- The contents region 0 is entered from, read at the TensorCore's references. -/
abbrev V1 : (c : Dev nD) → (b : Ref sig .tc) → Buf (Elt F) ((c : Thread nD τ).loc b) := fun c b => W1 m ρ c b
/-- Core c's buffers when region 0 is left: its arrays at what the write-backs leave, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- Core c's buffers after the host operations of stretch hostOps1. -/
abbrev W3 : Dev nD → Valuation τ sig (Elt F) := fun c => StableHlo.after hostOps1 (W2 m ρ c)
/-- The contents region 1 is entered from, read at the TensorCore's references. -/
abbrev V3 : (c : Dev nD) → (b : Ref sig .tc) → Buf (Elt F) ((c : Thread nD τ).loc b) := fun c b => W3 m ρ c b
/-- Core c's buffers when region 1 is left: its arrays at what the write-backs leave, every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)
/-- Core c's buffers after the host operations of stretch hostOps2. -/
abbrev W5 : Dev nD → Valuation τ sig (Elt F) := fun c => StableHlo.after hostOps2 (W4 m ρ c)
/-- Core c's buffers after the host operations of stretch hostOps2_1. -/
abbrev W6 : Dev nD → Valuation τ sig (Elt F) := fun c => StableHlo.after hostOps2_1 (W5 m ρ c)
/-- Core c's buffers after the host operations of stretch hostOps2_2. -/
abbrev W7 : Dev nD → Valuation τ sig (Elt F) := fun c => StableHlo.after hostOps2_2 (W6 m ρ c)
/-- Core c's buffers after the host operations of stretch hostOps2_3. -/
abbrev W8 : Dev nD → Valuation τ sig (Elt F) := fun c => StableHlo.after hostOps2_3 (W7 m ρ c)
/-- Core c's buffers after the host operations of stretch hostOps2_4. -/
abbrev W9 : Dev nD → Valuation τ sig (Elt F) := fun c => StableHlo.after hostOps2_4 (W8 m ρ c)
/-- Core c's buffers after the host operations of stretch hostOps2_5. -/
abbrev W10 : Dev nD → Valuation τ sig (Elt F) := fun c => StableHlo.after hostOps2_5 (W9 m ρ c)
/-- Core c's buffers after the host operations of stretch hostOps2_6. -/
abbrev W11 : Dev nD → Valuation τ sig (Elt F) := fun c => StableHlo.after hostOps2_6 (W10 m ρ c)
/-- Core c's buffers after the host operations of stretch hostOps2_7. -/
abbrev W12 : Dev nD → Valuation τ sig (Elt F) := fun c => StableHlo.after hostOps2_7 (W11 m ρ c)
/-- Core c's buffers after the host operations of stretch hostOps2_8. -/
abbrev W13 : Dev nD → Valuation τ sig (Elt F) := fun c => StableHlo.after hostOps2_8 (W12 m ρ c)
/-- Core c's buffers after the host operations of stretch hostOps2_9. -/
abbrev W14 : Dev nD → Valuation τ sig (Elt F) := fun c => StableHlo.after hostOps2_9 (W13 m ρ c)
/-- Core c's buffers after the host operations of stretch hostOps2_10. -/
abbrev W15 : Dev nD → Valuation τ sig (Elt F) := fun c => StableHlo.after hostOps2_10 (W14 m ρ c)

/-- No pallas_call has a prefetched table. -/
abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A stretch of host operations as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes term. -/
abbrev Tₙ (c : Dev nD) : sProp 𝕄 := iprop(StableHlo.held (c : Thread nD τ) (Pipeline.ucRefs τ sig) (W15 m ρ c) ∗ ∃ r, prngReg c r)

set_option backward.isDefEq.respectTransparency.types false in
/-- Region 0 as a segment: entered from every unscoped buffer at W1, left at W2; its arrays are split out of the
    unscoped buffers and put back at the exit contents; the generator register goes into the region's invariant and comes
    back; the core owes nothing; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed_eq0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun w => q_eq0 (V1 m ρ) c w) (V1 m ρ c) fun w => A_eq0 (V1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 0 c).owed 0 = 0 from owed_eq0 (V1 m ρ) c 0]
      icases HO with ⟨%W, HO⟩; iexists W; isplitr
      · ipureintro; exact fun _ _ => Or.inl ((recorded_eq0 (V1 m ρ) c 0).symm ▸ Set.mem_univ _)
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun w => q_eq0 (V1 m ρ) c w)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 0 c).owed (Fin.last _) = 0 from owed_eq0 (V1 m ρ) c _]
    icases HO with ⟨%W, -, HO⟩; iexists W; iexact HO

set_option backward.isDefEq.respectTransparency.types false in
/-- Region 1 as a segment: entered from every unscoped buffer at W3, left at W4; its arrays are split out of the
    unscoped buffers and put back at the exit contents; the generator register goes into the region's invariant and comes
    back; the core owes nothing; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed_eq1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun w => q_eq1 (V3 m ρ) c w) (V3 m ρ c) fun w => A_eq1 (V3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m ρ 1 c).owed 0 = 0 from owed_eq1 (V3 m ρ) c 0]
      icases HO with ⟨%W, HO⟩; iexists W; isplitr
      · ipureintro; exact fun _ _ => Or.inl ((recorded_eq1 (V3 m ρ) c 0).symm ▸ Set.mem_univ _)
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun w => q_eq1 (V3 m ρ) c w)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m ρ 1 c).owed (Fin.last _) = 0 from owed_eq1 (V3 m ρ) c _]
    icases HO with ⟨%W, -, HO⟩; iexists W; iexact HO

/-- The program's fifteen segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .host (hseg hostOps2_1 hostOps2_1_sub hostOps2_1_fresh (W5 m ρ)),
    .host (hseg hostOps2_2 hostOps2_2_sub hostOps2_2_fresh (W6 m ρ)),
    .host (hseg hostOps2_3 hostOps2_3_sub hostOps2_3_fresh (W7 m ρ)),
    .host (hseg hostOps2_4 hostOps2_4_sub hostOps2_4_fresh (W8 m ρ)),
    .host (hseg hostOps2_5 hostOps2_5_sub hostOps2_5_fresh (W9 m ρ)),
    .host (hseg hostOps2_6 hostOps2_6_sub hostOps2_6_fresh (W10 m ρ)),
    .host (hseg hostOps2_7 hostOps2_7_sub hostOps2_7_fresh (W11 m ρ)),
    .host (hseg hostOps2_8 hostOps2_8_sub hostOps2_8_fresh (W12 m ρ)),
    .host (hseg hostOps2_9 hostOps2_9_sub hostOps2_9_fresh (W13 m ρ)),
    .host (hseg hostOps2_10 hostOps2_10_sub hostOps2_10_fresh (W14 m ρ)) ]

theorem main_run (c : Dev nD) : main (F := F) c = Pipeline.Seg.run (segs m ρ) := (main_chain c).trans (by chain_rfl)

set_option backward.isDefEq.respectTransparency.types false in
/-- From any memory with zero counters, every weakly fair execution of the program terminates without a fault, and in
    every final state every unscoped buffer of every core holds the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W15 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W15 m ρ c) ∗ R c) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c => h c)

end Cert.KernelIdeal.Hand

end
-- ==== Proof.KI.Kept.lean ====
import proofs.«413624_j13305808683177_3_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Which buffers reach where unchanged: a stretch of host operations leaves every buffer it does not write, and a
    region leaves the arrays of its input windows and every buffer that is no array of its pipeline. So the two
    arguments end as launched, and the arrays the first stretch makes reach both regions as it left them. -/

variable (m : (ℓ : Loc nD τ sig) → Buf (Elt F) ℓ) (ρ : Dev nD → PrngReg)

namespace HF

/-- A buffer the first stretch does not write is as launched. -/
theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
/-- A buffer the stretch between the regions does not write leaves it as region 0 left it. -/
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
theorem W6_of (c : Dev nD) (r : Ref sig .tc) (h : r ∉ hostOps2_1_W) :
    W6 m ρ c (Proc.devRef .tc r) = W5 m ρ c (Proc.devRef .tc r) :=
  StableHlo.after_of_writes_sub hostOps2_1 _ hostOps2_1_writes h
theorem W7_of (c : Dev nD) (r : Ref sig .tc) (h : r ∉ hostOps2_2_W) :
    W7 m ρ c (Proc.devRef .tc r) = W6 m ρ c (Proc.devRef .tc r) :=
  StableHlo.after_of_writes_sub hostOps2_2 _ hostOps2_2_writes h
theorem W8_of (c : Dev nD) (r : Ref sig .tc) (h : r ∉ hostOps2_3_W) :
    W8 m ρ c (Proc.devRef .tc r) = W7 m ρ c (Proc.devRef .tc r) :=
  StableHlo.after_of_writes_sub hostOps2_3 _ hostOps2_3_writes h
theorem W9_of (c : Dev nD) (r : Ref sig .tc) (h : r ∉ hostOps2_4_W) :
    W9 m ρ c (Proc.devRef .tc r) = W8 m ρ c (Proc.devRef .tc r) :=
  StableHlo.after_of_writes_sub hostOps2_4 _ hostOps2_4_writes h
theorem W10_of (c : Dev nD) (r : Ref sig .tc) (h : r ∉ hostOps2_5_W) :
    W10 m ρ c (Proc.devRef .tc r) = W9 m ρ c (Proc.devRef .tc r) :=
  StableHlo.after_of_writes_sub hostOps2_5 _ hostOps2_5_writes h
theorem W11_of (c : Dev nD) (r : Ref sig .tc) (h : r ∉ hostOps2_6_W) :
    W11 m ρ c (Proc.devRef .tc r) = W10 m ρ c (Proc.devRef .tc r) :=
  StableHlo.after_of_writes_sub hostOps2_6 _ hostOps2_6_writes h
theorem W12_of (c : Dev nD) (r : Ref sig .tc) (h : r ∉ hostOps2_7_W) :
    W12 m ρ c (Proc.devRef .tc r) = W11 m ρ c (Proc.devRef .tc r) :=
  StableHlo.after_of_writes_sub hostOps2_7 _ hostOps2_7_writes h
theorem W13_of (c : Dev nD) (r : Ref sig .tc) (h : r ∉ hostOps2_8_W) :
    W13 m ρ c (Proc.devRef .tc r) = W12 m ρ c (Proc.devRef .tc r) :=
  StableHlo.after_of_writes_sub hostOps2_8 _ hostOps2_8_writes h
theorem W14_of (c : Dev nD) (r : Ref sig .tc) (h : r ∉ hostOps2_9_W) :
    W14 m ρ c (Proc.devRef .tc r) = W13 m ρ c (Proc.devRef .tc r) :=
  StableHlo.after_of_writes_sub hostOps2_9 _ hostOps2_9_writes h
theorem W15_of (c : Dev nD) (r : Ref sig .tc) (h : r ∉ hostOps2_10_W) :
    W15 m ρ c (Proc.devRef .tc r) = W14 m ρ c (Proc.devRef .tc r) :=
  StableHlo.after_of_writes_sub hostOps2_10 _ hostOps2_10_writes h

/-- A buffer none of the last eleven stretches writes ends as region 1 left it. -/
theorem W15_of_W4 (c : Dev nD) (r : Ref sig .tc)
    (h5 : r ∉ hostOps2_W) (h6 : r ∉ hostOps2_1_W) (h7 : r ∉ hostOps2_2_W) (h8 : r ∉ hostOps2_3_W) (h9 : r ∉ hostOps2_4_W)
    (h10 : r ∉ hostOps2_5_W) (h11 : r ∉ hostOps2_6_W) (h12 : r ∉ hostOps2_7_W) (h13 : r ∉ hostOps2_8_W)
    (h14 : r ∉ hostOps2_9_W) (h15 : r ∉ hostOps2_10_W) :
    W15 m ρ c (Proc.devRef .tc r) = W4 m ρ c (Proc.devRef .tc r) :=
  (W15_of m ρ c r h15).trans <| (W14_of m ρ c r h14).trans <| (W13_of m ρ c r h13).trans <| (W12_of m ρ c r h12).trans <|
  (W11_of m ρ c r h11).trans <| (W10_of m ρ c r h10).trans <| (W9_of m ρ c r h9).trans <| (W8_of m ρ c r h8).trans <|
  (W7_of m ρ c r h7).trans <| (W6_of m ρ c r h6).trans <| (W5_of m ρ c r h5)

/-- Region 0 leaves the array of an input window as it found it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- Region 1 leaves the array of an input window as it found it. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

end HF

theorem W1_main_arg0 (c : Dev nD) : W1 m ρ c (Proc.devRef .tc main_arg0) = m ((c : Thread nD τ).loc main_arg0) :=
  HF.W1_of m ρ c main_arg0 (by decide)
theorem W1_main_arg1 (c : Dev nD) : W1 m ρ c (Proc.devRef .tc main_arg1) = m ((c : Thread nD τ).loc main_arg1) :=
  HF.W1_of m ρ c main_arg1 (by decide)
theorem W3_main_arg0 (c : Dev nD) : W3 m ρ c (Proc.devRef .tc main_arg0) = m ((c : Thread nD τ).loc main_arg0) :=
  (HF.W3_of m ρ c main_arg0 (by decide)).trans <| (HF.W2_in m ρ c 1 rfl).trans (W1_main_arg0 m ρ c)
theorem W3_main_arg1 (c : Dev nD) : W3 m ρ c (Proc.devRef .tc main_arg1) = m ((c : Thread nD τ).loc main_arg1) :=
  (HF.W3_of m ρ c main_arg1 (by decide)).trans <| (W2_of_ne m ρ c main_arg1 (by decide)).trans (W1_main_arg1 m ρ c)
theorem W3_main_v2 (c : Dev nD) : W3 m ρ c (Proc.devRef .tc main_v2) = W1 m ρ c (Proc.devRef .tc main_v2) :=
  (HF.W3_of m ρ c main_v2 (by decide)).trans (HF.W2_in m ρ c 0 rfl)
theorem W3_main_v4 (c : Dev nD) : W3 m ρ c (Proc.devRef .tc main_v4) = W1 m ρ c (Proc.devRef .tc main_v4) :=
  (HF.W3_of m ρ c main_v4 (by decide)).trans (HF.W2_in m ρ c 2 rfl)
theorem W3_main_v8 (c : Dev nD) : W3 m ρ c (Proc.devRef .tc main_v8) = W1 m ρ c (Proc.devRef .tc main_v8) :=
  (HF.W3_of m ρ c main_v8 (by decide)).trans (HF.W2_in m ρ c 3 rfl)
theorem W4_main_arg0 (c : Dev nD) : W4 m ρ c (Proc.devRef .tc main_arg0) = m ((c : Thread nD τ).loc main_arg0) :=
  (HF.W4_in m ρ c 1 rfl).trans (W3_main_arg0 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W15_main_arg0 (c : Dev nD) : W15 m ρ c (Proc.devRef .tc main_arg0) = m ((c : Thread nD τ).loc main_arg0) :=
  (HF.W15_of_W4 m ρ c main_arg0 (by decide) (by decide) (by decide) (by decide) (by decide) (by decide) (by decide) (by decide)
    (by decide) (by decide) (by decide)).trans (W4_main_arg0 m ρ c)
theorem W15_main_arg1 (c : Dev nD) : W15 m ρ c (Proc.devRef .tc main_arg1) = m ((c : Thread nD τ).loc main_arg1) :=
  (HF.W15_of_W4 m ρ c main_arg1 (by decide) (by decide) (by decide) (by decide) (by decide) (by decide) (by decide) (by decide)
    (by decide) (by decide) (by decide)).trans (W4_main_arg1 m ρ c)

end Cert.KernelIdeal.Hand

end
-- ==== Proof.KI.HostFold.lean ====
import proofs.«413624_j13305808683177_3_alg».proof.Proof.KI.Kept
import proofs.«413624_j13305808683177_3_alg».proof.Proof.Gen.ReferenceIdeal.Read
import proofs.«413624_j13305808683177_3_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The host operations around the two regions, read: what the stretch before region 0 leaves in the three arrays the
    kernels stage besides the data rows; that those arrays and the arguments reach region 1 and the end unchanged; what
    the stretch between the regions makes of region 0's output row; and the program's scalar result as the reference's
    own two closing terms around the mean of region 1's output row. -/

open Idealize.ShloMosaic.ValueIdx Cert.Spec

variable (m : (ℓ : Loc nD τ sig) → Buf (Elt F) ℓ) (ρ : Dev nD → PrngReg)

/-- Lane 0 of half p of a 256-lane row. -/
def lane (p : Fin 2) : Fin 256 := ⟨p.val * 128, by omega⟩

/-! ## The scalar result (any float family) -/

/-- The sum the program divides by the number of rows: lane 0 of each half of region 1's output row, summed from zero
    (the reshape to two rows of 128, the slice of their first column, the reshape to a pair, the host's sum). -/
def kerSum (o : (⟨S1x256, .f32⟩ : BufTy).Contents (Elt F)) : (⟨S_, .f32⟩ : BufTy).Contents (Elt F) :=
  Host.reduceAdd (shapeCast S2 (extractStridedSlice S2x1 ![0, 0] (shapeCast S2x128 o shapeCasts_S1x256_S2x128) slices_S2x128_S2x1_0_0) shapeCasts_S2x1_S2)
    (constant S_ .f32 0x00000000#32) reducesTo_S2_S_d0 h_S_

/-! ### Each stretch as a function of what it is entered with

For an arbitrary valuation at a stretch's entry, the buffer the stretch computes holds the reference's own term of the
code rows as soon as the buffers it reads hold theirs: the two programs apply the same operations in the same order,
so once the operands agree the two composed terms are the same term. -/

namespace HF

/-- The mean's numerator over its divisor: the first stretch's reshape, slice, reshape, sum and division of region 1's
    output row. -/
theorem st5_v21 (V : Valuation τ sig (Elt F)) :
    StableHlo.after hostOps2 V (Proc.devRef .tc main_v21) = Host.divf (kerSum (V (Proc.devRef .tc main_v16))) (constant S_ .f32 0x47C35000#32) := by
  after_results_simp
  rfl
set_option maxRecDepth 8192 in
set_option maxHeartbeats 4000000 in
theorem st5_v37 (V : Valuation τ sig (Elt F)) (x1 : (⟨S1024x64, .f32⟩ : BufTy).Contents (Elt F)) (h0 : V (Proc.devRef .tc main_arg1) = x1) :
    StableHlo.after hostOps2 V (Proc.devRef .tc main_v37) = Cert.ReferenceIdeal.Read.val_main_v15 (F := F) x1 := by
  after_results_simp
  rw [h0]
  rfl
set_option maxRecDepth 8192 in
set_option maxHeartbeats 4000000 in
theorem st5_v42 (V : Valuation τ sig (Elt F))  :
    StableHlo.after hostOps2 V (Proc.devRef .tc main_v42) = Cert.ReferenceIdeal.Read.val_main_v20 (F := F) := by
  after_results_simp
  rfl
set_option maxRecDepth 8192 in
set_option maxHeartbeats 4000000 in
theorem st5_cst_9 (V : Valuation τ sig (Elt F))  :
    StableHlo.after hostOps2 V (Proc.devRef .tc main_cst_9) = Cert.ReferenceIdeal.Read.val_main_cst_3 (F := F) := by
  after_results_simp
  rfl
set_option maxRecDepth 8192 in
set_option maxHeartbeats 4000000 in
theorem st6_v43 (V : Valuation τ sig (Elt F)) (x1 : (⟨S1024x64, .f32⟩ : BufTy).Contents (Elt F)) (h0 : V (Proc.devRef .tc main_v42) = Cert.ReferenceIdeal.Read.val_main_v20 (F := F)) (h1 : V (Proc.devRef .tc main_cst_9) = Cert.ReferenceIdeal.Read.val_main_cst_3 (F := F)) (h2 : V (Proc.devRef .tc main_v37) = Cert.ReferenceIdeal.Read.val_main_v15 (F := F) x1) :
    StableHlo.after hostOps2_1 V (Proc.devRef .tc main_v43) = Cert.ReferenceIdeal.Read.val_main_v21 (F := F) x1 := by
  after_results_simp
  rw [h0, h1, h2]
  rfl
set_option maxRecDepth 8192 in
set_option maxHeartbeats 4000000 in
theorem st7_v46 (V : Valuation τ sig (Elt F)) (x1 : (⟨S1024x64, .f32⟩ : BufTy).Contents (Elt F)) (h0 : V (Proc.devRef .tc main_v43) = Cert.ReferenceIdeal.Read.val_main_v21 (F := F) x1) :
    StableHlo.after hostOps2_2 V (Proc.devRef .tc main_v46) = Cert.ReferenceIdeal.Read.val_main_v24 (F := F) x1 := by
  after_results_simp
  rw [h0]
  rfl
set_option maxRecDepth 8192 in
set_option maxHeartbeats 4000000 in
theorem st7_cst_11 (V : Valuation τ sig (Elt F))  :
    StableHlo.after hostOps2_2 V (Proc.devRef .tc main_cst_11) = Cert.ReferenceIdeal.Read.val_main_cst_5 (F := F) := by
  after_results_simp
  rfl
set_option maxRecDepth 8192 in
set_option maxHeartbeats 4000000 in
theorem st7_cst_12 (V : Valuation τ sig (Elt F))  :
    StableHlo.after hostOps2_2 V (Proc.devRef .tc main_cst_12) = Cert.ReferenceIdeal.Read.val_main_cst_6 (F := F) := by
  after_results_simp
  rfl
set_option maxRecDepth 8192 in
set_option maxHeartbeats 4000000 in
theorem st8_v47 (V : Valuation τ sig (Elt F)) (x1 : (⟨S1024x64, .f32⟩ : BufTy).Contents (Elt F)) (h0 : V (Proc.devRef .tc main_cst_11) = Cert.ReferenceIdeal.Read.val_main_cst_5 (F := F)) (h1 : V (Proc.devRef .tc main_v46) = Cert.ReferenceIdeal.Read.val_main_v24 (F := F) x1) (h2 : V (Proc.devRef .tc main_cst_12) = Cert.ReferenceIdeal.Read.val_main_cst_6 (F := F)) :
    StableHlo.after hostOps2_3 V (Proc.devRef .tc main_v47) = Cert.ReferenceIdeal.Read.val_main_v25 (F := F) x1 := by
  after_results_simp
  rw [h0, h1, h2]
  rfl
set_option maxRecDepth 8192 in
set_option maxHeartbeats 4000000 in
theorem st9_v58 (V : Valuation τ sig (Elt F)) (x1 : (⟨S1024x64, .f32⟩ : BufTy).Contents (Elt F)) (h0 : V (Proc.devRef .tc main_v47) = Cert.ReferenceIdeal.Read.val_main_v25 (F := F) x1) :
    StableHlo.after hostOps2_4 V (Proc.devRef .tc main_v58) = Cert.ReferenceIdeal.Read.val_main_v36 (F := F) x1 := by
  after_results_simp
  rw [h0]
  rfl
set_option maxRecDepth 8192 in
set_option maxHeartbeats 4000000 in
theorem st9_v74 (V : Valuation τ sig (Elt F)) (x1 : (⟨S1024x64, .f32⟩ : BufTy).Contents (Elt F)) (h0 : V (Proc.devRef .tc main_arg1) = x1) :
    StableHlo.after hostOps2_4 V (Proc.devRef .tc main_v74) = Cert.ReferenceIdeal.Read.val_main_v82 (F := F) x1 := by
  after_results_simp
  rw [h0]
  rfl
set_option maxRecDepth 8192 in
set_option maxHeartbeats 4000000 in
theorem st10_v75 (V : Valuation τ sig (Elt F)) (x1 : (⟨S1024x64, .f32⟩ : BufTy).Contents (Elt F)) (h0 : V (Proc.devRef .tc main_v58) = Cert.ReferenceIdeal.Read.val_main_v36 (F := F) x1) :
    StableHlo.after hostOps2_5 V (Proc.devRef .tc main_v75) = Cert.ReferenceIdeal.Read.val_main_v83 (F := F) x1 := by
  after_results_simp
  rw [h0]
  rfl
set_option maxRecDepth 8192 in
set_option maxHeartbeats 4000000 in
theorem st11_v77 (V : Valuation τ sig (Elt F)) (x1 : (⟨S1024x64, .f32⟩ : BufTy).Contents (Elt F)) (h0 : V (Proc.devRef .tc main_v74) = Cert.ReferenceIdeal.Read.val_main_v82 (F := F) x1) (h1 : V (Proc.devRef .tc main_v75) = Cert.ReferenceIdeal.Read.val_main_v83 (F := F) x1) :
    StableHlo.after hostOps2_6 V (Proc.devRef .tc main_v77) = Cert.ReferenceIdeal.Read.val_main_v85 (F := F) x1 := by
  after_results_simp
  rw [h0, h1]
  rfl
set_option maxRecDepth 8192 in
set_option maxHeartbeats 4000000 in
theorem st11_v78 (V : Valuation τ sig (Elt F)) (x1 : (⟨S1024x64, .f32⟩ : BufTy).Contents (Elt F)) (h0 : V (Proc.devRef .tc main_v58) = Cert.ReferenceIdeal.Read.val_main_v36 (F := F) x1) :
    StableHlo.after hostOps2_6 V (Proc.devRef .tc main_v78) = Cert.ReferenceIdeal.Read.val_main_v86 (F := F) x1 := by
  after_results_simp
  rw [h0]
  rfl
set_option maxRecDepth 8192 in
set_option maxHeartbeats 4000000 in
theorem st11_v80 (V : Valuation τ sig (Elt F)) (x1 : (⟨S1024x64, .f32⟩ : BufTy).Contents (Elt F)) (h0 : V (Proc.devRef .tc main_v58) = Cert.ReferenceIdeal.Read.val_main_v36 (F := F) x1) :
    StableHlo.after hostOps2_6 V (Proc.devRef .tc main_v80) = Cert.ReferenceIdeal.Read.val_main_v88 (F := F) x1 := by
  after_results_simp
  rw [h0]
  rfl
set_option maxRecDepth 8192 in
set_option maxHeartbeats 4000000 in
theorem st11_cst_23 (V : Valuation τ sig (Elt F))  :
    StableHlo.after hostOps2_6 V (Proc.devRef .tc main_cst_23) = Cert.ReferenceIdeal.Read.val_main_cst_28 (F := F) := by
  after_results_simp
  rfl
set_option maxRecDepth 8192 in
set_option maxHeartbeats 4000000 in
theorem st12_v81 (V : Valuation τ sig (Elt F)) (x1 : (⟨S1024x64, .f32⟩ : BufTy).Contents (Elt F)) (h0 : V (Proc.devRef .tc main_cst_23) = Cert.ReferenceIdeal.Read.val_main_cst_28 (F := F)) (h1 : V (Proc.devRef .tc main_v80) = Cert.ReferenceIdeal.Read.val_main_v88 (F := F) x1) (h2 : V (Proc.devRef .tc main_v78) = Cert.ReferenceIdeal.Read.val_main_v86 (F := F) x1) :
    StableHlo.after hostOps2_7 V (Proc.devRef .tc main_v81) = Cert.ReferenceIdeal.Read.val_main_v89 (F := F) x1 := by
  after_results_simp
  rw [h0, h1, h2]
  rfl
set_option maxRecDepth 8192 in
set_option maxHeartbeats 4000000 in
theorem st13_v82 (V : Valuation τ sig (Elt F)) (x1 : (⟨S1024x64, .f32⟩ : BufTy).Contents (Elt F)) (h0 : V (Proc.devRef .tc main_v80) = Cert.ReferenceIdeal.Read.val_main_v88 (F := F) x1) :
    StableHlo.after hostOps2_8 V (Proc.devRef .tc main_v82) = Cert.ReferenceIdeal.Read.val_main_v90 (F := F) x1 := by
  after_results_simp
  rw [h0]
  rfl
set_option maxRecDepth 8192 in
set_option maxHeartbeats 4000000 in
theorem st13_v86 (V : Valuation τ sig (Elt F)) (x1 : (⟨S1024x64, .f32⟩ : BufTy).Contents (Elt F)) (h0 : V (Proc.devRef .tc main_v58) = Cert.ReferenceIdeal.Read.val_main_v36 (F := F) x1) (h1 : V (Proc.devRef .tc main_arg1) = x1) (h2 : V (Proc.devRef .tc main_v81) = Cert.ReferenceIdeal.Read.val_main_v89 (F := F) x1) :
    StableHlo.after hostOps2_8 V (Proc.devRef .tc main_v86) = Cert.ReferenceIdeal.Read.val_main_v94 (F := F) x1 := by
  after_results_simp
  rw [h0, h1, h2]
  rfl
set_option maxRecDepth 8192 in
set_option maxHeartbeats 4000000 in
theorem st13_cst_24 (V : Valuation τ sig (Elt F))  :
    StableHlo.after hostOps2_8 V (Proc.devRef .tc main_cst_24) = Cert.ReferenceIdeal.Read.val_main_cst_29 (F := F) := by
  after_results_simp
  rfl
set_option maxRecDepth 8192 in
set_option maxHeartbeats 4000000 in
theorem st14_v87 (V : Valuation τ sig (Elt F)) (x1 : (⟨S1024x64, .f32⟩ : BufTy).Contents (Elt F)) (h0 : V (Proc.devRef .tc main_cst_24) = Cert.ReferenceIdeal.Read.val_main_cst_29 (F := F)) (h1 : V (Proc.devRef .tc main_v82) = Cert.ReferenceIdeal.Read.val_main_v90 (F := F) x1) (h2 : V (Proc.devRef .tc main_v86) = Cert.ReferenceIdeal.Read.val_main_v94 (F := F) x1) :
    StableHlo.after hostOps2_9 V (Proc.devRef .tc main_v87) = Cert.ReferenceIdeal.Read.val_main_v95 (F := F) x1 := by
  after_results_simp
  rw [h0, h1, h2]
  rfl
set_option maxRecDepth 8192 in
set_option maxHeartbeats 4000000 in
theorem st15_v97 (V : Valuation τ sig (Elt F)) (x1 : (⟨S1024x64, .f32⟩ : BufTy).Contents (Elt F)) (d : (⟨S_, .f32⟩ : BufTy).Contents (Elt F)) (h0 : V (Proc.devRef .tc main_arg1) = x1) (h1 : V (Proc.devRef .tc main_v87) = Cert.ReferenceIdeal.Read.val_main_v95 (F := F) x1) (h2 : V (Proc.devRef .tc main_v80) = Cert.ReferenceIdeal.Read.val_main_v88 (F := F) x1) (h3 : V (Proc.devRef .tc main_v77) = Cert.ReferenceIdeal.Read.val_main_v85 (F := F) x1) (h4 : V (Proc.devRef .tc main_v21) = d) :
    StableHlo.after hostOps2_10 V (Proc.devRef .tc main_v97) = addf (addf d (Cert.ReferenceIdeal.Read.val_main_v102 (F := F) x1)) (Cert.ReferenceIdeal.Read.val_main_v104 (F := F) x1) := by
  after_results_simp
  rw [h0, h1, h2, h3, h4]
  rfl

end HF

/-! ### The stretches chained from region 1's exit -/

namespace HF

theorem W5_v21_val (c : Dev nD) : W5 m ρ c (Proc.devRef .tc main_v21) = Host.divf (kerSum (W4 m ρ c (Proc.devRef .tc main_v16))) (constant S_ .f32 0x47C35000#32) :=
  st5_v21 (W4 m ρ c)
theorem W5_v37_val (c : Dev nD) : W5 m ρ c (Proc.devRef .tc main_v37) = Cert.ReferenceIdeal.Read.val_main_v15 (F := F) (m ((c : Thread nD τ).loc main_arg1)) :=
  st5_v37 (W4 m ρ c) _ (W4_main_arg1 m ρ c)
theorem W5_v42_val (c : Dev nD) : W5 m ρ c (Proc.devRef .tc main_v42) = Cert.ReferenceIdeal.Read.val_main_v20 (F := F) :=
  st5_v42 (W4 m ρ c)
theorem W5_cst_9_val (c : Dev nD) : W5 m ρ c (Proc.devRef .tc main_cst_9) = Cert.ReferenceIdeal.Read.val_main_cst_3 (F := F) :=
  st5_cst_9 (W4 m ρ c)
theorem W6_v43_val (c : Dev nD) : W6 m ρ c (Proc.devRef .tc main_v43) = Cert.ReferenceIdeal.Read.val_main_v21 (F := F) (m ((c : Thread nD τ).loc main_arg1)) :=
  st6_v43 (W5 m ρ c) _ (W5_v42_val m ρ c) (W5_cst_9_val m ρ c) (W5_v37_val m ρ c)
theorem W7_v46_val (c : Dev nD) : W7 m ρ c (Proc.devRef .tc main_v46) = Cert.ReferenceIdeal.Read.val_main_v24 (F := F) (m ((c : Thread nD τ).loc main_arg1)) :=
  st7_v46 (W6 m ρ c) _ (W6_v43_val m ρ c)
theorem W7_cst_11_val (c : Dev nD) : W7 m ρ c (Proc.devRef .tc main_cst_11) = Cert.ReferenceIdeal.Read.val_main_cst_5 (F := F) :=
  st7_cst_11 (W6 m ρ c)
theorem W7_cst_12_val (c : Dev nD) : W7 m ρ c (Proc.devRef .tc main_cst_12) = Cert.ReferenceIdeal.Read.val_main_cst_6 (F := F) :=
  st7_cst_12 (W6 m ρ c)
theorem W8_v47_val (c : Dev nD) : W8 m ρ c (Proc.devRef .tc main_v47) = Cert.ReferenceIdeal.Read.val_main_v25 (F := F) (m ((c : Thread nD τ).loc main_arg1)) :=
  st8_v47 (W7 m ρ c) _ (W7_cst_11_val m ρ c) (W7_v46_val m ρ c) (W7_cst_12_val m ρ c)
theorem W9_v58_val (c : Dev nD) : W9 m ρ c (Proc.devRef .tc main_v58) = Cert.ReferenceIdeal.Read.val_main_v36 (F := F) (m ((c : Thread nD τ).loc main_arg1)) :=
  st9_v58 (W8 m ρ c) _ (W8_v47_val m ρ c)
theorem W9_v74_val (c : Dev nD) : W9 m ρ c (Proc.devRef .tc main_v74) = Cert.ReferenceIdeal.Read.val_main_v82 (F := F) (m ((c : Thread nD τ).loc main_arg1)) :=
  st9_v74 (W8 m ρ c) _ ((HF.W8_of m ρ c main_arg1 (by decide)).trans <| (HF.W7_of m ρ c main_arg1 (by decide)).trans <| (HF.W6_of m ρ c main_arg1 (by decide)).trans <| (HF.W5_of m ρ c main_arg1 (by decide)).trans <| (W4_main_arg1 m ρ c))
theorem W10_v75_val (c : Dev nD) : W10 m ρ c (Proc.devRef .tc main_v75) = Cert.ReferenceIdeal.Read.val_main_v83 (F := F) (m ((c : Thread nD τ).loc main_arg1)) :=
  st10_v75 (W9 m ρ c) _ (W9_v58_val m ρ c)
theorem W11_v77_val (c : Dev nD) : W11 m ρ c (Proc.devRef .tc main_v77) = Cert.ReferenceIdeal.Read.val_main_v85 (F := F) (m ((c : Thread nD τ).loc main_arg1)) :=
  st11_v77 (W10 m ρ c) _ ((HF.W10_of m ρ c main_v74 (by decide)).trans <| (W9_v74_val m ρ c)) (W10_v75_val m ρ c)
theorem W11_v78_val (c : Dev nD) : W11 m ρ c (Proc.devRef .tc main_v78) = Cert.ReferenceIdeal.Read.val_main_v86 (F := F) (m ((c : Thread nD τ).loc main_arg1)) :=
  st11_v78 (W10 m ρ c) _ ((HF.W10_of m ρ c main_v58 (by decide)).trans <| (W9_v58_val m ρ c))
theorem W11_v80_val (c : Dev nD) : W11 m ρ c (Proc.devRef .tc main_v80) = Cert.ReferenceIdeal.Read.val_main_v88 (F := F) (m ((c : Thread nD τ).loc main_arg1)) :=
  st11_v80 (W10 m ρ c) _ ((HF.W10_of m ρ c main_v58 (by decide)).trans <| (W9_v58_val m ρ c))
theorem W11_cst_23_val (c : Dev nD) : W11 m ρ c (Proc.devRef .tc main_cst_23) = Cert.ReferenceIdeal.Read.val_main_cst_28 (F := F) :=
  st11_cst_23 (W10 m ρ c)
theorem W12_v81_val (c : Dev nD) : W12 m ρ c (Proc.devRef .tc main_v81) = Cert.ReferenceIdeal.Read.val_main_v89 (F := F) (m ((c : Thread nD τ).loc main_arg1)) :=
  st12_v81 (W11 m ρ c) _ (W11_cst_23_val m ρ c) (W11_v80_val m ρ c) (W11_v78_val m ρ c)
theorem W13_v82_val (c : Dev nD) : W13 m ρ c (Proc.devRef .tc main_v82) = Cert.ReferenceIdeal.Read.val_main_v90 (F := F) (m ((c : Thread nD τ).loc main_arg1)) :=
  st13_v82 (W12 m ρ c) _ ((HF.W12_of m ρ c main_v80 (by decide)).trans <| (W11_v80_val m ρ c))
theorem W13_v86_val (c : Dev nD) : W13 m ρ c (Proc.devRef .tc main_v86) = Cert.ReferenceIdeal.Read.val_main_v94 (F := F) (m ((c : Thread nD τ).loc main_arg1)) :=
  st13_v86 (W12 m ρ c) _ ((HF.W12_of m ρ c main_v58 (by decide)).trans <| (HF.W11_of m ρ c main_v58 (by decide)).trans <| (HF.W10_of m ρ c main_v58 (by decide)).trans <| (W9_v58_val m ρ c)) ((HF.W12_of m ρ c main_arg1 (by decide)).trans <| (HF.W11_of m ρ c main_arg1 (by decide)).trans <| (HF.W10_of m ρ c main_arg1 (by decide)).trans <| (HF.W9_of m ρ c main_arg1 (by decide)).trans <| (HF.W8_of m ρ c main_arg1 (by decide)).trans <| (HF.W7_of m ρ c main_arg1 (by decide)).trans <| (HF.W6_of m ρ c main_arg1 (by decide)).trans <| (HF.W5_of m ρ c main_arg1 (by decide)).trans <| (W4_main_arg1 m ρ c)) (W12_v81_val m ρ c)
theorem W13_cst_24_val (c : Dev nD) : W13 m ρ c (Proc.devRef .tc main_cst_24) = Cert.ReferenceIdeal.Read.val_main_cst_29 (F := F) :=
  st13_cst_24 (W12 m ρ c)
theorem W14_v87_val (c : Dev nD) : W14 m ρ c (Proc.devRef .tc main_v87) = Cert.ReferenceIdeal.Read.val_main_v95 (F := F) (m ((c : Thread nD τ).loc main_arg1)) :=
  st14_v87 (W13 m ρ c) _ (W13_cst_24_val m ρ c) (W13_v82_val m ρ c) (W13_v86_val m ρ c)

end HF

/-- The program's scalar result: the mean of region 1's output row beside the reference's own stretch and harmonic
    terms of the code rows (the same operations in both programs). -/
theorem tail_eq (c : Dev nD) :
    W15 m ρ c (Proc.devRef .tc main_v97)
      = addf (addf (Host.divf (kerSum (W4 m ρ c (Proc.devRef .tc main_v16))) (constant S_ .f32 0x47C35000#32))
          (Cert.ReferenceIdeal.Read.val_main_v102 (F := F) (m ((c : Thread nD τ).loc main_arg1))))
        (Cert.ReferenceIdeal.Read.val_main_v104 (F := F) (m ((c : Thread nD τ).loc main_arg1))) :=
  HF.st15_v97 (W14 m ρ c) _ _ ((HF.W14_of m ρ c main_arg1 (by decide)).trans <| (HF.W13_of m ρ c main_arg1 (by decide)).trans <| (HF.W12_of m ρ c main_arg1 (by decide)).trans <| (HF.W11_of m ρ c main_arg1 (by decide)).trans <| (HF.W10_of m ρ c main_arg1 (by decide)).trans <| (HF.W9_of m ρ c main_arg1 (by decide)).trans <| (HF.W8_of m ρ c main_arg1 (by decide)).trans <| (HF.W7_of m ρ c main_arg1 (by decide)).trans <| (HF.W6_of m ρ c main_arg1 (by decide)).trans <| (HF.W5_of m ρ c main_arg1 (by decide)).trans <| (W4_main_arg1 m ρ c)) (HF.W14_v87_val m ρ c) ((HF.W14_of m ρ c main_v80 (by decide)).trans <| (HF.W13_of m ρ c main_v80 (by decide)).trans <| (HF.W12_of m ρ c main_v80 (by decide)).trans <| (HF.W11_v80_val m ρ c)) ((HF.W14_of m ρ c main_v77 (by decide)).trans <| (HF.W13_of m ρ c main_v77 (by decide)).trans <| (HF.W12_of m ρ c main_v77 (by decide)).trans <| (HF.W11_v77_val m ρ c)) ((HF.W14_of m ρ c main_v21 (by decide)).trans <| (HF.W13_of m ρ c main_v21 (by decide)).trans <| (HF.W12_of m ρ c main_v21 (by decide)).trans <| (HF.W11_of m ρ c main_v21 (by decide)).trans <| (HF.W10_of m ρ c main_v21 (by decide)).trans <| (HF.W9_of m ρ c main_v21 (by decide)).trans <| (HF.W8_of m ρ c main_v21 (by decide)).trans <| (HF.W7_of m ρ c main_v21 (by decide)).trans <| (HF.W6_of m ρ c main_v21 (by decide)).trans <| (HF.W5_v21_val m ρ c))

end Cert.KernelIdeal.Hand

end
-- ==== Proof.KI.HostRead.lean ====
import proofs.«413624_j13305808683177_3_alg».proof.Proof.KI.HostFold
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

/-! ## Read over the extended reals -/

namespace Cert.KernelIdeal.Hand

open Cert.KernelIdeal Cert.KernelIdeal.Gen Cert.Spec
open Idealize.ShloMosaic Idealize.ShloMosaic.TcCoe Idealize.ShloMosaic.ValueIdx

variable (m : (ℓ : Loc nD τ sig) → Buf (Elt Ideal) ℓ) (ρ : Dev nD → PrngReg)

/-- The data rows and the code rows at launch, at their literal types. -/
abbrev Xarr (c : Dev nD) : Vec Ideal S100000x64 .f32 := m ((c : Thread nD τ).loc main_arg0)
abbrev Yarr (c : Dev nD) : Vec Ideal S1024x64 .f32 := m ((c : Thread nD τ).loc main_arg1)

/-- A fold of a commutative and associative operation over the pair. -/
theorem fold_fin2 {α : Type} (op : α → α → α) [Std.Commutative op] [Std.Associative op] (a : α) (g : Fin 2 → α) :
    (Finset.univ : Finset (Fin 2)).fold op a g = op (g 0) (op (g 1) a) := by
  rw [show (Finset.univ : Finset (Fin 2)) = insert 0 {1} from by decide, Finset.fold_insert (by decide), Finset.fold_singleton]

/-- The infimum over the pair is the least of the two. -/
theorem iInf_fin2 (g : Fin 2 → EReal) : (⨅ p : Fin 2, g p) = min (g 0) (g 1) := by
  apply le_antisymm
  · exact le_min (iInf_le g 0) (iInf_le g 1)
  · refine le_iInf fun p => ?_
    match p with
    | ⟨0, _⟩ => exact min_le_left _ _
    | ⟨1, _⟩ => exact min_le_right _ _

/-- A rank-one multi-index is its coordinate, and distinct coordinates give distinct indices. -/
theorem ix1_injective {n : Nat} : Function.Injective (ix1 (n := n)) := fun p q h => congrFun h 0

/-- Every rank-one multi-index is the index of a coordinate. -/
theorem univ_idx1 {n : Nat} [DecidableEq (⟨1, ![n]⟩ : Shape).Idx] :
    (Finset.univ : Finset (⟨1, ![n]⟩ : Shape).Idx) = (Finset.univ : Finset (Fin n)).image ix1 := by
  ext i
  simp only [Finset.mem_univ, Finset.mem_image, true_and, true_iff]
  exact ⟨i 0, (eq_ix1 i).symm⟩

/-- Every index of the pair drops to the one rank-zero index. -/
theorem filter_drop_S2 [DecidablePred fun i : S2.Idx => reducesTo_S2_S_d0.drop i = ix0] :
    (Finset.univ.filter fun i : S2.Idx => reducesTo_S2_S_d0.drop i = ix0) = Finset.univ :=
  Finset.filter_true_of_mem fun i _ => funext fun b => b.elim0

/-- Element p of the pair the host takes from a 256-lane row — the row as two rows of 128, their first column, as a
    pair — is lane 0 of half p. -/
theorem lanes_apply {α : Type} (o : S1x256.Idx → α) (p : Fin 2) :
    shapeCast S2 (extractStridedSlice S2x1 ![0, 0] (shapeCast S2x128 o shapeCasts_S1x256_S2x128) slices_S2x128_S2x1_0_0)
      shapeCasts_S2x1_S2 (ix1 p) = o (ix2 0 (lane p)) := by
  refine (shapeCast_apply _ shapeCasts_S2x1_S2 (ix1 p) (ix2 p 0) ?_).trans ?_
  · rw [Shape.rowMajor_val_two, Shape.rowMajor_val_one]
    show p.val * 1 + 0 = p.val
    omega
  refine (extractStridedSlice_apply ![0, 0] _ slices_S2x128_S2x1_0_0 (ix2 p 0) (ix2 p 0) ?_).trans ?_
  · intro a
    match a with
    | ⟨0, _⟩ => show p.val = 0 + p.val; omega
    | ⟨1, _⟩ => show 0 = 0 + 0; rfl
  refine shapeCast_apply o shapeCasts_S1x256_S2x128 (ix2 p 0) (ix2 0 (lane p)) ?_
  rw [Shape.rowMajor_val_two, Shape.rowMajor_val_two]
  show 0 * 256 + p.val * 128 = p.val * 128 + 0
  omega

/-- A column made of a vector reads, at row r, the vector at r. -/
theorem bcast_col_apply {α : Type} (x : S100000.Idx → α) (r : Fin 100000) :
    broadcastInDim S100000x1 ![0] bcast_S100000_S100000x1_0 x (ix2 r 0) = x (ix1 r) := by
  refine broadcastInDim_apply ![0] bcast_S100000_S100000x1_0 x (ix2 r 0) (ix1 r) ?_
  intro a
  match a with
  | ⟨0, _⟩ => rfl

/-- The column of squared row norms the kernels stage: row r holds zero plus the sum of the squares of data row r. -/
theorem W1_v2_apply (c : Dev nD) (r : Fin 100000) :
    (W1 m ρ c (Proc.devRef .tc main_v2) : (⟨S100000x1, .f32⟩ : BufTy).Contents (Elt Ideal)) (ix2 r 0)
      = zeroW + ∑ k : Fin 64, Xarr m c (ix2 r k) * Xarr m c (ix2 r k) := by
  show StableHlo.after hostOps0 (W0 m ρ c) (Proc.devRef .tc main_v2) (ix2 r 0) = _
  after_results
  refine (bcast_col_apply _ r).trans ?_
  have h : S100000x64.Reduces [1] S100000 :=
    ⟨reducesTo_S100000x64_S100000_d1.1, by decide, reducesTo_S100000x64_S100000_d1.2⟩
  refine (Ideal.hostReduceAdd_single reducesTo_S100000x64_S100000_d1 h _ _ (ix1 r)).trans ?_
  show zeroW + ∑ k : Fin 64, Xarr m c (h.lift (ix1 r) k) * Xarr m c (h.lift (ix1 r) k) = _
  have e : ∀ k : Fin 64, h.lift (ix1 r) k = ix2 r k := fun k => by
    funext a
    match a with
    | ⟨0, _⟩ => exact Fin.ext rfl
    | ⟨1, _⟩ => exact Fin.ext rfl
  simp only [e]

/-- The transposed code rows the kernels stage. -/
theorem W1_v4_apply (c : Dev nD) (k : Fin 64) (j : Fin 1024) :
    (W1 m ρ c (Proc.devRef .tc main_v4) : (⟨S64x1024, .bf16⟩ : BufTy).Contents (Elt Ideal)) (ix2 k j)
      = Yarr m c (ix2 j k) := by
  show StableHlo.after hostOps0 (W0 m ρ c) (Proc.devRef .tc main_v4) (ix2 k j) = _
  after_results
  refine (transpose_apply [1, 0] _ transposes_S1024x64_S64x1024_1_0 (ix2 k j) (ix2 j k) ?_).trans ?_
  · intro b
    match b with
    | ⟨0, _⟩ => rfl
    | ⟨1, _⟩ => rfl
  rfl

/-- The row of squared code norms the kernels stage. -/
theorem W1_v8_apply (c : Dev nD) (j : Fin 1024) :
    (W1 m ρ c (Proc.devRef .tc main_v8) : (⟨S1x1024, .f32⟩ : BufTy).Contents (Elt Ideal)) (ix2 0 j)
      = zeroW + ∑ k : Fin 64, Yarr m c (ix2 j k) * Yarr m c (ix2 j k) := by
  show StableHlo.after hostOps0 (W0 m ρ c) (Proc.devRef .tc main_v8) (ix2 0 j) = _
  after_results
  refine (transpose_apply [1, 0] _ transposes_S1024x1_S1x1024_1_0 (ix2 0 j) (ix2 j 0) ?_).trans ?_
  · intro b
    match b with
    | ⟨0, _⟩ => rfl
    | ⟨1, _⟩ => rfl
  refine (broadcastInDim_apply ![0] bcast_S1024_S1024x1_0 _ (ix2 j 0) (ix1 j) ?_).trans ?_
  · intro a
    match a with
    | ⟨0, _⟩ => rfl
  have h : S1024x64.Reduces [1] S1024 :=
    ⟨reducesTo_S1024x64_S1024_d1.1, by decide, reducesTo_S1024x64_S1024_d1.2⟩
  refine (Ideal.hostReduceAdd_single reducesTo_S1024x64_S1024_d1 h _ _ (ix1 j)).trans ?_
  show zeroW + ∑ k : Fin 64, Yarr m c (h.lift (ix1 j) k) * Yarr m c (h.lift (ix1 j) k) = _
  have e : ∀ k : Fin 64, h.lift (ix1 j) k = ix2 j k := fun k => by
    funext a
    match a with
    | ⟨0, _⟩ => exact Fin.ext rfl
    | ⟨1, _⟩ => exact Fin.ext rfl
  simp only [e]

/-- The shift region 1 is handed: the least of the two halves' lane 0 of region 0's output row from +inf, clamped at zero. -/
theorem W3_v15_apply (c : Dev nD) :
    (W3 m ρ c (Proc.devRef .tc main_v15) : (⟨S1x1, .f32⟩ : BufTy).Contents (Elt Ideal)) (ix2 0 0)
      = max (min infW (⨅ p : Fin 2, (W2 m ρ c (Proc.devRef .tc main_v9) : (⟨S1x256, .f32⟩ : BufTy).Contents (Elt Ideal)) (ix2 0 (lane p)))) zeroW := by
  show StableHlo.after hostOps1 (W2 m ρ c) (Proc.devRef .tc main_v15) (ix2 0 0) = _
  after_results
  obtain ⟨V, hV⟩ : ∃ V : S1x256.Idx → EReal, V = W2 m ρ c (Proc.devRef .tc main_v9) := ⟨_, rfl⟩
  rw [← hV]
  show shapeCast S1x1 (maximumf (Host.reduce (FloatOps.minimumf (F := Ideal) (φ := .f32))
      (shapeCast S2 (extractStridedSlice S2x1 ![0, 0] (shapeCast S2x128 V shapeCasts_S1x256_S2x128) slices_S2x128_S2x1_0_0) shapeCasts_S2x1_S2)
      (constant (F := Ideal) S_ .f32 0x7F800000#32) reducesTo_S2_S_d0 h_S_) (constant (F := Ideal) S_ .f32 0x00000000#32)) shapeCasts_S_S1x1 (ix2 0 0) = _
  refine (shapeCast_apply _ shapeCasts_S_S1x1 (ix2 0 0) ix0 ?_).trans ?_
  · rw [Shape.rowMajor_val_two]
    have := (S_.rowMajor ix0).isLt
    show (S_.rowMajor ix0).val = 0 * 1 + 0
    have hn : S_.numel = 1 := by decide
    omega
  show max (Host.reduce (FloatOps.minimumf (F := Ideal) (φ := .f32)) _ _ reducesTo_S2_S_d0 h_S_ ix0) zeroW = _
  rw [Host.reduce_eq_fold _ _ _ reducesTo_S2_S_d0 h_S_ ix0, filter_drop_S2, univ_idx1,
    Finset.fold_image (fun p _ q _ e => ix1_injective e), fold_fin2]
  simp only [Function.comp, lanes_apply]
  show max (min (V (ix2 0 (lane 0))) (min (V (ix2 0 (lane 1))) infW)) zeroW = _
  rw [iInf_fin2 (fun p => V (ix2 0 (lane p)))]
  congr 1
  rw [min_comm _ infW, min_left_comm]

/-- The sum under the division, read: zero plus the two halves' lane 0. -/
theorem kerSum_apply (o : (⟨S1x256, .f32⟩ : BufTy).Contents (Elt Ideal)) :
    kerSum (F := Ideal) o ix0 = zeroW + ∑ p : Fin 2, o (ix2 0 (lane p)) := by
  unfold kerSum
  refine (Ideal.hostReduceAdd_total reducesTo_S2_S_d0 (fun b => b.elim0) _ _ ix0).trans ?_
  show zeroW + ∑ i : S2.Idx, _ = _
  rw [univ_idx1, Finset.sum_image (fun p _ q _ e => ix1_injective e)]
  simp only [lanes_apply]

end Cert.KernelIdeal.Hand

end
-- ==== Proof.RefSide.lean ====
import proofs.«413624_j13305808683177_3_alg».proof.Proof.Gen.ReferenceIdeal.Run
import proofs.«413624_j13305808683177_3_alg».proof.Proof.Gen.ReferenceIdeal.Read
import proofs.«413624_j13305808683177_3_alg».proof.Proof.Spec

noncomputable section

/-! The reference's mean term over the extended reals: the sum it divides by the number of rows is the weighted sum
    of the whole distance matrix, shifted by the matrix's least clamped entry. -/

namespace Cert.RefSide

open Cert.ReferenceIdeal Cert.ReferenceIdeal.Read Cert.Spec
open Idealize.ShloMosaic Idealize.ShloMosaic.ValueIdx

/-- The squared norm of row r of an n-by-64 array, as the host's sum from zero. -/
def nrm {n : ℕ} (A : (⟨2, ![n, 64]⟩ : Shape).Idx → EReal) (r : Fin n) : EReal := zeroW + ∑ k : Fin 64, A (ix2 r k) * A (ix2 r k)
/-- The unclamped squared distance of data row r to code row c. -/
def dmat (X : (⟨2, ![100000, 64]⟩ : Shape).Idx → EReal) (Y : (⟨2, ![1024, 64]⟩ : Shape).Idx → EReal) (r : Fin 100000) (c : Fin 1024) : EReal :=
  dist (nrm X r) (nrm Y c) (∑ k : Fin 64, X (ix2 r k) * Y (ix2 c k))

/-- The data row's squared norm is read at row r. -/
private theorem idx_row_x (r : Fin 100000) (c : Fin 1024) (k : Fin 64) :
    idx_main_v38 (idx_main_v39 (idx_main_v43 (ix2 r c))) k = ix2 r k := by
  funext a; match a with | ⟨0, _⟩ => rfl | ⟨1, _⟩ => rfl
/-- The code row's squared norm is read at row c. -/
private theorem idx_row_y (r : Fin 100000) (c : Fin 1024) (k : Fin 64) :
    idx_main_v41 (idx_main_v42 (idx_main_v44 (ix2 r c))) k = ix2 c k := by
  funext a; match a with | ⟨0, _⟩ => rfl | ⟨1, _⟩ => rfl
/-- The inner product's left factor is the data row r at k. -/
private theorem idx_dot_l (r : Fin 100000) (c : Fin 1024) (k : Fin 64) :
    lidx_main_v47 (ix2 r c) k = ix2 r k := by
  funext a; match a with | ⟨0, _⟩ => rfl | ⟨1, _⟩ => rfl
/-- The inner product's right factor, through the transpose, is the code row c at k. -/
private theorem idx_dot_r (r : Fin 100000) (c : Fin 1024) (k : Fin 64) :
    idx_main_v46 (ridx_main_v47 (ix2 r c) k) = ix2 c k := by
  funext a; match a with | ⟨0, _⟩ => rfl | ⟨1, _⟩ => rfl

/-- The clamped distance matrix of the reference at (r, c). -/
theorem v52_at (X : (⟨S100000x64, .f32⟩ : BufTy).Contents (Elt Ideal)) (Y : (⟨S1024x64, .f32⟩ : BufTy).Contents (Elt Ideal))
    (r : Fin 100000) (c : Fin 1024) :
    val_main_v52 (F := Ideal) X Y (ix2 r c) = cl (dmat X Y r c) := by
  rw [val_main_v52_apply, val_main_v50_apply, val_main_v45_apply, val_main_v49_apply, val_main_v51_apply,
    val_main_cst_13_apply, val_main_v48_apply, val_main_cst_12_apply, val_main_v43_apply, val_main_v39_apply,
    val_main_v38_apply, val_main_v44_apply, val_main_v42_apply, val_main_v41_apply, val_main_v47_apply,
    val_main_cst_10_apply, val_main_cst_11_apply]
  simp only [idx_row_x, idx_row_y, idx_dot_l, idx_dot_r, val_main_v37_apply, val_main_v40_apply, val_main_v46_apply,
    Ideal.mulf_def, Ideal.addf_def, Ideal.subf_def, Ideal.maximumf_def, Ideal.ofBits_def]
  rfl

/-- The word of +infinity is the top of the extended reals. -/
private theorem infW_top : Ideal.ofBits .f32 0x7F800000#32 = (⊤ : EReal) := by simp [Ideal.ofBits, Ideal.ieee]

/-- The reference's shift: the least entry of the clamped distance matrix. -/
theorem v53_at (X : (⟨S100000x64, .f32⟩ : BufTy).Contents (Elt Ideal)) (Y : (⟨S1024x64, .f32⟩ : BufTy).Contents (Elt Ideal)) :
    val_main_v53 (F := Ideal) X Y ix0 = shiftR (dmat X Y) := by
  unfold val_main_v53
  generalize hy : val_main_v52 (F := Ideal) X Y = y
  rw [Host.reduce_eq_fold]
  rw [Finset.filter_true_of_mem fun i _ => funext fun b => b.elim0]
  rw [val_main_cst_14_apply, Ideal.ofBits_def, infW_top]
  have h1 : Finset.univ.fold (FloatOps.minimumf (F := Ideal) (φ := .f32)) (⊤ : EReal) y = Finset.univ.inf y := rfl
  rw [h1, Finset.inf_univ_eq_iInf]
  unfold shiftR
  subst hy
  refine le_antisymm ?_ ?_
  · refine le_iInf fun r => le_iInf fun c => ?_
    exact (iInf_le _ (ix2 r c)).trans (le_of_eq (v52_at X Y r c))
  · refine le_iInf fun j => ?_
    obtain ⟨a, b, rfl⟩ : ∃ (a : Fin 100000) (b : Fin 1024), j = ix2 a b := ⟨j 0, j 1, eq_ix2 j⟩
    rw [v52_at]
    exact iInf_le_of_le a (iInf_le _ b)

/-- The unnormalised weight of the reference at (r, c): the exponential of minus five times the clipped, shifted clamped distance. -/
theorem v59_at (X : (⟨S100000x64, .f32⟩ : BufTy).Contents (Elt Ideal)) (Y : (⟨S1024x64, .f32⟩ : BufTy).Contents (Elt Ideal))
    (r : Fin 100000) (c : Fin 1024) :
    val_main_v59 (F := Ideal) X Y (ix2 r c) = wR (cl (dmat X Y r c)) (val_main_v53 (F := Ideal) X Y ix0) := by
  rw [val_main_v59_apply, val_main_v58_apply, val_main_v57_apply, val_main_cst_17_apply, val_main_v56_apply,
    val_main_call2_v4_apply, val_main_call2_v3_apply, val_main_cst_16_apply, val_main_call2_v2_apply,
    val_main_call2_v1_apply, val_main_call2_v0_apply, val_main_cst_15_apply, val_main_v55_apply, val_main_v54_apply,
    v52_at]
  rfl

/-- The row total of the weights is read along row r. -/
private theorem idx_rowsum (r : Fin 100000) (c : Fin 1024) (k : Fin 1024) :
    idx_main_v60 (idx_main_v61 (idx_main_v62 (ix2 r c))) k = ix2 r k := by
  funext a; match a with | ⟨0, _⟩ => rfl | ⟨1, _⟩ => rfl

/-- One summand of the reference's total: the clamped distance times its weight over zero plus the row's total weight. -/
theorem v64_at (X : (⟨S100000x64, .f32⟩ : BufTy).Contents (Elt Ideal)) (Y : (⟨S1024x64, .f32⟩ : BufTy).Contents (Elt Ideal))
    (r : Fin 100000) (c : Fin 1024) :
    val_main_v64 (F := Ideal) X Y (ix2 r c)
      = cl (dmat X Y r c) * Ideal.div (wR (cl (dmat X Y r c)) (val_main_v53 (F := Ideal) X Y ix0))
          (zeroW + ∑ c' : Fin 1024, wR (cl (dmat X Y r c')) (val_main_v53 (F := Ideal) X Y ix0)) := by
  rw [val_main_v64_apply, val_main_v63_apply, val_main_v62_apply, val_main_v61_apply, val_main_v60_apply,
    val_main_cst_18_apply, v52_at, v59_at]
  simp only [idx_rowsum, v59_at, Ideal.mulf_def, Ideal.hostDivf_def, Ideal.ofBits_def]
  rfl

/-- The reference's total under its division by the number of rows. -/
theorem ref_total (X : (⟨S100000x64, .f32⟩ : BufTy).Contents (Elt Ideal)) (Y : (⟨S1024x64, .f32⟩ : BufTy).Contents (Elt Ideal)) :
    val_main_v65 (F := Ideal) X Y ix0 = totalR (dmat X Y) (shiftR (dmat X Y)) := by
  rw [val_main_v65_apply, val_main_cst_19_apply, sum_idx2]
  simp only [v64_at, v53_at, Ideal.ofBits_def]
  rfl

end Cert.RefSide

end
-- ==== Proof.KI.TileDist.lean ====
import proofs.«413624_j13305808683177_3_alg».proof.Proof.KI.Folds
import proofs.«413624_j13305808683177_3_alg».proof.Proof.KI.BlockRead
import proofs.«413624_j13305808683177_3_alg».proof.Proof.KI.HostRead
import proofs.«413624_j13305808683177_3_alg».proof.Proof.RefSide

set_option maxRecDepth 16384

noncomputable section

/-! The distances of the tile at a grid point, computed from the blocks the kernels stage, are the corresponding 2000
    rows of the reference's distance matrix of the launch arrays: the staged column of squared row norms, the transposed
    code rows and the row of squared code norms are what the host operations before the regions make of the arguments,
    and they reach both regions unchanged. -/

namespace Cert.KernelIdeal.Hand

open Cert.KernelIdeal Cert.KernelIdeal.Gen Cert.Spec Cert.RefSide
open Idealize.ShloMosaic Idealize.ShloMosaic.TcCoe Idealize.ShloMosaic.ValueIdx

variable (m : (ℓ : Loc nD τ sig) → Buf (Elt Ideal) ℓ) (ρ : Dev nD → PrngReg)

/-- The distance is a function of its three arguments. -/
theorem dist_congr {a a' b b' p p' : EReal} (ha : a = a') (hb : b = b') (hp : p = p') : dist a b p = dist a' b' p' := by
  rw [ha, hb, hp]

/-- Region 0: the blocks at a point are the staged arrays' rows of that tile, and the staged arrays are the squared
    norms and the transposed code rows of the launch arrays. -/
theorem dtile0_eq (c : Dev nD) (t : Fin cfg0.N) (r : Fin 2000) (j : Fin 1024) :
    dtile0 (V1 m ρ) c t r j = dmat (Xarr m c) (Yarr m c) (tileRow t.val (lt_of_lt_of_eq t.isLt N_0) r) j := by
  have hX : (V1 m ρ c main_arg0 : S100000x64.Idx → EReal) = Xarr m c := W1_main_arg0 m ρ c
  refine dist_congr ?_ ?_ ?_
  · exact (iblk0_0_apply (V1 m ρ) c t r).trans (W1_v2_apply m ρ c _)
  · exact (iblk0_3_apply (V1 m ρ) c t j).trans (W1_v8_apply m ρ c j)
  · exact Finset.sum_congr rfl fun k _ => congrArg₂ (· * ·)
      ((iblk0_1_apply (V1 m ρ) c t r k).trans (congrFun hX _))
      ((iblk0_2_apply (V1 m ρ) c t k j).trans (W1_v4_apply m ρ c k j))

/-- Region 1: the same, the staged arrays and the data rows having reached it unchanged. -/
theorem dtile1_eq (c : Dev nD) (t : Fin cfg1.N) (r : Fin 2000) (j : Fin 1024) :
    dtile1 (V3 m ρ) c t r j = dmat (Xarr m c) (Yarr m c) (tileRow t.val (lt_of_lt_of_eq t.isLt N_1) r) j := by
  have hX : (V3 m ρ c main_arg0 : S100000x64.Idx → EReal) = Xarr m c := W3_main_arg0 m ρ c
  have h2 : (V3 m ρ c main_v2 : S100000x1.Idx → EReal)
      = (W1 m ρ c (Proc.devRef .tc main_v2) : (⟨S100000x1, .f32⟩ : BufTy).Contents (Elt Ideal)) := W3_main_v2 m ρ c
  have h4 : (V3 m ρ c main_v4 : S64x1024.Idx → EReal)
      = (W1 m ρ c (Proc.devRef .tc main_v4) : (⟨S64x1024, .bf16⟩ : BufTy).Contents (Elt Ideal)) := W3_main_v4 m ρ c
  have h8 : (V3 m ρ c main_v8 : S1x1024.Idx → EReal)
      = (W1 m ρ c (Proc.devRef .tc main_v8) : (⟨S1x1024, .f32⟩ : BufTy).Contents (Elt Ideal)) := W3_main_v8 m ρ c
  refine dist_congr ?_ ?_ ?_
  · exact (iblk1_0_apply (V3 m ρ) c t r).trans ((congrFun h2 _).trans (W1_v2_apply m ρ c _))
  · exact (iblk1_3_apply (V3 m ρ) c t j).trans ((congrFun h8 _).trans (W1_v8_apply m ρ c j))
  · exact Finset.sum_congr rfl fun k _ => congrArg₂ (· * ·)
      ((iblk1_1_apply (V3 m ρ) c t r k).trans (congrFun hX _))
      ((iblk1_2_apply (V3 m ρ) c t k j).trans ((congrFun h4 _).trans (W1_v4_apply m ρ c k j)))

/-- Region 1's fifth input block is the one-element shift at every point. -/
theorem shift1_eq (c : Dev nD) (t : Fin cfg1.N) :
    (iblk1 (V3 m ρ) c 4 t : S1x1.Idx → EReal) (ix2 0 0)
      = (W3 m ρ c (Proc.devRef .tc main_v15) : (⟨S1x1, .f32⟩ : BufTy).Contents (Elt Ideal)) (ix2 0 0) :=
  iblk1_4_apply (V3 m ρ) c t

end Cert.KernelIdeal.Hand

end
-- ==== Proof.KI.OutArr.lean ====
import proofs.«413624_j13305808683177_3_alg».proof.Proof.KI.R0Dat
import proofs.«413624_j13305808683177_3_alg».proof.Proof.KI.R1Dat
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What each region's output row ends holding: each half's 128 lanes hold the broadcast of the running value the
    body kept in its scratch at the last point of that half's row of the grid. -/

open Idealize.ShloMosaic.ValueIdx

variable (V : (c : Dev nD) → (b : Ref sig .tc) → Buf (Elt F) ((c : Thread nD τ).loc b))

/-- The output window's block index at a point: row 0, and the half the point's row of the grid belongs to. -/
theorem idx0_4 : ∀ t : Fin cfg0.N, win0_4.index t (0 : Fin 2) = 0 ∧ win0_4.index t (1 : Fin 2) = t.val / 25 :=
  (by decide +kernel : ∀ t : Fin grid0.N, win0_4.index t (0 : Fin 2) = 0 ∧ win0_4.index t (1 : Fin 2) = t.val / 25)
theorem idx1_5 : ∀ t : Fin cfg1.N, win1_5.index t (0 : Fin 2) = 0 ∧ win1_5.index t (1 : Fin 2) = t.val / 25 :=
  (by decide +kernel : ∀ t : Fin grid1.N, win1_5.index t (0 : Fin 2) = 0 ∧ win1_5.index t (1 : Fin 2) = t.val / 25)

/-- What region 0's output row ends holding. -/
def G0 (c : Dev nD) : S1x256.Idx → Elt F .f32 := fun i =>
  k0_pay3 (S0 V c (25 * ((i 1).val / 128) + 24) (by have h : (i 1).val < 256 := (i 1).isLt; have : cfg0.N = 50 := N_0; omega))
    (ix2 0 ⟨(i 1).val % 128, Nat.mod_lt _ (by decide)⟩)

theorem flushed0_4 (c : Dev nD) (t : Fin cfg0.N) (hf : (cfg0.win 4).flush t = true) :
    (dat0 V c).flushed 4 t = ((cfg0.win 4).blk t).view.read (Elt F) (G0 V c) := by
  have h24 : t.val % 25 = 24 := (flush0_4 t).mp hf
  show (cfg0.win 4).cut (grid0.coords t) ((dat0 V c).after 4 t) = _
  rw [after0_4 V c t h24]
  obtain ⟨e0, e1⟩ := idx0_4 t
  funext j
  show k0_pay3 (S0 V c t.val t.isLt) j = G0 V c (((cfg0.win 4).blk t).view.emb j)
  have hj1 : (j 1).val < 128 := (j 1).isLt
  have hj0 : (j 0).val < 1 := (j 0).isLt
  have hemb : ((((cfg0.win 4).blk t).view.emb j) 1).val = win0_4.index t (1 : Fin 2) * 128 + 1 * (j 1).val := rfl
  have hN : t.val < 50 := lt_of_lt_of_eq t.isLt (show cfg0.N = 50 from N_0)
  have key : ∀ (n : ℕ) (hn : n < cfg0.N) (x : S1x128.Idx), n = t.val → x = j →
      k0_pay3 (S0 V c n hn) x = k0_pay3 (S0 V c t.val t.isLt) j := by
    intro n hn x h1 h2; subst h1; subst h2; rfl
  unfold G0
  refine (key _ _ _ ?_ ?_).symm
  · rw [hemb, e1]; omega
  · funext a
    apply Fin.ext
    match a with
    | ⟨0, _⟩ => show 0 = (j 0).val; omega
    | ⟨1, _⟩ => show ((((cfg0.win 4).blk t).view.emb j) 1).val % 128 = (j 1).val; rw [hemb, e1]; omega

/-- Lane l of half p of region 0's output row, after the run: the running minimum after the last point of that half's row of the grid. -/
theorem out0_apply (c : Dev nD) (p : Fin 2) (l : Fin 128) :
    (dat0 V c).arrAt 4 cfg0.N (ix2 0 ⟨p.val * 128 + l.val, by omega⟩)
      = k0_pay3 (S0 V c (25 * p.val + 24) (by have : cfg0.N = 50 := N_0; omega)) (ix2 0 l) := by
  have hN : cfg0.N = 50 := N_0
  let t : Fin cfg0.N := ⟨25 * p.val + 24, by omega⟩
  have hf : (cfg0.win 4).flush t = true := (flush0_4 t).mpr (by show (25 * p.val + 24) % 25 = 24; omega)
  obtain ⟨e0, e1⟩ := idx0_4 t
  have hmem : (ix2 (0 : Fin 1) (⟨p.val * 128 + l.val, by omega⟩ : Fin 256) : S1x256.Idx) ∈ ((cfg0.win 4).blk t).view.set := by
    show _ ∈ ((View.whole main_v9).slice (win0_4.rect t)).set
    rw [View.set_slice_whole, Rect.mem_set_unit]
    intro a
    match a with
    | ⟨0, _⟩ => show win0_4.index t (0 : Fin 2) * 1 ≤ 0 ∧ 0 < win0_4.index t (0 : Fin 2) * 1 + 1; rw [e0]; omega
    | ⟨1, _⟩ =>
      show win0_4.index t (1 : Fin 2) * 128 ≤ p.val * 128 + l.val ∧ p.val * 128 + l.val < win0_4.index t (1 : Fin 2) * 128 + 128
      rw [e1]; show (25 * p.val + 24) / 25 * 128 ≤ _ ∧ _ < (25 * p.val + 24) / 25 * 128 + 128
      have := l.isLt; omega
  rw [(dat0 V c).arrAt_apply_of_mem 4 (G0 V c) (fun t hf => flushed0_4 V c t hf) cfg0.N t _ t.isLt hf hmem]
  have key : ∀ (n : ℕ) (hn : n < cfg0.N) (x : S1x128.Idx), n = 25 * p.val + 24 → x = ix2 0 l →
      k0_pay3 (S0 V c n hn) x = k0_pay3 (S0 V c (25 * p.val + 24) (by omega)) (ix2 0 l) := by
    intro n hn x h1 h2; subst h1; subst h2; rfl
  unfold G0
  refine key _ _ _ ?_ ?_
  · show 25 * ((p.val * 128 + l.val) / 128) + 24 = _; have := l.isLt; omega
  · funext a
    apply Fin.ext
    match a with
    | ⟨0, _⟩ => rfl
    | ⟨1, _⟩ => show (p.val * 128 + l.val) % 128 = l.val; have := l.isLt; omega

/-- What region 1's output row ends holding. -/
def G1 (c : Dev nD) : S1x256.Idx → Elt F .f32 := fun i =>
  k1_pay2 (S1 V c (25 * ((i 1).val / 128) + 24) (by have h : (i 1).val < 256 := (i 1).isLt; have : cfg1.N = 50 := N_1; omega))
    (ix2 0 ⟨(i 1).val % 128, Nat.mod_lt _ (by decide)⟩)

theorem flushed1_5 (c : Dev nD) (t : Fin cfg1.N) (hf : (cfg1.win 5).flush t = true) :
    (dat1 V c).flushed 5 t = ((cfg1.win 5).blk t).view.read (Elt F) (G1 V c) := by
  have h24 : t.val % 25 = 24 := (flush1_5 t).mp hf
  show (cfg1.win 5).cut (grid1.coords t) ((dat1 V c).after 5 t) = _
  rw [after1_5 V c t h24]
  obtain ⟨e0, e1⟩ := idx1_5 t
  funext j
  show k1_pay2 (S1 V c t.val t.isLt) j = G1 V c (((cfg1.win 5).blk t).view.emb j)
  have hj1 : (j 1).val < 128 := (j 1).isLt
  have hj0 : (j 0).val < 1 := (j 0).isLt
  have hemb : ((((cfg1.win 5).blk t).view.emb j) 1).val = win1_5.index t (1 : Fin 2) * 128 + 1 * (j 1).val := rfl
  have hN : t.val < 50 := lt_of_lt_of_eq t.isLt (show cfg1.N = 50 from N_1)
  have key : ∀ (n : ℕ) (hn : n < cfg1.N) (x : S1x128.Idx), n = t.val → x = j →
      k1_pay2 (S1 V c n hn) x = k1_pay2 (S1 V c t.val t.isLt) j := by
    intro n hn x h1 h2; subst h1; subst h2; rfl
  unfold G1
  refine (key _ _ _ ?_ ?_).symm
  · rw [hemb, e1]; omega
  · funext a
    apply Fin.ext
    match a with
    | ⟨0, _⟩ => show 0 = (j 0).val; omega
    | ⟨1, _⟩ => show ((((cfg1.win 5).blk t).view.emb j) 1).val % 128 = (j 1).val; rw [hemb, e1]; omega

/-- Lane l of half p of region 1's output row, after the run: the running sum after the last point of that half's row of the grid. -/
theorem out1_apply (c : Dev nD) (p : Fin 2) (l : Fin 128) :
    (dat1 V c).arrAt 5 cfg1.N (ix2 0 ⟨p.val * 128 + l.val, by omega⟩)
      = k1_pay2 (S1 V c (25 * p.val + 24) (by have : cfg1.N = 50 := N_1; omega)) (ix2 0 l) := by
  have hN : cfg1.N = 50 := N_1
  let t : Fin cfg1.N := ⟨25 * p.val + 24, by omega⟩
  have hf : (cfg1.win 5).flush t = true := (flush1_5 t).mpr (by show (25 * p.val + 24) % 25 = 24; omega)
  obtain ⟨e0, e1⟩ := idx1_5 t
  have hmem : (ix2 (0 : Fin 1) (⟨p.val * 128 + l.val, by omega⟩ : Fin 256) : S1x256.Idx) ∈ ((cfg1.win 5).blk t).view.set := by
    show _ ∈ ((View.whole main_v16).slice (win1_5.rect t)).set
    rw [View.set_slice_whole, Rect.mem_set_unit]
    intro a
    match a with
    | ⟨0, _⟩ => show win1_5.index t (0 : Fin 2) * 1 ≤ 0 ∧ 0 < win1_5.index t (0 : Fin 2) * 1 + 1; rw [e0]; omega
    | ⟨1, _⟩ =>
      show win1_5.index t (1 : Fin 2) * 128 ≤ p.val * 128 + l.val ∧ p.val * 128 + l.val < win1_5.index t (1 : Fin 2) * 128 + 128
      rw [e1]; show (25 * p.val + 24) / 25 * 128 ≤ _ ∧ _ < (25 * p.val + 24) / 25 * 128 + 128
      have := l.isLt; omega
  rw [(dat1 V c).arrAt_apply_of_mem 5 (G1 V c) (fun t hf => flushed1_5 V c t hf) cfg1.N t _ t.isLt hf hmem]
  have key : ∀ (n : ℕ) (hn : n < cfg1.N) (x : S1x128.Idx), n = 25 * p.val + 24 → x = ix2 0 l →
      k1_pay2 (S1 V c n hn) x = k1_pay2 (S1 V c (25 * p.val + 24) (by omega)) (ix2 0 l) := by
    intro n hn x h1 h2; subst h1; subst h2; rfl
  unfold G1
  refine key _ _ _ ?_ ?_
  · show 25 * ((p.val * 128 + l.val) / 128) + 24 = _; have := l.isLt; omega
  · funext a
    apply Fin.ext
    match a with
    | ⟨0, _⟩ => rfl
    | ⟨1, _⟩ => show (p.val * 128 + l.val) % 128 = l.val; have := l.isLt; omega

end Cert.KernelIdeal.Hand

end
-- ==== Proof.KI.Core.lean ====
import proofs.«413624_j13305808683177_3_alg».proof.Proof.KI.TileDist
import proofs.«413624_j13305808683177_3_alg».proof.Proof.KI.OutArr
import proofs.«413624_j13305808683177_3_alg».proof.Proof.Math

set_option maxRecDepth 16384

noncomputable section

/-! THE KERNEL'S SUM IS THE REFERENCE'S. Over the extended reals, the sum the kernel's program divides by the number
    of rows — lane 0 of each half of the second pass's output row, added from zero — is the reference's sum over the
    whole distance matrix: each half's lane holds the running sum of its 25 tiles' weighted sums, the tiles' rows are
    the matrix's rows in order, the shift the second pass is handed is the first pass's two running minima joined and
    clamped, which is the matrix's least clamped entry, and with a nonnegative shift the kernel's weights are the
    reference's. -/

namespace Cert.KernelIdeal.Hand

open Cert.KernelIdeal Cert.KernelIdeal.Gen Cert.Spec Cert.RefSide
open Idealize.ShloMosaic Idealize.ShloMosaic.TcCoe Idealize.ShloMosaic.ValueIdx

variable (m : (ℓ : Loc nD τ sig) → Buf (Elt Ideal) ℓ) (ρ : Dev nD → PrngReg)

/-- The distance matrix of the launch arrays. -/
abbrev dM (c : Dev nD) : Fin 100000 → Fin 1024 → EReal := dmat (Xarr m c) (Yarr m c)

/-- Row r of tile j of half p, counted through the grid, is the matrix's row of that name. -/
theorem tileRow_eq (p : Fin 2) (j : ℕ) (hj : j < 25) (r : Fin 2000) :
    tileRow (25 * p.val + j) (by omega) r = rowOf p ⟨j, hj⟩ r := by
  apply Fin.ext; show (25 * p.val + j) * 2000 + r.val = (p.val * 25 + j) * 2000 + r.val; ring

theorem lane_eq (p : Fin 2) : lane p = ⟨p.val * 128 + (0 : Fin 128).val, by omega⟩ := Fin.ext rfl

/-- An infimum over two is the lesser of the two. -/
theorem iInf_fin_two (a : Fin 2 → EReal) : (⨅ p : Fin 2, a p) = min (a 0) (a 1) :=
  le_antisymm (le_min (iInf_le _ 0) (iInf_le _ 1))
    (le_iInf fun p => by fin_cases p; exact min_le_left _ _; exact min_le_right _ _)

/-- Lane 0 of half p of the first pass's output row: the least distance of that half's rows. -/
theorem out0_lane (c : Dev nD) (p : Fin 2) :
    (W2 m ρ c (Proc.devRef .tc main_v9) : (⟨S1x256, .f32⟩ : BufTy).Contents (Elt Ideal)) (ix2 0 (lane p))
      = accMin (fun j => if h : j < 25 then tileMin (fun r k => dM m c (rowOf p ⟨j, h⟩ r) k) else infW) 24 := by
  have h4 : W2 m ρ c (Proc.devRef .tc main_v9) = (dat0 (V1 m ρ) c).arrAt 4 cfg0.N := W2_arr m ρ c 4
  rw [h4, lane_eq, out0_apply (V1 m ρ) c p 0, pay0_3]
  refine (S0_ideal (V1 m ρ) c p 24 (by omega)).trans ?_
  refine congrArg (fun f => accMin f 24) ?_
  funext j
  by_cases h : j < 25
  · rw [dif_pos h, dif_pos h]
    refine congrArg tileMin ?_
    funext r k
    rw [dtile0_eq m ρ c (pt0 p j h) r k]
    exact congrArg (fun q => dM m c q k) (tileRow_eq p j h r)
  · rw [dif_neg h, dif_neg h]

/-- The shift the second pass is handed is the least clamped entry of the distance matrix. -/
theorem shift_val (c : Dev nD) :
    (W3 m ρ c (Proc.devRef .tc main_v15) : (⟨S1x1, .f32⟩ : BufTy).Contents (Elt Ideal)) (ix2 0 0) = shiftR (dM m c) := by
  rw [W3_v15_apply, iInf_fin_two, out0_lane, out0_lane, ← shift_eq]
  unfold shiftK
  rw [min_assoc]

/-- Lane 0 of half p of the second pass's output row: the sum of that half's tiles' weighted sums. -/
theorem out1_lane (c : Dev nD) (p : Fin 2) :
    (W4 m ρ c (Proc.devRef .tc main_v16) : (⟨S1x256, .f32⟩ : BufTy).Contents (Elt Ideal)) (ix2 0 (lane p))
      = accSum (fun j => if h : j < 25 then tileSum (fun r k => dM m c (rowOf p ⟨j, h⟩ r) k) (shiftR (dM m c)) else zeroW) 24 := by
  have h5 : W4 m ρ c (Proc.devRef .tc main_v16) = (dat1 (V3 m ρ) c).arrAt 5 cfg1.N := W4_arr m ρ c 5
  rw [h5, lane_eq, out1_apply (V3 m ρ) c p 0, pay1_2]
  refine (S1_ideal (V3 m ρ) c (shiftR (dM m c)) (fun t => (shift1_eq m ρ c t).trans (shift_val m ρ c)) p 24 (by omega)).trans ?_
  refine congrArg (fun f => accSum f 24) ?_
  funext j
  by_cases h : j < 25
  · rw [dif_pos h, dif_pos h]
    refine congrArg (fun d => tileSum d (shiftR (dM m c))) ?_
    funext r k
    rw [dtile1_eq m ρ c (pt1 p j h) r k]
    exact congrArg (fun q => dM m c q k) (tileRow_eq p j h r)
  · rw [dif_neg h, dif_neg h]

/-- The kernel's sum under its division is the reference's. -/
theorem core (c : Dev nD) :
    kerSum (F := Ideal) (W4 m ρ c (Proc.devRef .tc main_v16))
      = Cert.ReferenceIdeal.Read.val_main_v65 (F := Ideal) (Xarr m c) (Yarr m c) := by
  funext i
  rw [eq_ix0 i, kerSum_apply, ref_total]
  have hk : totalK (dM m c) (shiftR (dM m c)) = totalR (dM m c) (shiftR (dM m c)) := total_eq _ _ (shiftR_nonneg _)
  refine Eq.trans ?_ hk
  unfold totalK
  refine congrArg (fun s => zeroW + s) (Finset.sum_congr rfl fun p _ => ?_)
  exact out1_lane m ρ c p

end Cert.KernelIdeal.Hand

end
-- ==== Proof.lean ====
/- The certificate of a fuzzy k-means loss: a two-pass kernel over the 100000-by-1024 matrix of squared distances
   between data rows and code rows — the first pass finds the matrix's least entry tile by tile, the second sums each
   clamped distance times its softmax weight, shifted by that least entry — against the plain reference that forms the
   whole matrix. Over the extended reals the two compute the same loss: the least clamped entry is the clamp of the
   least entry (max distributes over an infimum), a nonnegative shift makes the lower clip of the weights vacuous, and
   the matrix's sum is the tiles' sums regrouped (a finite sum in a commutative monoid; no entry need be finite). The
   stretch and harmonic terms of the loss are the same host operations in both programs. The three frames: each
   kernel region runs with its one-element scratch carried between grid points and its output block stored at the last
   point of each half's row of the grid; the reference is host operations only. The idealization rewrote nothing, so
   the preservation claim is trivial. -/
import proofs.«413624_j13305808683177_3_alg».proof.Defs
import proofs.«413624_j13305808683177_3_alg».proof.Proof.Gen.Kernel
import proofs.«413624_j13305808683177_3_alg».proof.Proof.Gen.KernelIdeal
import proofs.«413624_j13305808683177_3_alg».proof.Proof.Gen.ReferenceIdeal
import proofs.«413624_j13305808683177_3_alg».proof.Proof.Gen.Pre_finite_inputs
import proofs.«413624_j13305808683177_3_alg».proof.Proof.Gen.ReferenceIdeal.Run
import proofs.«413624_j13305808683177_3_alg».proof.Proof.Gen.ReferenceIdeal.Read
import proofs.«413624_j13305808683177_3_alg».proof.Proof.K.Kept
import proofs.«413624_j13305808683177_3_alg».proof.Proof.KI.Core
import Idealize.ShloMosaic.Adequacy
import Idealize.ShloMosaic.Init

set_option maxRecDepth 16384

noncomputable section

namespace Cert.Proof

open Idealize.ShloMosaic Idealize.ShloMosaic.TcCoe Idealize.SL.Sem

/-- The word-level program runs and leaves its arguments as launched: its run, read at the two argument buffers. -/
theorem frame_k : Cert.frame_Kernel := fun m ρ _ =>
  (θ_run Cert.Kernel.defs _ _).mono (fun r h c =>
    ⟨(h c _ (Cert.Kernel.Hand.mem_uc Cert.Kernel.main_arg0 (by decide))).trans (Cert.Kernel.Hand.W15_main_arg0 m ρ c),
     (h c _ (Cert.Kernel.Hand.mem_uc Cert.Kernel.main_arg1 (by decide))).trans (Cert.Kernel.Hand.W15_main_arg1 m ρ c)⟩)
    (Cert.Kernel.Hand.run_all (F := Bits) m ρ)

/-- The idealized program likewise. -/
theorem frame_ki : Cert.frame_KernelIdeal := fun m ρ _ =>
  (θ_run Cert.KernelIdeal.defs _ _).mono (fun r h c =>
    ⟨(h c _ (Cert.KernelIdeal.Hand.mem_uc Cert.KernelIdeal.main_arg0 (by decide))).trans (Cert.KernelIdeal.Hand.W15_main_arg0 m ρ c),
     (h c _ (Cert.KernelIdeal.Hand.mem_uc Cert.KernelIdeal.main_arg1 (by decide))).trans (Cert.KernelIdeal.Hand.W15_main_arg1 m ρ c)⟩)
    (Cert.KernelIdeal.Hand.run_all (F := Ideal) m ρ)

/-- The reference is host operations only: its run with the result dropped. -/
theorem frame_ri : Cert.frame_ReferenceIdeal := fun m ρ _ =>
  (θ_run Cert.ReferenceIdeal.defs _ _).mono (fun _ h c => ⟨(h c).2.2.1, (h c).2.2.2⟩) (Cert.ReferenceIdeal.Value.run (F := Ideal) m ρ)

theorem preserves : Cert.preserves_Kernel_KernelIdeal := trivial

/-- The kernel's loss is the reference's: the mean term by the identity of the two sums, the other two terms being
    the reference's own terms of the code rows, which the two memories agree on. -/
theorem loss_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    Cert.KernelIdeal.Hand.W15 m ρ c (Proc.devRef .tc Cert.KernelIdeal.main_v97) = Cert.ReferenceIdeal.Value.res_main_v105 m' c := by
  rw [Cert.ReferenceIdeal.Read.val_main_v105_eq, h0, h1, Cert.KernelIdeal.Hand.tail_eq, Cert.KernelIdeal.Hand.core]
  rfl

theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg1),
    fun c => Cert.ReferenceIdeal.Value.res_main_v105 m' c, ?_, ?_⟩
  · refine (θ_run Cert.KernelIdeal.defs _ _).mono (fun r h c => ?_) (Cert.KernelIdeal.Hand.run_all (F := Ideal) m ρ)
    have ha0 := (h c _ (Cert.KernelIdeal.Hand.mem_uc Cert.KernelIdeal.main_arg0 (by decide))).trans (Cert.KernelIdeal.Hand.W15_main_arg0 m ρ c)
    have ha1 := (h c _ (Cert.KernelIdeal.Hand.mem_uc Cert.KernelIdeal.main_arg1 (by decide))).trans (Cert.KernelIdeal.Hand.W15_main_arg1 m ρ c)
    exact ⟨ha1, (h c _ (Cert.KernelIdeal.Hand.mem_uc Cert.KernelIdeal.main_v97 (by decide))).trans (loss_eq m ρ m' c (hagree c).1 (hagree c).2), ha0, ha1⟩
  · refine (θ_run Cert.ReferenceIdeal.defs _ _).mono (fun r h c => ?_) (Cert.ReferenceIdeal.Value.run (F := Ideal) m' ρ')
    exact ⟨(h c).1.trans (hagree c).2, (h c).2.1, (h c).2.2.1, (h c).2.2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
